-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1000000x128 .f32) (main_arg1 : IVec S1000000 32) (main_arg2 : FVec F S128x128 .f32) (main_arg3 : FVec F S128 .f32) (main_arg4 : FVec F S128x1 .f32) (main_arg5 : FVec F S1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1007616x128 : Shape := ⟨2, ![1007616, 128]⟩
abbrev S1007616 : Shape := ⟨1, ![1007616]⟩
abbrev S123x8192 : Shape := ⟨2, ![123, 8192]⟩
abbrev S123 : Shape := ⟨1, ![123]⟩
abbrev S123x1x8192 : Shape := ⟨3, ![123, 1, 8192]⟩
abbrev S1x128 : Shape := ⟨2, ![1, 128]⟩
abbrev S1x1 : Shape := ⟨2, ![1, 1]⟩
abbrev S1024x128 : Shape := ⟨2, ![1024, 128]⟩
abbrev S8192x128 : Shape := ⟨2, ![8192, 128]⟩
abbrev S1x1x8192 : Shape := ⟨3, ![1, 1, 8192]⟩
abbrev S8192x1 : Shape := ⟨2, ![8192, 1]⟩
abbrev S1x8192 : Shape := ⟨2, ![1, 8192]⟩
abbrev S128x8192 : Shape := ⟨2, ![128, 8192]⟩

abbrev nBuf : Space → Nat
  | .hbm => 19
  | .vmem => 10
  | .smem => 2
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S_, .i32⟩
  | .hbm, ⟨7, _⟩ => ⟨S_, .f32⟩
  | .hbm, ⟨8, _⟩ => ⟨S1007616x128, .f32⟩
  | .hbm, ⟨9, _⟩ => ⟨S_, .i32⟩
  | .hbm, ⟨10, _⟩ => ⟨S_, .i32⟩
  | .hbm, ⟨11, _⟩ => ⟨S1007616, .i32⟩
  | .hbm, ⟨12, _⟩ => ⟨S123x8192, .i32⟩
  | .hbm, ⟨13, _⟩ => ⟨S_, .i32⟩
  | .hbm, ⟨14, _⟩ => ⟨S_, .i32⟩
  | .hbm, ⟨15, _⟩ => ⟨S123x1x8192, .i32⟩
  | .hbm, ⟨16, _⟩ => ⟨S1x128, .f32⟩
  | .hbm, ⟨17, _⟩ => ⟨S1x1, .f32⟩
  | .hbm, ⟨18, _⟩ => ⟨S1024x128, .f32⟩
  | .local _ .vmem, ⟨0, _⟩ => ⟨S8192x128, .f32⟩
  | .local _ .vmem, ⟨1, _⟩ => ⟨S8192x128, .f32⟩
  | .local _ .vmem, ⟨2, _⟩ => ⟨S1x1x8192, .i32⟩
  | .local _ .vmem, ⟨3, _⟩ => ⟨S1x1x8192, .i32⟩
  | .local _ .vmem, ⟨4, _⟩ => ⟨S128x128, .f32⟩
  | .local _ .vmem, ⟨5, _⟩ => ⟨S1x128, .f32⟩
  | .local _ .vmem, ⟨6, _⟩ => ⟨S128x1, .f32⟩
  | .local _ .vmem, ⟨7, _⟩ => ⟨S1x1, .f32⟩
  | .local _ .vmem, ⟨8, _⟩ => ⟨S1024x128, .f32⟩
  | .local _ .vmem, ⟨9, _⟩ => ⟨S1024x128, .f32⟩
  | .local _ .smem, ⟨0, _⟩ => ⟨S123, .i32⟩
  | .local _ .smem, ⟨1, _⟩ => ⟨S123, .i32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v3 : Ref sig .tc := ⟨.smem, 0, rfl⟩
abbrev main_v4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![123], ![false]⟩

abbrev pre0 : Pipeline.Prefetch sig := ⟨2, ![main_v3.idx, main_v4.idx], fun | 0 => main_v3.names | 1 => main_v4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v29 : Index := Scalar.indexCast arg0
  ![v29.toNat]
def k0_cond10 (i : grid0.Coords) : BitVec 1 :=
  let arg0 : BitVec 32 := BitVec.ofNat 32 (i 0).val
  let c122_i32 : BitVec 32 := 122#32
  let v73 : BitVec 1 := Scalar.cmpi .eq arg0 c122_i32
  let v74 : BitVec 32 := Scalar.extui v73
  let c0_i32_24 : BitVec 32 := 0#32
  let v75 : BitVec 1 := Scalar.cmpi .ne v74 c0_i32_24
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  pads_S1000000x128_S1007616x128_076160_000 : S1000000x128.Pads (![0, 0] : Fin 2 → Nat) ![7616, 0] ![0, 0] S1007616x128
  h_S_ : 0 < S_.numel
  pads_S1000000_S1007616_076160 : S1000000.Pads (![0] : Fin 1 → Nat) ![7616] ![0] S1007616
  shapeCasts_S1007616_S123x8192 : S1007616.ShapeCasts S123x8192
  reducesTo_S123x8192_S123_d1 : S123x8192.ReducesTo [1] S123
  shapeCasts_S1007616_S123x1x8192 : S1007616.ShapeCasts S123x1x8192
  shapeCasts_S128_S1x128 : S128.ShapeCasts S1x128
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  broadcasts_S8192x1_S8192x128 : S8192x1.Broadcasts S8192x128
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  numel1_S1 : S1.numel = 1
  iota_S128x1_d0_w32 : S128x1.Iotas .tc 32 [0]
  broadcasts_S128x1_S128x8192 : S128x1.Broadcasts S128x8192
  broadcasts_S1x8192_S128x8192 : S1x8192.Broadcasts S128x8192
  natLt_1_32 : 1 < 32
  inb_S1024x128_S128x128_0_0 : ∀ a, (![0, 0] : Fin 2 → Nat) a + S128x128.size a ≤ S1024x128.size a
  shapeCasts_S128x128_S128x128 : S128x128.ShapeCasts S128x128
  inb_S1024x128_S128x128_128_0 : ∀ a, (![128, 0] : Fin 2 → Nat) a + S128x128.size a ≤ S1024x128.size a
  inb_S1024x128_S128x128_256_0 : ∀ a, (![256, 0] : Fin 2 → Nat) a + S128x128.size a ≤ S1024x128.size a
  inb_S1024x128_S128x128_384_0 : ∀ a, (![384, 0] : Fin 2 → Nat) a + S128x128.size a ≤ S1024x128.size a
  inb_S1024x128_S128x128_512_0 : ∀ a, (![512, 0] : Fin 2 → Nat) a + S128x128.size a ≤ S1024x128.size a
  inb_S1024x128_S128x128_640_0 : ∀ a, (![640, 0] : Fin 2 → Nat) a + S128x128.size a ≤ S1024x128.size a
  inb_S1024x128_S128x128_768_0 : ∀ a, (![768, 0] : Fin 2 → Nat) a + S128x128.size a ≤ S1024x128.size a
  inb_S1024x128_S128x128_896_0 : ∀ a, (![896, 0] : Fin 2 → Nat) a + S128x128.size a ≤ S1024x128.size a
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S128x8192_S8192x128_S128x128_1_0_0_1_n_n_wf : DotDims.WF S128x8192 S8192x128 S128x128 [1] [0] [0] [1] [] []
  hrank0 : 0 < grid0.rank
  k0_off1_inb : ∀ i : grid0.Coords, ∀ a, (k0_off1 i) a + S1.size a ≤ S123.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .f32 = 32 ∨ (Rect.block (s := S1007616x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S123x1x8192.size a
  hwx0_1 : ∀ i : grid0.Coords, EltTy.bits .i32 = 32 ∨ (Rect.block (s := S123x1x8192) S1x1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x128.size a
  hwx0_6 : ∀ i : grid0.Coords, EltTy.bits .f32 = 32 ∨ (Rect.block (s := S1024x128) S1024x128.size (cc0_transform_6 i) (hinb0_6 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf

abbrev spec0_0 : Pipeline.WinSpec sig grid0.rank :=
  Pipeline.WinSpec.ofSpec (Memref.whole main_v0) S8192x128.size reads0_0 false false 2 stage0_0 sem0_0 nbuf0_0 hstage0_0

abbrev spec0_1 : Pipeline.WinSpec sig grid0.rank :=
  Pipeline.WinSpec.ofSpec (Memref.whole main_v5) S1x1x8192.size reads0_1 false false 2 stage0_1 sem0_1 nbuf0_1 hstage0_1

abbrev spec0_2 : Pipeline.WinSpec sig grid0.rank :=
  Pipeline.WinSpec.ofSpec (Memref.whole main_arg2) S128x128.size reads0_2 false true 1 stage0_2 sem0_2 nbuf0_2 hstage0_2

abbrev spec0_3 : Pipeline.WinSpec sig grid0.rank :=
  Pipeline.WinSpec.ofSpec (Memref.whole main_v6) S1x128.size reads0_3 false true 1 stage0_3 sem0_3 nbuf0_3 hstage0_3

abbrev spec0_4 : Pipeline.WinSpec sig grid0.rank :=
  Pipeline.WinSpec.ofSpec (Memref.whole main_arg4) S128x1.size reads0_4 false true 1 stage0_4 sem0_4 nbuf0_4 hstage0_4

abbrev spec0_5 : Pipeline.WinSpec sig grid0.rank :=
  Pipeline.WinSpec.ofSpec (Memref.whole main_v7) S1x1.size reads0_5 false true 1 stage0_5 sem0_5 nbuf0_5 hstage0_5

abbrev spec0_6 : Pipeline.WinSpec sig grid0.rank :=
  Pipeline.WinSpec.ofSpec (Memref.whole main_v8) S1024x128.size reads0_6 true true 1 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))
abbrev idle0 : Fin 7 → grid0.Coords → Bool := fun | 0 => fun _ => false | 1 => fun _ => false | 2 => fun _ => false | 3 => fun _ => false | 4 => fun _ => false | 5 => fun _ => false | 6 => fun i => !(k0_cond10 i == 1#1) | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S1000000x1 : Shape := ⟨2, ![1000000, 1]⟩
abbrev S1x1 : Shape := ⟨2, ![1, 1]⟩
abbrev S1024x128 : Shape := ⟨2, ![1024, 128]⟩

abbrev nBuf : Space → Nat
  | .hbm => 31
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1000000x128, .f32⟩
  | .hbm, ⟨7, _⟩ => ⟨S1x128, .f32⟩
  | .hbm, ⟨8, _⟩ => ⟨S1000000x128, .f32⟩
  | .hbm, ⟨9, _⟩ => ⟨S1000000x128, .f32⟩
  | .hbm, ⟨10, _⟩ => ⟨S_, .f32⟩
  | .hbm, ⟨11, _⟩ => ⟨S1000000x128, .f32⟩
  | .hbm, ⟨12, _⟩ => ⟨S1000000x128, .f32⟩
  | .hbm, ⟨13, _⟩ => ⟨S1000000x1, .f32⟩
  | .hbm, ⟨14, _⟩ => ⟨S1x1, .f32⟩
  | .hbm, ⟨15, _⟩ => ⟨S1000000x1, .f32⟩
  | .hbm, ⟨16, _⟩ => ⟨S1000000x1, .f32⟩
  | .hbm, ⟨17, _⟩ => ⟨S1000000x1, .f32⟩
  | .hbm, ⟨18, _⟩ => ⟨S1000000x1, .f32⟩
  | .hbm, ⟨19, _⟩ => ⟨S_, .f32⟩
  | .hbm, ⟨20, _⟩ => ⟨S1000000x1, .f32⟩
  | .hbm, ⟨21, _⟩ => ⟨S1000000x1, .f32⟩
  | .hbm, ⟨22, _⟩ => ⟨S_, .f32⟩
  | .hbm, ⟨23, _⟩ => ⟨S1000000x1, .f32⟩
  | .hbm, ⟨24, _⟩ => ⟨S1000000x1, .f32⟩
  | .hbm, ⟨25, _⟩ => ⟨S1000000x128, .f32⟩
  | .hbm, ⟨26, _⟩ => ⟨S1000000x128, .f32⟩
  | .hbm, ⟨27, _⟩ => ⟨S_, .f32⟩
  | .hbm, ⟨28, _⟩ => ⟨S1024x128, .f32⟩
  | .hbm, ⟨29, _⟩ => ⟨S1000000x1, .i32⟩
  | .hbm, ⟨30, _⟩ => ⟨S1024x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S1024x128 : S_.BroadcastsInDim S1024x128 (![] : Fin 0 → Fin S1024x128.rank)
  bcast_S1000000_S1000000x1_0 : S1000000.BroadcastsInDim S1000000x1 (![0] : Fin 1 → Fin S1000000x1.rank)
  dot_S1000000x128_S128x128_S1000000x128_1_0_0_1_n_n_wf : DotDims.WF S1000000x128 S128x128 S1000000x128 [1] [0] [0] [1] [] []
  dot_S1000000x128_S128x1_S1000000x1_1_0_0_1_n_n_wf : DotDims.WF S1000000x128 S128x1 S1000000x1 [1] [0] [0] [1] [] []
  scatter_S1024x128_S1000000x1_S1000000x128_1_0_0_1_wf : ScatterDims.WF S1024x128 S1000000x1 S1000000x128 [1] [0] [0] 1

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf
def scatter_S1024x128_S1000000x1_S1000000x128_1_0_0_1 : ScatterDims S1024x128 S1000000x1 S1000000x128 where
  updateWindowDims := [1]
  insertedWindowDims := [0]
  scatterDimsToOperandDims := [0]
  indexVectorDim := 1
  wf := scatter_S1024x128_S1000000x1_S1000000x128_1_0_0_1_wf

class Facts : Prop extends Facts₀ where

variable [Facts]
-- ==== Proof.KBase.lean ====
/-
  The kernel program's @main before its one region, and the tables the region runs at.

  @main first pads the node rows with zero rows and the ids with the id 1024 up to 123 blocks of 8192, reshapes the ids
  block by block, takes each block's least and greatest id (two tables of 123 words), reshapes the two biases, and then
  enters the region. `V` is what every buffer holds at that moment, as a function of the launch memory; the region's
  two prefetched tables are read off it (`tbl`), and since no index map reads a table every contents is admissible.
-/
import proofs.«414496_j87668872446565_1_alg».proof.Proof.Gen.Kernel.Launch
import Idealize.ShloMosaic.Lib.Pipeline.Frame

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The five stretches of host operations before the region, in order. -/
abbrev opss : List (List (HloOp τ sig (Elt F))) := [hostOps0, hostOps0_1, hostOps0_2, hostOps0_3, hostOps0_4]

/-- Core `c`'s buffers when the region is entered, as a valuation: the launch contents after the five stretches. -/
abbrev V0 (c : Dev nD) : Valuation τ sig (Elt F) := StableHlo.after (List.flatten (opss (F := F))) (fun b => m (c, b))
/-- The same read at a TensorCore reference. -/
abbrev V (c : Dev nD) (b : Ref sig .tc) : Buf (Elt F) ((c : Thread nD τ).loc b) := V0 m c (Proc.devRef .tc b)

theorem opss_sub : (opss (F := F)).Forall fun ops => ops.Forall fun op => op.bufs ⊆ StableHlo.tcRefs τ sig :=
  ⟨hostOps0_sub, hostOps0_1_sub, hostOps0_2_sub, hostOps0_3_sub, hostOps0_4_sub⟩

theorem opss_fresh : (opss (F := F)).Forall fun ops => ops.Forall fun op => op.fresh = ∅ := by
  simp only [List.Forall]; repeat' constructor

/-- @main is the five stretches and then the region: holding the buffers at the launch contents it reduces to the
    region holding them at `V`. -/
theorem hmain (𝒱₀ : Variants) :
    Pipeline.HMainP (Ix := Unit) (Name := ℕ) (U := UR sig nD τ) (Lvl := ℕ) (pcfgs (F := F)) 0 defs₀ 𝒱₀ m (main (F := F)) (V m) :=
  Pipeline.hmainP_prefixes (pcfgs (F := F)) 0 defs₀ 𝒱₀ m main opss opss_sub opss_fresh (fun c => (main_chain c).trans rfl)

/-- The one core. -/
abbrev c0 : Dev nD := ⟨0, Nat.one_pos⟩

/-- The two tables' contents at the region's entry. -/
def tbl : pre0.Contents (Elt F) := fun k => V m c0 (pre0.ref k)

/-- They are admissible: the side condition on the tables is empty (no index map reads one). -/
def adm : (p : Fin 1) → (pcfgs (F := F) p).Adm := fun _ => ⟨tbl m, trivial⟩

theorem hpf (c : Dev nD) (k : Fin (pcfgs (F := F) 0).pre.K) : V m c ((pcfgs (F := F) 0).pre.ref k) = (adm m 0).1 k := by
  obtain rfl : c = c0 := Subsingleton.elim _ _
  rfl

end Cert.Kernel.Run

end
-- ==== Proof.KBody.lean ====
import proofs.«414496_j87668872446565_1_alg».proof.Proof.Gen.Kernel.Launch
import proofs.«414496_j87668872446565_1_alg».proof.Proof.Gen.Kernel.Skeleton
import Idealize.ShloMosaic.Lib.Pipeline.FrameBody
import Idealize.ShloMosaic.Lib.Pipeline.Frame
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- One grid point of the kernel, run once: on whole memrefs — the two tables of per-block least and greatest ids at any
    share, the six inputs' staging buffers at their contents, the output's staging buffer and the accumulator at theirs —
    the body runs to the continuation holding the tables and the inputs as they were, and the output's buffer and the
    accumulator at contents the run FINDS (the two witnesses): the accumulator cleared at the first point, then, for each of
    the eight groups of 128 graph ids that the block's id range meets, that group's 128 rows overwritten by their old value
    plus the block's rows whose id is the row's; the output's buffer overwritten by the accumulator at the last point and
    left alone elsewhere. Each of the ten conditionals is run both ways and joined, so the witnesses hold the condition
    as a case distinction. The accumulator's witness is chosen before the output buffer's old contents are named: it does
    not depend on them. -/
noncomputable def kernelRun (c : Dev nD) (i : grid0.Coords)
    (arg1 : Memref sig .tc .smem S123 .i32) (harg1 : arg1.IsWhole) (arg2 : Memref sig .tc .smem S123 .i32) (harg2 : arg2.IsWhole)
    (arg3 : Memref sig .tc .vmem S8192x128 .f32) (harg3 : arg3.IsWhole) (arg4 : Memref sig .tc .vmem S1x1x8192 .i32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x1 .f32) (harg7 : arg7.IsWhole) (arg8 : Memref sig .tc .vmem S1x1 .f32) (harg8 : arg8.IsWhole)
    (arg9 : Memref sig .tc .vmem S1024x128 .f32) (harg9 : arg9.IsWhole) (arg10 : Memref sig .tc .vmem S1024x128 .f32) (harg10 : arg10.IsWhole)
    (t1 : Vec F S123 .i32) (t2 : Vec F S123 .i32) (x0 : Vec F S8192x128 .f32) (x1 : Vec F S1x1x8192 .i32) (x2 : Vec F S128x128 .f32)
    (x3 : Vec F S1x128 .f32) (x4 : Vec F S128x1 .f32) (x5 : Vec F S1x1 .f32) (xs : Vec F S1024x128 .f32) :
    Σ' (fS : Buf (Elt F) (arg10.view.loc (c : Thread nD τ))), ∀ (xo : Vec F S1024x128 .f32),
      Σ' (fO : Buf (Elt F) (arg9.view.loc (c : Thread nD τ))), PLift (∀ (q : PosShare TreeShare) (E : Set ℕ) (K : PUnit → sProp 𝕄),
        iprop(owns (c : Thread nD τ) arg1 q t1 ∗ owns (c : Thread nD τ) arg2 q t2
            ∗ owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare xo ∗ owns (c : Thread nD τ) arg10 fullShare xs
            ∗ (iprop(owns (c : Thread nD τ) arg1 q t1 ∗ owns (c : Thread nD τ) arg2 q t2
                ∗ owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4 ∗ owns (c : Thread nD τ) arg8 fullShare x5
                ∗ (arg9.view.loc (c : Thread nD τ) ↦[arg9.view.set]{fullShare} fO)
                ∗ (arg10.view.loc (c : Thread nD τ) ↦[arg10.view.set]{fullShare} fS)) -∗ K ⟨⟩))
          ⊢ wp frame (wpE (defs₀ (F := F)) Variants.none c none) E
              (cc0__kernel i arg1 harg1 arg2 harg2 arg3 harg3 arg4 harg4 arg5 harg5 arg6 harg6 arg7 harg7 arg8 harg8 arg9 harg9 arg10 harg10) K) := by
  refine ⟨?_, fun xo => ⟨?_, ⟨fun q E K => ?run⟩⟩⟩
  case run =>
    simp only [cc0__kernel_eq_skeleton]; unfold cc0__kernel_skel
    simp only [k0_part1_eq_skeleton, k0_part2_eq_skeleton]
    unfold owns
    iintro ⟨⟨%g1, %hg1, T1⟩, ⟨%g2, %hg2, T2⟩, ⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fs, %hfs, HS⟩, Hk⟩
    obtain rfl := harg1.eq_unread hg1; obtain rfl := harg2.eq_unread hg2
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfo; obtain rfl := harg10.eq_unread hfs
    sl_exec
    sl_step
    iapply Hk
    isplitl [T1]
    · iexists _; isplitr; · ipureintro; exact harg1.read_unread _
      iexact T1
    isplitl [T2]
    · iexists _; isplitr; · ipureintro; exact harg2.read_unread _
      iexact T2
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HO]
    · iexact HO
    iexact HS

end Cert.Kernel.Body

end
-- ==== Proof.KArgs.lean ====
/-
  No host operation of @main writes an argument.

  Before its one region @main runs fifteen host operations: constants, two pads, reshapes and two reductions. Each writes
  its own result buffer, and none of these is an argument of @main. So when the region is entered each of the six
  argument arrays holds what it held at launch.
-/
import proofs.«414496_j87668872446565_1_alg».proof.Proof.KBase
import Idealize.ShloMosaic.Lib.StableHlo.Run

noncomputable section

namespace Cert.Kernel.Run

open Cert.Kernel Cert.Kernel.Gen
open Idealize.ShloMosaic Idealize.ShloMosaic.TcCoe

variable {F : FTy → Type} [FloatOps F]

variable (m : (ℓ : Loc nD τ sig) → Buf (Elt F) ℓ)

/-- The references the host operations before the region write. -/
abbrev hostW : List (Ref sig .tc) :=
  [main_c, main_call0_v0, main_v0, main_c_0, main_call1_v0, main_v1, main_v2, main_c_1, main_v3, main_c_2, main_v4,
   main_v5, main_v6, main_v7]

/-- Every host operation before the region writes one of them. -/
theorem host_writes : (List.flatten (opss (F := F))).Forall fun op =>
    op.writes ⊆ (hostW.map (Proc.devRef (τ := τ) .tc)).toFinset := by
  simp only [hostOps0, hostOps0_1, hostOps0_2, hostOps0_3, hostOps0_4, List.flatten_cons, List.flatten_nil,
    List.append_nil, List.cons_append, List.nil_append, List.Forall]
  simp only [StableHlo.nullary_writes, StableHlo.unary_writes, StableHlo.binary_writes, StableHlo.reshape_writes,
    Finset.singleton_subset_iff, List.mem_toFinset]
  repeat' apply And.intro
  all_goals exact List.mem_map_of_mem (by decide)

/-- A reference no host operation writes is found as launched. -/
theorem V_of (c : Dev nD) (r : Ref sig .tc) (h : r ∉ hostW) : V m c r = m ((c : Thread nD τ).loc r) :=
  StableHlo.after_of_writes_sub (List.flatten (opss (F := F))) _ host_writes h

theorem V_arg0 (c : Dev nD) : V m c main_arg0 = m ((c : Thread nD τ).loc main_arg0) := V_of m c main_arg0 (by decide)
theorem V_arg1 (c : Dev nD) : V m c main_arg1 = m ((c : Thread nD τ).loc main_arg1) := V_of m c main_arg1 (by decide)
theorem V_arg2 (c : Dev nD) : V m c main_arg2 = m ((c : Thread nD τ).loc main_arg2) := V_of m c main_arg2 (by decide)
theorem V_arg3 (c : Dev nD) : V m c main_arg3 = m ((c : Thread nD τ).loc main_arg3) := V_of m c main_arg3 (by decide)
theorem V_arg4 (c : Dev nD) : V m c main_arg4 = m ((c : Thread nD τ).loc main_arg4) := V_of m c main_arg4 (by decide)
theorem V_arg5 (c : Dev nD) : V m c main_arg5 = m ((c : Thread nD τ).loc main_arg5) := V_of m c main_arg5 (by decide)

end Cert.Kernel.Run

end
-- ==== Proof.KFrame.lean ====
/-
  The word-level kernel's frame: from any memory, @main runs to the end and leaves its six arguments as they were.

  Nothing of what the kernel computes is named here. Per grid point the body is the one run of KBody; it is handed each
  input's current buffer at its block, the two tables, the output's buffer and the accumulator at anything, and hands
  all of them back, the inputs and the tables as they were. The conditionals read only the grid point and the tables'
  words, so the run goes through whatever the buffers hold. The launch is the pipeline library's frame run for a region
  with prefetched tables behind host operations, over proof data that forget the output window.
-/
import proofs.«414496_j87668872446565_1_alg».proof.Proof.KBase
import proofs.«414496_j87668872446565_1_alg».proof.Proof.KBody
import proofs.«414496_j87668872446565_1_alg».proof.Proof.KArgs

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the tables' contents. -/
abbrev cfgA : Pipeline.Cfg sig Λ₀ := cfg0 (F := F) (adm m 0)

theorem N_A : (cfgA m).N = 123 := N_0

/-- Each window's current staging buffer at point `t`. -/
abbrev sl (t : Fin (cfgA m).N) : (w : Fin 7) → Fin (spec0 w).nbuf := (cfgA m).slots t
abbrev ms0 (t : Fin (cfgA m).N) : Memref sig .tc .vmem S8192x128 .f32 := spec0_0.stage (sl m t 0)
abbrev ms1 (t : Fin (cfgA m).N) : Memref sig .tc .vmem S1x1x8192 .i32 := spec0_1.stage (sl m t 1)
abbrev ms2 (t : Fin (cfgA m).N) : Memref sig .tc .vmem S128x128 .f32 := spec0_2.stage (sl m t 2)
abbrev ms3 (t : Fin (cfgA m).N) : Memref sig .tc .vmem S1x128 .f32 := spec0_3.stage (sl m t 3)
abbrev ms4 (t : Fin (cfgA m).N) : Memref sig .tc .vmem S128x1 .f32 := spec0_4.stage (sl m t 4)
abbrev ms5 (t : Fin (cfgA m).N) : Memref sig .tc .vmem S1x1 .f32 := spec0_5.stage (sl m t 5)
abbrev ms6 (t : Fin (cfgA m).N) : Memref sig .tc .vmem S1024x128 .f32 := spec0_6.stage (sl m t 6)
theorem hs0 (t : Fin (cfgA m).N) : (ms0 m t).IsWhole := Facts₀.hstage0_0 ((sl m t 0).cast Facts₀.nbuf0_0)
theorem hs1 (t : Fin (cfgA m).N) : (ms1 m t).IsWhole := Facts₀.hstage0_1 ((sl m t 1).cast Facts₀.nbuf0_1)
theorem hs2 (t : Fin (cfgA m).N) : (ms2 m t).IsWhole := Facts₀.hstage0_2 ((sl m t 2).cast Facts₀.nbuf0_2)
theorem hs3 (t : Fin (cfgA m).N) : (ms3 m t).IsWhole := Facts₀.hstage0_3 ((sl m t 3).cast Facts₀.nbuf0_3)
theorem hs4 (t : Fin (cfgA m).N) : (ms4 m t).IsWhole := Facts₀.hstage0_4 ((sl m t 4).cast Facts₀.nbuf0_4)
theorem hs5 (t : Fin (cfgA m).N) : (ms5 m t).IsWhole := Facts₀.hstage0_5 ((sl m t 5).cast Facts₀.nbuf0_5)
theorem hs6 (t : Fin (cfgA m).N) : (ms6 m t).IsWhole := Facts₀.hstage0_6 ((sl m t 6).cast Facts₀.nbuf0_6)

/-- The two tables and the accumulator, as memrefs. -/
abbrev tbM1 : Memref sig .tc .smem S123 .i32 := Memref.whole main_v3
abbrev tbM2 : Memref sig .tc .smem S123 .i32 := Memref.whole main_v4
abbrev scM : Memref sig .tc .vmem S1024x128 .f32 := Memref.whole cc0_scratch0

/-- Window `w`'s block at point `t`, read off its array as the region finds it. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

/-- The tables as vectors of 123 words. -/
abbrev tb1 (c : Dev nD) : Vec F S123 .i32 := V m c main_v3
abbrev tb2 (c : Dev nD) : Vec F S123 .i32 := V m c main_v4

/-- The one window whose contents the frame does not name: the output. -/
def forgets : Fin 7 → Bool := fun w => w.val == 6

/-- The proof data: the arrays as the region finds them; after the body each input's buffer at its block, the output's,
    forgotten, at contents nothing names; the invariant the class's (the accumulator at anything, the generator register)
    with the tables' halves; nothing owed. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfgA m) ⟨6, h⟩ t
  Φ _ := iprop(Pipeline.ΦA spec0 c ∗ Pipeline.ΦT pre0 (tbl m) c)
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = iblk m c 3 t := by dsimp only [dats]; rfl
theorem after4 (c : Dev nD) (t : Fin (cfgA m).N) : (dats m 0 c).after 4 t = iblk m c 4 t := by dsimp only [dats]; rfl
theorem after5 (c : Dev nD) (t : Fin (cfgA m).N) : (dats m 0 c).after 5 t = iblk m c 5 t := by dsimp only [dats]; rfl

/-- Each input's current buffer holds its block at every point, fetched there or not: unfetched, the block index has
    not moved and the body left the block in place. -/
theorem before0 (c : Dev nD) (t : Fin (cfgA m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgA m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgA m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgA m).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

theorem leaves0 (c : Dev nD) (t : Fin (cfgA m).N) : (dats m 0 c).leavesExact 0 t = owns (c : Thread nD τ) (ms0 m t) fullShare (iblk m c 0 t) := by
  unfold Dat.leavesExact; rw [show (cfgA m).idle 0 ((cfgA m).grid.coords t) = false from rfl, after0]; rfl
theorem leaves1 (c : Dev nD) (t : Fin (cfgA m).N) : (dats m 0 c).leavesExact 1 t = owns (c : Thread nD τ) (ms1 m t) fullShare (iblk m c 1 t) := by
  unfold Dat.leavesExact; rw [show (cfgA m).idle 1 ((cfgA m).grid.coords t) = false from rfl, after1]; rfl
theorem leaves2 (c : Dev nD) (t : Fin (cfgA m).N) : (dats m 0 c).leavesExact 2 t = owns (c : Thread nD τ) (ms2 m t) fullShare (iblk m c 2 t) := by
  unfold Dat.leavesExact; rw [show (cfgA m).idle 2 ((cfgA m).grid.coords t) = false from rfl, after2]; rfl
theorem leaves3 (c : Dev nD) (t : Fin (cfgA m).N) : (dats m 0 c).leavesExact 3 t = owns (c : Thread nD τ) (ms3 m t) fullShare (iblk m c 3 t) := by
  unfold Dat.leavesExact; rw [show (cfgA m).idle 3 ((cfgA m).grid.coords t) = false from rfl, after3]; rfl
theorem leaves4 (c : Dev nD) (t : Fin (cfgA m).N) : (dats m 0 c).leavesExact 4 t = owns (c : Thread nD τ) (ms4 m t) fullShare (iblk m c 4 t) := by
  unfold Dat.leavesExact; rw [show (cfgA m).idle 4 ((cfgA m).grid.coords t) = false from rfl, after4]; rfl
theorem leaves5 (c : Dev nD) (t : Fin (cfgA m).N) : (dats m 0 c).leavesExact 5 t = owns (c : Thread nD τ) (ms5 m t) fullShare (iblk m c 5 t) := by
  unfold Dat.leavesExact; rw [show (cfgA m).idle 5 ((cfgA m).grid.coords t) = false from rfl, after5]; rfl

/-- The tables' halves, table by table. -/
theorem PhiT_eq (c : Dev nD) : (Pipeline.ΦT pre0 (tbl m) c : sProp 𝕄)
    = iprop((((c : Thread nD τ).loc main_v3) ↦{fullShare.right} tbl m 0) ∗ (((c : Thread nD τ).loc main_v4) ↦{fullShare.right} tbl m 1)) := by
  unfold Pipeline.ΦT Pipeline.prefHeld
  rw [show (Finset.univ : Finset (Fin 2)) = insert (0 : Fin 2) {(1 : Fin 2)} from by decide,
    bigSep_insert (by decide), bigSep_singleton]
  rfl

/-- The accumulator's buffer, held through its memref at whatever the run left, is the buffer held whole at something. -/
theorem sc_back (c : Dev nD) (f : Buf (Elt F) (scM.view.loc (c : Thread nD τ))) :
    (scM.view.loc (c : Thread nD τ) ↦[scM.view.set]{fullShare} f : sProp 𝕄)
      ⊢ iprop(∃ g : Buf (Elt F) ((c : Thread nD τ).loc cc0_scratch0), ((c : Thread nD τ).loc cc0_scratch0) ↦{fullShare} g) := by
  refine (show _ ⊢ (owns (c : Thread nD τ) scM fullShare (scM.view.read (Elt F) f) : sProp 𝕄) from ?_).trans ?_
  · unfold owns; iintro H; iexists _; isplitr; · ipureintro; rfl
    iexact H
  · rw [owns_whole_eq]; iintro ⟨%g, -, H⟩; iexists g; iexact H

/-! ## The body obligation -/

/-- The kernel's body at point `t`, on what the pipeline calls it with. -/
abbrev bodyAt (t : Fin (cfgA m).N) : Prog (TpuEff nD τ sig (Elt F) Λ₀ .tc) PUnit :=
  cc0__kernel (grid0.coords t) tbM1 (Memref.isWhole_whole _) tbM2 (Memref.isWhole_whole _)
    (ms0 m t) (hs0 m t) (ms1 m t) (hs1 m t) (ms2 m t) (hs2 m t) (ms3 m t) (hs3 m t) (ms4 m t) (hs4 m t) (ms5 m t) (hs5 m t)
    (ms6 m t) (hs6 m t) scM (Memref.isWhole_whole _)

def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare d))

def bodyPost (c : Dev nD) (t : Fin (cfgA m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t
    ∗ (∃ d, owns (c : Thread nD τ) (ms6 m t) fullShare d))

set_option maxHeartbeats 4000000 in
/-- The body at any point: the inputs' buffers hold their blocks; the invariant hands over the tables' halves, the
    generator register and the accumulator at anything; the run applies; everything comes back, the accumulator and the
    output's buffer at whatever the run left. The core owes nothing throughout. -/
theorem sound_body (c : Dev nD) (t : Fin (cfgA m).N) :
    bodyPre m c t ⊢ wp frame (wpE (defs₀ (F := F)) Variants.none c none) Set.univ (bodyAt m t) (fun _ => bodyPost m c t) := by
  obtain rfl : c = c0 := Subsingleton.elim _ _
  unfold bodyPre bodyPost
  simp only [before0, before1, before2, before3, before4, before5]
  rw [show (dats m 0 c0).owesAt () t.succ = (dats m 0 c0).owesAt () t.castSucc from rfl,
    show (dats m 0 c0).Φ t.succ = (dats m 0 c0).Φ t.castSucc from rfl]
  rw [leaves0, leaves1, leaves2, leaves3, leaves4, leaves5]
  rw [show (dats m 0 c0).Φ t.castSucc = iprop(Pipeline.ΦA spec0 c0 ∗ Pipeline.ΦT pre0 (tbl m) c0) from rfl, PhiT_eq]
  unfold Pipeline.ΦA; rw [scopedRest0_eq]
  iintro ⟨⟨⟨⟨%fs, HS⟩, Hg⟩, HT0, HT1⟩, Ho, ⟨%d0, H0⟩, ⟨%d1, H1⟩, ⟨%d2, H2⟩, ⟨%d3, H3⟩, ⟨%d4, H4⟩, ⟨%d5, H5⟩, ⟨%d6, H6⟩⟩
  iapply (((kernelRun c0 (grid0.coords t) tbM1 (Memref.isWhole_whole _) tbM2 (Memref.isWhole_whole _)
    (ms0 m t) (hs0 m t) (ms1 m t) (hs1 m t) (ms2 m t) (hs2 m t) (ms3 m t) (hs3 m t) (ms4 m t) (hs4 m t) (ms5 m t) (hs5 m t)
    (ms6 m t) (hs6 m t) scM (Memref.isWhole_whole _) (tb1 m c0) (tb2 m c0)
    (iblk m c0 0 t) (iblk m c0 1 t) (iblk m c0 2 t) (iblk m c0 3 t) (iblk m c0 4 t) (iblk m c0 5 t) fs).2 d6).2.down fullShare.right Set.univ _)
  isplitl [HT0]
  · rw [owns_whole_eq]; iexists _; isplitr; · ipureintro; rfl
    iexact HT0
  isplitl [HT1]
  · rw [owns_whole_eq]; iexists _; isplitr; · ipureintro; rfl
    iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]
  · rw [owns_whole_eq]; iexists _; isplitr; · ipureintro; rfl
    iexact HS
  rw [owns_whole_eq, owns_whole_eq]
  iintro ⟨⟨%g1, %hg1, HT0⟩, ⟨%g2, %hg2, HT1⟩, H0, H1, H2, H3, H4, H5, HO, HS⟩
  subst hg1; subst hg2
  isplitl [HS Hg HT0 HT1]
  · isplitl [HS Hg]
    · isplitl [HS]
      · iapply (sc_back (F := F) c0 _); iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _
  unfold owns; iexists _; isplitr; swap; · iexact HO
  ipureintro; rfl

/-- The library's body obligation, at every point, the output window forgotten. -/
theorem body_obligation (c : Dev nD) : BodyObligation (dats m 0 c) (defs₀ (F := F)) Variants.none () Set.univ forgets := fun t => by
  rw [bigSep_W0, bigSep_W0]
  exact sound_body m c t

/-! ## The launch and the frame -/

-- the launch theorem's implicit arguments are found by unifying its conclusion with this one, which takes unfolding plain
-- definitions in a metavariable's type
set_option maxHeartbeats 4000000 in
set_option backward.isDefEq.respectTransparency.types false in
/-- From any memory with zero counters every weakly fair execution of @main terminates, and every final state has every
    input array of the pipeline unchanged, nothing stated of the forgotten output, and every other unscoped buffer as the
    region found it. -/
theorem run_main : θ_run defs (onTc (τ := τ) (main (F := F))) (s₀ m ρ)
    (Pipeline.RDat.FramePost (Pipeline.pin pcfgs (fun _ => adm m 0) 0) (fun c => (dats m 0 c).toRForget forgets) (V m)) :=
  Pipeline.RDat.θ_run_frameP pcfgs (fun _ => adm m 0) (0 : Fin 1) launch0 defs₀ Variants.none
    (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hpf := hpf m)
    (hΦ := fun _ _ => rfl)

/-- The frame: the six arguments end as they were launched. The two weight matrices are windows' arrays, never written
    back; the other four bypass the region; and no host operation before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.RDat.FramePost (Pipeline.pin pcfgs (fun _ => adm m 0) 0)
      (fun c => (dats m 0 c).toRForget forgets) (V m) r) c =>
    ⟨((h c).2 main_arg0 (by decide : main_arg0 ∈ Pipeline.restRefs sig spec0)).trans (V_arg0 m c),
     ((h c).2 main_arg1 (by decide : main_arg1 ∈ Pipeline.restRefs sig spec0)).trans (V_arg1 m c),
     (Pipeline.RDat.FramePost.arr_in h c 2 rfl).trans ((A_eq m c 2).trans (V_arg2 m c)),
     ((h c).2 main_arg3 (by decide : main_arg3 ∈ Pipeline.restRefs sig spec0)).trans (V_arg3 m c),
     (Pipeline.RDat.FramePost.arr_in h c 4 rfl).trans ((A_eq m c 4).trans (V_arg4 m c)),
     ((h c).2 main_arg5 (by decide : main_arg5 ∈ Pipeline.restRefs sig spec0)).trans (V_arg5 m c)⟩) (run_main m ρ)

end Cert.Kernel.Run

end
-- ==== Proof.KIBase.lean ====
/-
  The kernel program's @main before its one region, and the tables the region runs at.

  @main first pads the node rows with zero rows and the ids with the id 1024 up to 123 blocks of 8192, reshapes the ids
  block by block, takes each block's least and greatest id (two tables of 123 words), reshapes the two biases, and then
  enters the region. `V` is what every buffer holds at that moment, as a function of the launch memory; the region's
  two prefetched tables are read off it (`tbl`), and since no index map reads a table every contents is admissible.
-/
import proofs.«414496_j87668872446565_1_alg».proof.Proof.Gen.KernelIdeal.Launch
import Idealize.ShloMosaic.Lib.Pipeline.Frame

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The five stretches of host operations before the region, in order. -/
abbrev opss : List (List (HloOp τ sig (Elt F))) := [hostOps0, hostOps0_1, hostOps0_2, hostOps0_3, hostOps0_4]

/-- Core `c`'s buffers when the region is entered, as a valuation: the launch contents after the five stretches. -/
abbrev V0 (c : Dev nD) : Valuation τ sig (Elt F) := StableHlo.after (List.flatten (opss (F := F))) (fun b => m (c, b))
/-- The same read at a TensorCore reference. -/
abbrev V (c : Dev nD) (b : Ref sig .tc) : Buf (Elt F) ((c : Thread nD τ).loc b) := V0 m c (Proc.devRef .tc b)

theorem opss_sub : (opss (F := F)).Forall fun ops => ops.Forall fun op => op.bufs ⊆ StableHlo.tcRefs τ sig :=
  ⟨hostOps0_sub, hostOps0_1_sub, hostOps0_2_sub, hostOps0_3_sub, hostOps0_4_sub⟩

theorem opss_fresh : (opss (F := F)).Forall fun ops => ops.Forall fun op => op.fresh = ∅ := by
  simp only [List.Forall]; repeat' constructor

/-- @main is the five stretches and then the region: holding the buffers at the launch contents it reduces to the
    region holding them at `V`. -/
theorem hmain (𝒱₀ : Variants) :
    Pipeline.HMainP (Ix := Unit) (Name := ℕ) (U := UR sig nD τ) (Lvl := ℕ) (pcfgs (F := F)) 0 defs₀ 𝒱₀ m (main (F := F)) (V m) :=
  Pipeline.hmainP_prefixes (pcfgs (F := F)) 0 defs₀ 𝒱₀ m main opss opss_sub opss_fresh (fun c => (main_chain c).trans rfl)

/-- The one core. -/
abbrev c0 : Dev nD := ⟨0, Nat.one_pos⟩

/-- The two tables' contents at the region's entry. -/
def tbl : pre0.Contents (Elt F) := fun k => V m c0 (pre0.ref k)

/-- They are admissible: the side condition on the tables is empty (no index map reads one). -/
def adm : (p : Fin 1) → (pcfgs (F := F) p).Adm := fun _ => ⟨tbl m, trivial⟩

theorem hpf (c : Dev nD) (k : Fin (pcfgs (F := F) 0).pre.K) : V m c ((pcfgs (F := F) 0).pre.ref k) = (adm m 0).1 k := by
  obtain rfl : c = c0 := Subsingleton.elim _ _
  rfl

end Cert.KernelIdeal.Run

end
-- ==== Proof.KIBody.lean ====
import proofs.«414496_j87668872446565_1_alg».proof.Proof.Gen.KernelIdeal.Launch
import proofs.«414496_j87668872446565_1_alg».proof.Proof.Gen.KernelIdeal.Skeleton
import Idealize.ShloMosaic.Lib.Pipeline.FrameBody
import Idealize.ShloMosaic.Lib.Pipeline.Frame
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- One grid point of the kernel, run once: on whole memrefs — the two tables of per-block least and greatest ids at any
    share, the six inputs' staging buffers at their contents, the output's staging buffer and the accumulator at theirs —
    the body runs to the continuation holding the tables and the inputs as they were, and the output's buffer and the
    accumulator at contents the run FINDS (the two witnesses): the accumulator cleared at the first point, then, for each of
    the eight groups of 128 graph ids that the block's id range meets, that group's 128 rows overwritten by their old value
    plus the block's rows whose id is the row's; the output's buffer overwritten by the accumulator at the last point and
    left alone elsewhere. Each of the ten conditionals is run both ways and joined, so the witnesses hold the condition
    as a case distinction. The accumulator's witness is chosen before the output buffer's old contents are named: it does
    not depend on them. -/
noncomputable def kernelRun (c : Dev nD) (i : grid0.Coords)
    (arg1 : Memref sig .tc .smem S123 .i32) (harg1 : arg1.IsWhole) (arg2 : Memref sig .tc .smem S123 .i32) (harg2 : arg2.IsWhole)
    (arg3 : Memref sig .tc .vmem S8192x128 .f32) (harg3 : arg3.IsWhole) (arg4 : Memref sig .tc .vmem S1x1x8192 .i32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x1 .f32) (harg7 : arg7.IsWhole) (arg8 : Memref sig .tc .vmem S1x1 .f32) (harg8 : arg8.IsWhole)
    (arg9 : Memref sig .tc .vmem S1024x128 .f32) (harg9 : arg9.IsWhole) (arg10 : Memref sig .tc .vmem S1024x128 .f32) (harg10 : arg10.IsWhole)
    (t1 : Vec F S123 .i32) (t2 : Vec F S123 .i32) (x0 : Vec F S8192x128 .f32) (x1 : Vec F S1x1x8192 .i32) (x2 : Vec F S128x128 .f32)
    (x3 : Vec F S1x128 .f32) (x4 : Vec F S128x1 .f32) (x5 : Vec F S1x1 .f32) (xs : Vec F S1024x128 .f32) :
    Σ' (fS : Buf (Elt F) (arg10.view.loc (c : Thread nD τ))), ∀ (xo : Vec F S1024x128 .f32),
      Σ' (fO : Buf (Elt F) (arg9.view.loc (c : Thread nD τ))), PLift (∀ (q : PosShare TreeShare) (E : Set ℕ) (K : PUnit → sProp 𝕄),
        iprop(owns (c : Thread nD τ) arg1 q t1 ∗ owns (c : Thread nD τ) arg2 q t2
            ∗ owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare xo ∗ owns (c : Thread nD τ) arg10 fullShare xs
            ∗ (iprop(owns (c : Thread nD τ) arg1 q t1 ∗ owns (c : Thread nD τ) arg2 q t2
                ∗ owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4 ∗ owns (c : Thread nD τ) arg8 fullShare x5
                ∗ (arg9.view.loc (c : Thread nD τ) ↦[arg9.view.set]{fullShare} fO)
                ∗ (arg10.view.loc (c : Thread nD τ) ↦[arg10.view.set]{fullShare} fS)) -∗ K ⟨⟩))
          ⊢ wp frame (wpE (defs₀ (F := F)) Variants.none c none) E
              (cc0__kernel i arg1 harg1 arg2 harg2 arg3 harg3 arg4 harg4 arg5 harg5 arg6 harg6 arg7 harg7 arg8 harg8 arg9 harg9 arg10 harg10) K) := by
  refine ⟨?_, fun xo => ⟨?_, ⟨fun q E K => ?run⟩⟩⟩
  case run =>
    simp only [cc0__kernel_eq_skeleton]; unfold cc0__kernel_skel
    simp only [k0_part1_eq_skeleton, k0_part2_eq_skeleton]
    unfold owns
    iintro ⟨⟨%g1, %hg1, T1⟩, ⟨%g2, %hg2, T2⟩, ⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fs, %hfs, HS⟩, Hk⟩
    obtain rfl := harg1.eq_unread hg1; obtain rfl := harg2.eq_unread hg2
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfo; obtain rfl := harg10.eq_unread hfs
    sl_exec
    sl_step
    iapply Hk
    isplitl [T1]
    · iexists _; isplitr; · ipureintro; exact harg1.read_unread _
      iexact T1
    isplitl [T2]
    · iexists _; isplitr; · ipureintro; exact harg2.read_unread _
      iexact T2
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HO]
    · iexact HO
    iexact HS

end Cert.KernelIdeal.Body

end
-- ==== Proof.Spec.lean ====
/-
  The mathematics both programs compute, stated once over plain index types and importing no program.

  Every node n carries a row x[n, ·] of 128 reals and a graph id idx[n]. A two-layer gate
      hid[n, k]  = max (Σ_j x[n, j] · W1[j, k] + b1[k]) 0
      logit[n]   = Σ_k hid[n, k] · W2[k, 0] + b2[0]
      gated[n,d] = 1 / (1 + e^(-logit[n])) · x[n, d]
  weights the row, and the result sums the weighted rows graph by graph:
      G[g, d] = Σ_{n : idx[n] = g} gated[n, d]            (g < 1024; an id outside 0 … 1023 belongs to no graph).

  The blocked form: the 1,000,000 rows are padded to 123 · 8192 rows (zero rows, id 1024), and an accumulator
  that starts at zero takes, block after block, each row of the block into the row of the accumulator its id names:
      acc_{t+1}[R, d] = acc_t[R, d] + Σ_{k < 8192 : idP[8192 t + k] = R} gatedP[8192 t + k, d].
  After the 123 blocks the accumulator is G (`accAt_final`, proved in SegSum.lean): a padding row's id is 1024,
  which names no accumulator row, and the 123 blocks of 8192 rows are exactly the padded rows.
-/
import Idealize.ShloMosaic.PureOps.Ideal
import Idealize.ShloMosaic.Lib.ValueIdx

noncomputable section

namespace Cert.Spec

open Idealize.ShloMosaic Idealize.ShloMosaic.ValueIdx

/-- The argument arrays' types, over literal shapes. -/
abbrev XArr := (⟨2, ![1000000, 128]⟩ : Shape).Idx → EReal
abbrev IdArr := (⟨1, ![1000000]⟩ : Shape).Idx → BitVec 32
abbrev W1Arr := (⟨2, ![128, 128]⟩ : Shape).Idx → EReal
abbrev B1Arr := (⟨1, ![128]⟩ : Shape).Idx → EReal
abbrev W2Arr := (⟨2, ![128, 1]⟩ : Shape).Idx → EReal
abbrev B2Arr := (⟨1, ![1]⟩ : Shape).Idx → EReal
abbrev OutArr := (⟨2, ![1024, 128]⟩ : Shape).Idx → EReal

/-- The gate of one row, as a function of the row alone (so that it serves the array's rows and the padded rows alike):
    `gateOf r` for a row `r : Fin 128 → EReal`. -/
def hidOf (W1 : W1Arr) (b1 : B1Arr) (r : Fin 128 → EReal) (k : Fin 128) : EReal :=
  max ((∑ j : Fin 128, r j * W1 (ix2 j k)) + b1 (ix1 k)) 0

def logitOf (W1 : W1Arr) (b1 : B1Arr) (W2 : W2Arr) (b2 : B2Arr) (r : Fin 128 → EReal) : EReal :=
  (∑ k : Fin 128, hidOf W1 b1 r k * W2 (ix2 k (0 : Fin 1))) + b2 (ix1 (0 : Fin 1))

/-- The weighted row: `1 / (1 + e^(-logit)) · r d`. -/
def gatedOf (W1 : W1Arr) (b1 : B1Arr) (W2 : W2Arr) (b2 : B2Arr) (r : Fin 128 → EReal) (d : Fin 128) : EReal :=
  Ideal.logistic (logitOf W1 b1 W2 b2 r) * r d

/-- Row `n` of the node array. -/
def rowX (x : XArr) (n : Fin 1000000) : Fin 128 → EReal := fun j => x (ix2 n j)

/-- The per-graph sums: entry `(g, d)` adds the weighted rows of the nodes whose id, read signed, is `g`. -/
def G (x : XArr) (idx : IdArr) (W1 : W1Arr) (b1 : B1Arr) (W2 : W2Arr) (b2 : B2Arr) : OutArr :=
  fun i => ∑ n ∈ Finset.univ.filter (fun n : Fin 1000000 => (idx (ix1 n)).toInt = ((i 0).val : Int)),
    gatedOf W1 b1 W2 b2 (rowX x n) (i 1)

/-! ## The blocked form -/

/-- Row `k` of block `t` among the padded rows. -/
def rowAt (t : Fin 123) (k : Fin 8192) : Fin 1007616 := ⟨t.val * 8192 + k.val, by have := t.isLt; have := k.isLt; omega⟩

/-- The padded node array: zero rows after the last node. -/
def xP (x : XArr) : Fin 1007616 → Fin 128 → EReal :=
  fun n j => if h : n.val < 1000000 then x (ix2 (⟨n.val, h⟩ : Fin 1000000) j) else 0

/-- The padded ids: 1024 after the last node. -/
def idP (idx : IdArr) : Fin 1007616 → BitVec 32 :=
  fun n => if h : n.val < 1000000 then idx (ix1 (⟨n.val, h⟩ : Fin 1000000)) else 1024#32

/-- One block taken into the accumulator. -/
def step (x : XArr) (idx : IdArr) (W1 : W1Arr) (b1 : B1Arr) (W2 : W2Arr) (b2 : B2Arr) (t : Fin 123)
    (a : Fin 1024 → Fin 128 → EReal) : Fin 1024 → Fin 128 → EReal :=
  fun R d => a R d + ∑ k : Fin 8192,
    (if idP idx (rowAt t k) = BitVec.ofNat 32 R.val then gatedOf W1 b1 W2 b2 (xP x (rowAt t k)) d else 0)

/-- The accumulator before block `t` (after the blocks below `t`), from zero. -/
def accAt (x : XArr) (idx : IdArr) (W1 : W1Arr) (b1 : B1Arr) (W2 : W2Arr) (b2 : B2Arr) :
    Nat → Fin 1024 → Fin 128 → EReal
  | 0 => fun _ _ => 0
  | t + 1 => if h : t < 123 then step x idx W1 b1 W2 b2 ⟨t, h⟩ (accAt x idx W1 b1 W2 b2 t) else accAt x idx W1 b1 W2 b2 t

end Cert.Spec

end
-- ==== Proof.KIData.lean ====
/-
  The idealized kernel's pipeline at the tables' contents, and the proof data of its one region.

  At grid point t the body is handed the block t of the padded node rows and of the padded ids, the two weight matrices
  and the two biases whole, the output's staging buffer and the accumulator. What the accumulator holds BEFORE point
  t (t ≥ 1) is the specification's blocked accumulator `Spec.accAt … t`: the sum, over the blocks below t, of the
  rows taken into the accumulator row their id names. The invariant says so; before the first point the accumulator
  holds anything (the first point clears it). The output's block is the whole result array, written back once, after
  the last point, when the body has copied the accumulator into it.
-/
import proofs.«414496_j87668872446565_1_alg».proof.Proof.KIBase
import proofs.«414496_j87668872446565_1_alg».proof.Proof.KIBody
import proofs.«414496_j87668872446565_1_alg».proof.Proof.Spec

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The pipeline at the tables' contents. -/
abbrev cfgA : Pipeline.Cfg sig Λ₀ := cfg0 (F := Ideal) (adm m 0)

theorem N_A : (cfgA m).N = 123 := N_0

/-- A grid point as a block number below 123. -/
abbrev t123 (t : Fin (cfgA m).N) : Fin 123 := ⟨t.val, lt_of_lt_of_eq t.isLt (N_A m)⟩

/-- Each window's current staging buffer at point `t`. -/
abbrev sl (t : Fin (cfgA m).N) : (w : Fin 7) → Fin (spec0 w).nbuf := (cfgA m).slots t
abbrev ms0 (t : Fin (cfgA m).N) : Memref sig .tc .vmem S8192x128 .f32 := spec0_0.stage (sl m t 0)
abbrev ms1 (t : Fin (cfgA m).N) : Memref sig .tc .vmem S1x1x8192 .i32 := spec0_1.stage (sl m t 1)
abbrev ms2 (t : Fin (cfgA m).N) : Memref sig .tc .vmem S128x128 .f32 := spec0_2.stage (sl m t 2)
abbrev ms3 (t : Fin (cfgA m).N) : Memref sig .tc .vmem S1x128 .f32 := spec0_3.stage (sl m t 3)
abbrev ms4 (t : Fin (cfgA m).N) : Memref sig .tc .vmem S128x1 .f32 := spec0_4.stage (sl m t 4)
abbrev ms5 (t : Fin (cfgA m).N) : Memref sig .tc .vmem S1x1 .f32 := spec0_5.stage (sl m t 5)
abbrev ms6 (t : Fin (cfgA m).N) : Memref sig .tc .vmem S1024x128 .f32 := spec0_6.stage (sl m t 6)
theorem hs0 (t : Fin (cfgA m).N) : (ms0 m t).IsWhole := Facts₀.hstage0_0 ((sl m t 0).cast Facts₀.nbuf0_0)
theorem hs1 (t : Fin (cfgA m).N) : (ms1 m t).IsWhole := Facts₀.hstage0_1 ((sl m t 1).cast Facts₀.nbuf0_1)
theorem hs2 (t : Fin (cfgA m).N) : (ms2 m t).IsWhole := Facts₀.hstage0_2 ((sl m t 2).cast Facts₀.nbuf0_2)
theorem hs3 (t : Fin (cfgA m).N) : (ms3 m t).IsWhole := Facts₀.hstage0_3 ((sl m t 3).cast Facts₀.nbuf0_3)
theorem hs4 (t : Fin (cfgA m).N) : (ms4 m t).IsWhole := Facts₀.hstage0_4 ((sl m t 4).cast Facts₀.nbuf0_4)
theorem hs5 (t : Fin (cfgA m).N) : (ms5 m t).IsWhole := Facts₀.hstage0_5 ((sl m t 5).cast Facts₀.nbuf0_5)
theorem hs6 (t : Fin (cfgA m).N) : (ms6 m t).IsWhole := Facts₀.hstage0_6 ((sl m t 6).cast Facts₀.nbuf0_6)

/-- The two tables and the accumulator, as memrefs. -/
abbrev tbM1 : Memref sig .tc .smem S123 .i32 := Memref.whole main_v3
abbrev tbM2 : Memref sig .tc .smem S123 .i32 := Memref.whole main_v4
abbrev scM : Memref sig .tc .vmem S1024x128 .f32 := Memref.whole cc0_scratch0

/-- Window `w`'s block at point `t`, read off its array as the region finds it. -/
def iblk (c : Dev nD) (w : Fin (cfgA m).W) (t : Fin (cfgA m).N) :
    (((cfgA m).win w).xblock ((cfgA m).grid.coords t)).Idx → Elt Ideal ((cfgA m).win w).elt :=
  (((cfgA m).win w).blk t).view.read (Elt Ideal) (V m c (Pipeline.arrRef spec0 w))

/-- The tables as vectors of 123 words: the least and the greatest id of each block. -/
abbrev tb1 (c : Dev nD) : Vec Ideal S123 .i32 := V m c main_v3
abbrev tb2 (c : Dev nD) : Vec Ideal S123 .i32 := V m c main_v4

/-- The six argument arrays, as the specification takes them. -/
abbrev aX (c : Dev nD) : Spec.XArr := m ((c : Thread nD τ).loc main_arg0)
abbrev aI (c : Dev nD) : Spec.IdArr := m ((c : Thread nD τ).loc main_arg1)
abbrev aW1 (c : Dev nD) : Spec.W1Arr := m ((c : Thread nD τ).loc main_arg2)
abbrev aB1 (c : Dev nD) : Spec.B1Arr := m ((c : Thread nD τ).loc main_arg3)
abbrev aW2 (c : Dev nD) : Spec.W2Arr := m ((c : Thread nD τ).loc main_arg4)
abbrev aB2 (c : Dev nD) : Spec.B2Arr := m ((c : Thread nD τ).loc main_arg5)

/-- The blocked accumulator before block `n`, as the contents of the 1024 × 128 accumulator buffer. -/
def accVec (c : Dev nD) (n : ℕ) : Vec Ideal S1024x128 .f32 :=
  fun i => Spec.accAt (aX m c) (aI m c) (aW1 m c) (aB1 m c) (aW2 m c) (aB2 m c) n (i 0) (i 1)

/-- The body's run at grid point `t` with the accumulator at `xs`: the kernel's function is called with the two tables,
    each window's current staging buffer and the accumulator; the inputs' buffers hold their blocks. Its first component
    is what the accumulator's buffer holds afterwards; its second, given the output buffer's old contents, what that
    buffer holds afterwards, with the body's triple. -/
abbrev runAt (c : Dev nD) (t : Fin (cfgA m).N) (xs : Vec Ideal S1024x128 .f32) :=
  kernelRun (F := Ideal) c (grid0.coords t) tbM1 (Memref.isWhole_whole _) tbM2 (Memref.isWhole_whole _)
    (ms0 m t) (hs0 m t) (ms1 m t) (hs1 m t) (ms2 m t) (hs2 m t) (ms3 m t) (hs3 m t) (ms4 m t) (hs4 m t) (ms5 m t) (hs5 m t)
    (ms6 m t) (hs6 m t) scM (Memref.isWhole_whole _) (tb1 m c) (tb2 m c)
    (iblk m c 0 t) (iblk m c 1 t) (iblk m c 2 t) (iblk m c 3 t) (iblk m c 4 t) (iblk m c 5 t) xs

/-- The region's invariant before position `n`: the tables at half a share throughout (the body reads them), the
    generator register at some state, and the accumulator — before the first point at anything (the class's
    invariant: every scoped buffer that is no staging buffer at some contents), afterwards at the blocked accumulator. -/
def PhiS (c : Dev nD) : ℕ → sProp 𝕄
  | 0 => iprop(Pipeline.ΦA spec0 c ∗ Pipeline.ΦT pre0 (tbl m) c)
  | n + 1 => iprop(owns (c : Thread nD τ) scM fullShare (accVec m c (n + 1)) ∗ (∃ r, prngReg c r) ∗ Pipeline.ΦT pre0 (tbl m) c)

/-- The proof data: the arrays as the region finds them; after the body each input's buffer at its block, the output's
    at the final accumulator (read only at the last point, the one point that is not idle for it); nothing owed. -/
def dats (_ : Fin 1) (c : Dev nD) : Dat τ (Elt Ideal) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accVec m c 123
  Φ t := PhiS m c t.val
  q _ := fullShare
  owed _ := 0

theorem A_eq (c : Dev nD) (w : Fin (cfgA m).W) : (dats m 0 c).A w = V m c (Pipeline.arrRef spec0 w) := by
  dsimp only [dats]

end Cert.KernelIdeal.Run

end
-- ==== Proof.KIConds.lean ====
/-
  The body's conditions as propositions, and where they hold on the grid.

  The first conditional clears the accumulator at the first grid point; the last copies it out at the last (point 122).
  Between them, group g of 128 graph ids (lo = 128 g, hi = lo + 127) is taken up exactly when the block's id range
  [least, greatest] meets [lo, hi]: greatest ≥ lo and least ≤ hi, both compared signed.
-/
import proofs.«414496_j87668872446565_1_alg».proof.Proof.Gen.KernelIdeal

noncomputable section

namespace Cert.KernelIdeal.Body

open Cert.KernelIdeal Idealize.ShloMosaic

/-- The first conditional's condition at grid point `i`: the point is the first. -/
def resetC (i : grid0.Coords) : Prop :=
  Scalar.cmpi .ne (Scalar.extui (Scalar.cmpi .eq (BitVec.ofNat 32 (i 0).val) 0#32) : BitVec 32) 0#32 = 1#1

instance (i : grid0.Coords) : Decidable (resetC i) := by unfold resetC; infer_instance

/-- A group's condition, from the block's least id `wmn` and greatest id `wmx`: the id range meets [lo, hi]. -/
def condG (lo hi wmn wmx : BitVec 32) : Prop :=
  Scalar.cmpi .ne (Scalar.extui (Scalar.andi (Scalar.cmpi .sge wmx lo) (Scalar.cmpi .sle wmn hi)) : BitVec 32) 0#32 = 1#1

instance (lo hi wmn wmx : BitVec 32) : Decidable (condG lo hi wmn wmx) := by unfold condG; infer_instance

/-- The accumulator is cleared at the first point only. -/
theorem resetC_iff : ∀ t : Fin grid0.N, resetC (grid0.coords t) ↔ t.val = 0 := by decide +kernel

/-- It is copied out at the last point only. -/
theorem cond10_iff : ∀ t : Fin grid0.N, k0_cond10 (grid0.coords t) = 1#1 ↔ t.val = 122 := by decide +kernel

/-- The two tables are read at the grid point's own number. -/
theorem off1_eq : ∀ t : Fin grid0.N, k0_off1 (grid0.coords t) 0 = t.val := by decide +kernel

end Cert.KernelIdeal.Body

end
-- ==== Proof.PayIdeal.lean ====
/-
  The kernel's pure payloads at the ideal values, read at an index.

  Over the loads of one block of 8192 rows the body computes
      hid[k, c]   = max (Σ_j x[k, j] · W1[j, c] + b1[c]) 0
      logit[k]    = Σ_c hid[k, c] · W2[c, 0] + b2[0]
      gated[k, d] = 1 / (1 + e^(-logit[k])) · x[k, d]
  (a change of float format is the identity on extended reals, a product into a zero accumulator is the plain sum over the
  contracted axis), and for each tile of 128 accumulator rows, the tile's first row numbered `lo`,
      new[p, d] = old[p, d] + Σ_k onehot[p, k] · gated[k, d],     onehot[p, k] = 1 if id[k] = lo + p, else 0,
  where the comparison is of 32-bit words: `lo + p` is the word of `lo` plus the word of `p`, which is the word of the sum.
  Since 1 · g = g and 0 · g = 0 for every extended real g,
      new[p, d] = old[p, d] + Σ_k (if id[k] = lo + p then gated[k, d] else 0).
  The eight tiles differ in `lo` alone (0, 128, …, 896), so the update is read once with `lo` a parameter.
-/
import proofs.«414496_j87668872446565_1_alg».proof.Proof.Gen.KernelIdeal.Skeleton
import proofs.«414496_j87668872446565_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## The accumulator product read at an index -/

/-- The dimension numbers of the product of the 128 × 8192 selector and the 8192 × 128 block. -/
abbrev DU := dot_S128x8192_S8192x128_S128x128_1_0_0_1_n_n

theorem lhsU_0 (i : S128x128.Idx) (q : DU.contr.Idx) : (DU.lhsIdx i q 0).val = (i 0).val := by
  unfold DotDims.lhsIdx
  rw [dif_neg (show ¬(0 : Fin S128x8192.rank) ∈ DU.lhsBatch by decide),
    dif_pos (show (0 : Fin S128x8192.rank) ∈ DU.lhsNonContracting by decide)]
  rfl
theorem lhsU_1 (i : S128x128.Idx) (q : DU.contr.Idx) : (DU.lhsIdx i q 1).val = (q ⟨0, by decide⟩).val :=
  DU.lhsIdx_val_of_single rfl i q
theorem rhsU_0 (i : S128x128.Idx) (q : DU.contr.Idx) : (DU.rhsIdx i q 0).val = (q ⟨0, by decide⟩).val :=
  DU.rhsIdx_val_of_single rfl i q
theorem rhsU_1 (i : S128x128.Idx) (q : DU.contr.Idx) : (DU.rhsIdx i q 1).val = (i 1).val := by
  unfold DotDims.rhsIdx
  rw [dif_neg (show ¬(1 : Fin S8192x128.rank) ∈ DU.rhsBatch by decide),
    dif_pos (show (1 : Fin S8192x128.rank) ∈ DU.rhsNonContracting by decide)]
  rfl

/-- Into the zero accumulator the product at (p, d) is the sum over the 8192 rows of the block. -/
theorem matmulU_apply (A : FVec Ideal S128x8192 .bf16) (B : FVec Ideal S8192x128 .bf16) (p d : Fin 128) :
    matmul DU none A B (constant (F := Ideal) S128x128 .f32 0x00000000#32) (ix2 p d)
      = ∑ k : Fin 8192, A (ix2 p k) * B (ix2 k d) := by
  simp only [matmul]
  rw [Ideal.matmul_constant_zero_apply, ← Equiv.sum_comp (contrEquiv1 DU 8192 rfl rfl).symm]
  refine Finset.sum_congr rfl fun k _ => ?_
  have hk := contrEquiv1_symm_val DU 8192 rfl rfl k
  have el : DU.lhsIdx (ix2 p d) ((contrEquiv1 DU 8192 rfl rfl).symm k) = ix2 p k := funext fun a => Fin.ext (by
    match a with
    | ⟨0, _⟩ => exact lhsU_0 _ _
    | ⟨1, _⟩ => exact (lhsU_1 _ _).trans hk)
  have er : DU.rhsIdx (ix2 p d) ((contrEquiv1 DU 8192 rfl rfl).symm k) = ix2 k d := funext fun a => Fin.ext (by
    match a with
    | ⟨0, _⟩ => exact (rhsU_0 _ _).trans hk
    | ⟨1, _⟩ => exact rhsU_1 _ _)
  rw [el, er]

/-! ## The update of one accumulator tile, with the tile's first row number a parameter -/

/-- The 128 × 8192 selector of the tile whose first row is numbered `lo`: 1 where the id of column `k` is `lo + p`, else 0. -/
def sel (lo : BitVec 32) (v28 : IVec S1x8192 32) : FVec Ideal S128x8192 .bf16 :=
  truncf .bf16 (sitofp .f32 (extui 32 (cmpi .eq
    (broadcastTo S128x8192 (addi (broadcast S128x1 lo) (iota .tc S128x1 32 [0] iota_S128x1_d0_w32)) broadcasts_S128x1_S128x8192)
    (broadcastTo S128x8192 v28 broadcasts_S1x8192_S128x8192)) natLt_1_32)) bitsLt_bf16_f32

/-- The tile's update: the old tile plus the selector times the block. -/
def updOf (lo : BitVec 32) (v26 : FVec Ideal S8192x128 .bf16) (v28 : IVec S1x8192 32) (v86 : Vec Ideal S128x128 .f32) :
    FVec Ideal S128x128 .f32 :=
  shapeCast S128x128 (addf v86 (matmul DU none (sel lo v28) v26 (constant (F := Ideal) S128x128 .f32 0x00000000#32)))
    shapeCasts_S128x128_S128x128

/-- A one-bit comparison, widened and read as a signed integer, is 1 or 0. -/
theorem toInt_setWidth_ofBool (b : Bool) : ((BitVec.ofBool b).setWidth 32).toInt = if b then 1 else 0 := by
  cases b <;> decide

/-- Row `p` of the tile compares the ids with the word `lo + p`: the row numbers are `lo` plus the row's position,
    added as 32-bit words, and the sum of the two words is the word of the sum. -/
theorem rowWord_apply (lo : Nat) (p : Fin 128) (k : Fin 8192) :
    broadcastTo S128x8192 (addi (broadcast S128x1 (BitVec.ofNat 32 lo)) (iota .tc S128x1 32 [0] iota_S128x1_d0_w32))
        broadcasts_S128x1_S128x8192 (ix2 p k) = BitVec.ofNat 32 (lo + p.val) := by
  refine (broadcastTo_apply _ broadcasts_S128x1_S128x8192 (ix2 p k) (ix2 p (0 : Fin 1)) fun a => ?_).trans ?_
  · match a with
    | ⟨0, _⟩ => rfl
    | ⟨1, _⟩ => rfl
  · show IntOp.addi (BitVec.ofNat 32 lo) (iota .tc S128x1 32 [0] iota_S128x1_d0_w32 (ix2 p (0 : Fin 1))) = _
    rw [iota_single_apply]
    show BitVec.ofNat 32 lo + BitVec.ofNat 32 p.val = _
    exact (BitVec.ofNat_add lo p.val).symm

/-- The selector at (p, k). -/
theorem sel_apply (lo : Nat) (v28 : IVec S1x8192 32) (p : Fin 128) (k : Fin 8192) :
    sel (BitVec.ofNat 32 lo) v28 (ix2 p k)
      = if v28 (ix2 (0 : Fin 1) k) = BitVec.ofNat 32 (lo + p.val) then (1 : EReal) else 0 := by
  unfold sel
  rw [truncf_apply, sitofp_apply, extui_apply]
  show (((((IntOp.cmpi .eq _ _).setWidth 32).toInt : ℝ)) : EReal) = _
  rw [rowWord_apply, broadcastTo_1b_ab_apply]
  show ((((BitVec.ofBool (BitVec.ofNat 32 (lo + p.val) == v28 (ix2 (0 : Fin 1) k))).setWidth 32).toInt : ℝ) : EReal) = _
  rw [toInt_setWidth_ofBool]
  by_cases h : v28 (ix2 (0 : Fin 1) k) = BitVec.ofNat 32 (lo + p.val)
  · rw [if_pos h, h, beq_self_eq_true, if_pos rfl]; norm_num
  · rw [if_neg h, if_neg (fun e => h (eq_of_beq e).symm)]; norm_num

/-- The update at (p, d): the old entry plus the rows of the block whose id is `lo + p`. -/
theorem updOf_apply (lo : Nat) (v26 : FVec Ideal S8192x128 .bf16) (v28 : IVec S1x8192 32) (v86 : Vec Ideal S128x128 .f32)
    (p d : Fin 128) :
    updOf (BitVec.ofNat 32 lo) v26 v28 v86 (ix2 p d)
      = v86 (ix2 p d) + ∑ k : Fin 8192, (if v28 (ix2 (0 : Fin 1) k) = BitVec.ofNat 32 (lo + p.val) then v26 (ix2 k d) else 0) := by
  unfold updOf
  rw [shapeCast_self, addf_apply, matmulU_apply]
  refine congrArg (v86 (ix2 p d) + ·) (Finset.sum_congr rfl fun k _ => ?_)
  rw [sel_apply]
  split
  · exact one_mul _
  · exact zero_mul _

/-! ## The two products of the gate read at an index -/

/-- The dimension numbers of the product of the 8192 × 128 block and the 128 × 128 first-layer weights. -/
abbrev DH := dot_S8192x128_S128x128_S8192x128_1_0_0_1_n_n

theorem lhsH_0 (i : S8192x128.Idx) (q : DH.contr.Idx) : (DH.lhsIdx i q 0).val = (i 0).val := by
  unfold DotDims.lhsIdx
  rw [dif_neg (show ¬(0 : Fin S8192x128.rank) ∈ DH.lhsBatch by decide),
    dif_pos (show (0 : Fin S8192x128.rank) ∈ DH.lhsNonContracting by decide)]
  rfl
theorem lhsH_1 (i : S8192x128.Idx) (q : DH.contr.Idx) : (DH.lhsIdx i q 1).val = (q ⟨0, by decide⟩).val :=
  DH.lhsIdx_val_of_single rfl i q
theorem rhsH_0 (i : S8192x128.Idx) (q : DH.contr.Idx) : (DH.rhsIdx i q 0).val = (q ⟨0, by decide⟩).val :=
  DH.rhsIdx_val_of_single rfl i q
theorem rhsH_1 (i : S8192x128.Idx) (q : DH.contr.Idx) : (DH.rhsIdx i q 1).val = (i 1).val := by
  unfold DotDims.rhsIdx
  rw [dif_neg (show ¬(1 : Fin S128x128.rank) ∈ DH.rhsBatch by decide),
    dif_pos (show (1 : Fin S128x128.rank) ∈ DH.rhsNonContracting by decide)]
  rfl

/-- Into the zero accumulator the first product at (k, c) is the sum over the 128 features of row `k`. -/
theorem matmulH_apply (A : FVec Ideal S8192x128 .bf16) (B : FVec Ideal S128x128 .bf16) (k : Fin 8192) (c : Fin 128) :
    matmul DH none A B (constant (F := Ideal) S8192x128 .f32 0x00000000#32) (ix2 k c)
      = ∑ j : Fin 128, A (ix2 k j) * B (ix2 j c) := by
  simp only [matmul]
  rw [Ideal.matmul_constant_zero_apply, ← Equiv.sum_comp (contrEquiv1 DH 128 rfl rfl).symm]
  refine Finset.sum_congr rfl fun j _ => ?_
  have hj := contrEquiv1_symm_val DH 128 rfl rfl j
  have el : DH.lhsIdx (ix2 k c) ((contrEquiv1 DH 128 rfl rfl).symm j) = ix2 k j := funext fun a => Fin.ext (by
    match a with
    | ⟨0, _⟩ => exact lhsH_0 _ _
    | ⟨1, _⟩ => exact (lhsH_1 _ _).trans hj)
  have er : DH.rhsIdx (ix2 k c) ((contrEquiv1 DH 128 rfl rfl).symm j) = ix2 j c := funext fun a => Fin.ext (by
    match a with
    | ⟨0, _⟩ => exact (rhsH_0 _ _).trans hj
    | ⟨1, _⟩ => exact rhsH_1 _ _)
  rw [el, er]

/-- The dimension numbers of the product of the 8192 × 128 hidden block and the 128 × 1 second-layer weights. -/
abbrev DL := dot_S8192x128_S128x1_S8192x1_1_0_0_1_n_n

theorem lhsL_0 (i : S8192x1.Idx) (q : DL.contr.Idx) : (DL.lhsIdx i q 0).val = (i 0).val := by
  unfold DotDims.lhsIdx
  rw [dif_neg (show ¬(0 : Fin S8192x128.rank) ∈ DL.lhsBatch by decide),
    dif_pos (show (0 : Fin S8192x128.rank) ∈ DL.lhsNonContracting by decide)]
  rfl
theorem lhsL_1 (i : S8192x1.Idx) (q : DL.contr.Idx) : (DL.lhsIdx i q 1).val = (q ⟨0, by decide⟩).val :=
  DL.lhsIdx_val_of_single rfl i q
theorem rhsL_0 (i : S8192x1.Idx) (q : DL.contr.Idx) : (DL.rhsIdx i q 0).val = (q ⟨0, by decide⟩).val :=
  DL.rhsIdx_val_of_single rfl i q
theorem rhsL_1 (i : S8192x1.Idx) (q : DL.contr.Idx) : (DL.rhsIdx i q 1).val = (i 1).val := by
  unfold DotDims.rhsIdx
  rw [dif_neg (show ¬(1 : Fin S128x1.rank) ∈ DL.rhsBatch by decide),
    dif_pos (show (1 : Fin S128x1.rank) ∈ DL.rhsNonContracting by decide)]
  rfl

/-- Into the zero accumulator the second product at (k, 0) is the sum over the 128 hidden units of row `k`. -/
theorem matmulL_apply (A : FVec Ideal S8192x128 .bf16) (B : FVec Ideal S128x1 .bf16) (k : Fin 8192) (u : Fin 1) :
    matmul DL none A B (constant (F := Ideal) S8192x1 .f32 0x00000000#32) (ix2 k u)
      = ∑ j : Fin 128, A (ix2 k j) * B (ix2 j u) := by
  simp only [matmul]
  rw [Ideal.matmul_constant_zero_apply, ← Equiv.sum_comp (contrEquiv1 DL 128 rfl rfl).symm]
  refine Finset.sum_congr rfl fun j _ => ?_
  have hj := contrEquiv1_symm_val DL 128 rfl rfl j
  have el : DL.lhsIdx (ix2 k u) ((contrEquiv1 DL 128 rfl rfl).symm j) = ix2 k j := funext fun a => Fin.ext (by
    match a with
    | ⟨0, _⟩ => exact lhsL_0 _ _
    | ⟨1, _⟩ => exact (lhsL_1 _ _).trans hj)
  have er : DL.rhsIdx (ix2 k u) ((contrEquiv1 DL 128 rfl rfl).symm j) = ix2 j u := funext fun a => Fin.ext (by
    match a with
    | ⟨0, _⟩ => exact (rhsL_0 _ _).trans hj
    | ⟨1, _⟩ => exact rhsL_1 _ _)
  rw [el, er]

/-! ## The payloads -/

/-- The zero fill. -/
theorem pay2_apply (i : S1024x128.Idx) : k0_pay2 (F := Ideal) i = 0 := by
  unfold k0_pay2
  rw [shapeCast_self, broadcast_apply]
  exact Ideal.ofBits_zero_f32

/-- The id row of the block: the 1 × 1 × 8192 load read as 1 × 8192. -/
theorem pay4_apply (v27 : Vec Ideal S1x1x8192 .i32) (k : Fin 8192) :
    k0_pay4 (F := Ideal) v27 (ix2 (0 : Fin 1) k) = v27 (ix3 (0 : Fin 1) (0 : Fin 1) k) := by
  unfold k0_pay4
  exact shapeCast_1ab_ab_apply v27 shapeCasts_S1x1x8192_S1x8192 (0 : Fin 1) k

/-- The eight tile updates. -/
theorem payUpd0_apply (v26 : FVec Ideal S8192x128 .bf16) (v28 : IVec S1x8192 32) (v86 : Vec Ideal S128x128 .f32)
    (p : Fin 128) (d : Fin 128) :
    k0_pay5 (F := Ideal) v26 v28 v86 (ix2 p d)
      = v86 (ix2 p d) + ∑ k : Fin 8192, (if v28 (ix2 (0 : Fin 1) k) = BitVec.ofNat 32 (0 + p.val) then v26 (ix2 k d) else 0) :=
  updOf_apply 0 v26 v28 v86 p d
theorem payUpd128_apply (v26 : FVec Ideal S8192x128 .bf16) (v28 : IVec S1x8192 32) (v86 : Vec Ideal S128x128 .f32)
    (p : Fin 128) (d : Fin 128) :
    k0_pay6 (F := Ideal) v26 v28 v86 (ix2 p d)
      = v86 (ix2 p d) + ∑ k : Fin 8192, (if v28 (ix2 (0 : Fin 1) k) = BitVec.ofNat 32 (128 + p.val) then v26 (ix2 k d) else 0) :=
  updOf_apply 128 v26 v28 v86 p d
theorem payUpd256_apply (v26 : FVec Ideal S8192x128 .bf16) (v28 : IVec S1x8192 32) (v86 : Vec Ideal S128x128 .f32)
    (p : Fin 128) (d : Fin 128) :
    k0_pay7 (F := Ideal) v26 v28 v86 (ix2 p d)
      = v86 (ix2 p d) + ∑ k : Fin 8192, (if v28 (ix2 (0 : Fin 1) k) = BitVec.ofNat 32 (256 + p.val) then v26 (ix2 k d) else 0) :=
  updOf_apply 256 v26 v28 v86 p d
theorem payUpd384_apply (v26 : FVec Ideal S8192x128 .bf16) (v28 : IVec S1x8192 32) (v86 : Vec Ideal S128x128 .f32)
    (p : Fin 128) (d : Fin 128) :
    k0_pay8 (F := Ideal) v26 v28 v86 (ix2 p d)
      = v86 (ix2 p d) + ∑ k : Fin 8192, (if v28 (ix2 (0 : Fin 1) k) = BitVec.ofNat 32 (384 + p.val) then v26 (ix2 k d) else 0) :=
  updOf_apply 384 v26 v28 v86 p d
theorem payUpd512_apply (v26 : FVec Ideal S8192x128 .bf16) (v28 : IVec S1x8192 32) (v86 : Vec Ideal S128x128 .f32)
    (p : Fin 128) (d : Fin 128) :
    k0_pay9 (F := Ideal) v26 v28 v86 (ix2 p d)
      = v86 (ix2 p d) + ∑ k : Fin 8192, (if v28 (ix2 (0 : Fin 1) k) = BitVec.ofNat 32 (512 + p.val) then v26 (ix2 k d) else 0) :=
  updOf_apply 512 v26 v28 v86 p d
theorem payUpd640_apply (v26 : FVec Ideal S8192x128 .bf16) (v28 : IVec S1x8192 32) (v86 : Vec Ideal S128x128 .f32)
    (p : Fin 128) (d : Fin 128) :
    k0_pay10 (F := Ideal) v26 v28 v86 (ix2 p d)
      = v86 (ix2 p d) + ∑ k : Fin 8192, (if v28 (ix2 (0 : Fin 1) k) = BitVec.ofNat 32 (640 + p.val) then v26 (ix2 k d) else 0) :=
  updOf_apply 640 v26 v28 v86 p d
theorem payUpd768_apply (v26 : FVec Ideal S8192x128 .bf16) (v28 : IVec S1x8192 32) (v86 : Vec Ideal S128x128 .f32)
    (p : Fin 128) (d : Fin 128) :
    k0_pay11 (F := Ideal) v26 v28 v86 (ix2 p d)
      = v86 (ix2 p d) + ∑ k : Fin 8192, (if v28 (ix2 (0 : Fin 1) k) = BitVec.ofNat 32 (768 + p.val) then v26 (ix2 k d) else 0) :=
  updOf_apply 768 v26 v28 v86 p d
theorem payUpd896_apply (v26 : FVec Ideal S8192x128 .bf16) (v28 : IVec S1x8192 32) (v86 : Vec Ideal S128x128 .f32)
    (p : Fin 128) (d : Fin 128) :
    k0_pay1 (F := Ideal) v26 v28 v86 (ix2 p d)
      = v86 (ix2 p d) + ∑ k : Fin 8192, (if v28 (ix2 (0 : Fin 1) k) = BitVec.ofNat 32 (896 + p.val) then v26 (ix2 k d) else 0) :=
  updOf_apply 896 v26 v28 v86 p d

/-! ## The gated block, stage by stage -/

/-- The hidden block: the first product plus the bias row, clipped below at zero. -/
def hidBlk (v3 : Vec Ideal S8192x128 .f32) (v6 : Vec Ideal S128x128 .f32) (v9 : Vec Ideal S1x128 .f32) :
    FVec Ideal S8192x128 .bf16 :=
  truncf .bf16 (maximumf
    (addf (matmul DH none (truncf .bf16 (shapeCast S8192x128 v3 shapeCasts_S8192x128_S8192x128) bitsLt_bf16_f32)
        (truncf .bf16 v6 bitsLt_bf16_f32) (constant (F := Ideal) S8192x128 .f32 0x00000000#32))
      (broadcastTo S8192x128 (shapeCast S1x128 v9 shapeCasts_S1x128_S1x128) broadcasts_S1x128_S8192x128))
    (broadcast S8192x128 (Scalar.ofBits (F := Ideal) .f32 0x00000000#32))) bitsLt_bf16_f32

/-- The logit column: the second product plus the bias. -/
def logitBlk (v3 : Vec Ideal S8192x128 .f32) (v6 : Vec Ideal S128x128 .f32) (v9 : Vec Ideal S1x128 .f32)
    (v16 : Vec Ideal S128x1 .f32) (v19 : Vec Ideal S1x1 .f32) : FVec Ideal S8192x1 .f32 :=
  addf (matmul DL none (hidBlk v3 v6 v9) (truncf .bf16 v16 bitsLt_bf16_f32) (constant (F := Ideal) S8192x1 .f32 0x00000000#32))
    (broadcastTo S8192x1 (shapeCast S1x1 v19 shapeCasts_S1x1_S1x1) broadcasts_S1x1_S8192x1)

/-- The gated block: the logistic of the logit column, along the row, times the block. -/
def gatedBlk (v3 : Vec Ideal S8192x128 .f32) (v6 : Vec Ideal S128x128 .f32) (v9 : Vec Ideal S1x128 .f32)
    (v16 : Vec Ideal S128x1 .f32) (v19 : Vec Ideal S1x1 .f32) : FVec Ideal S8192x128 .bf16 :=
  truncf .bf16 (mulf
    (broadcastTo S8192x128 (logistic (logitBlk v3 v6 v9 v16 v19)) broadcasts_S8192x1_S8192x128)
    (shapeCast S8192x128 v3 shapeCasts_S8192x128_S8192x128)) bitsLt_bf16_f32

theorem pay3_eq (v3 : Vec Ideal S8192x128 .f32) (v6 : Vec Ideal S128x128 .f32) (v9 : Vec Ideal S1x128 .f32)
    (v16 : Vec Ideal S128x1 .f32) (v19 : Vec Ideal S1x1 .f32) :
    k0_pay3 (F := Ideal) v3 v6 v9 v16 v19 = gatedBlk v3 v6 v9 v16 v19 := rfl

/-- The bias row as a function of a rank-1 index. -/
abbrev b1Of (v9 : Vec Ideal S1x128 .f32) : Cert.Spec.B1Arr := fun j => v9 (ix2 (0 : Fin 1) (j 0))
/-- The bias as a function of a rank-1 index. -/
abbrev b2Of (v19 : Vec Ideal S1x1 .f32) : Cert.Spec.B2Arr := fun _ => v19 (ix2 (0 : Fin 1) (0 : Fin 1))

theorem hidBlk_apply (v3 : Vec Ideal S8192x128 .f32) (v6 : Vec Ideal S128x128 .f32) (v9 : Vec Ideal S1x128 .f32)
    (k : Fin 8192) (c : Fin 128) :
    hidBlk v3 v6 v9 (ix2 k c) = Cert.Spec.hidOf v6 (b1Of v9) (fun j => v3 (ix2 k j)) c := by
  unfold hidBlk Cert.Spec.hidOf
  rw [truncf_apply, maximumf_apply, addf_apply, matmulH_apply, broadcastTo_1b_ab_apply, shapeCast_self, shapeCast_self,
    broadcast_apply]
  show max ((∑ j : Fin 128, v3 (ix2 k j) * v6 (ix2 j c)) + v9 (ix2 (0 : Fin 1) c)) (Ideal.ofBits .f32 0x00000000#32) = _
  rw [Ideal.ofBits_zero_f32]

theorem logitBlk_apply (v3 : Vec Ideal S8192x128 .f32) (v6 : Vec Ideal S128x128 .f32) (v9 : Vec Ideal S1x128 .f32)
    (v16 : Vec Ideal S128x1 .f32) (v19 : Vec Ideal S1x1 .f32) (k : Fin 8192) :
    logitBlk v3 v6 v9 v16 v19 (ix2 k (0 : Fin 1))
      = Cert.Spec.logitOf v6 (b1Of v9) v16 (b2Of v19) (fun j => v3 (ix2 k j)) := by
  unfold logitBlk Cert.Spec.logitOf
  rw [addf_apply, matmulL_apply, shapeCast_self]
  rw [broadcastTo_apply v19 broadcasts_S1x1_S8192x1 (ix2 k (0 : Fin 1)) (ix2 (0 : Fin 1) (0 : Fin 1))
    (fun a => match a with | ⟨0, _⟩ => rfl | ⟨1, _⟩ => rfl)]
  refine congrArg (· + v19 (ix2 (0 : Fin 1) (0 : Fin 1))) (Finset.sum_congr rfl fun j _ => ?_)
  rw [hidBlk_apply, truncf_apply]

/-- The gated block at (k, d) is the gate of row `k` of the loaded block, at feature `d`. -/
theorem pay3_apply (v3 : Vec Ideal S8192x128 .f32) (v6 : Vec Ideal S128x128 .f32) (v9 : Vec Ideal S1x128 .f32)
    (v16 : Vec Ideal S128x1 .f32) (v19 : Vec Ideal S1x1 .f32) (k : Fin 8192) (d : Fin 128) :
    k0_pay3 (F := Ideal) v3 v6 v9 v16 v19 (ix2 k d)
      = Cert.Spec.gatedOf v6 (fun j => v9 (ix2 (0 : Fin 1) (j 0))) v16 (fun _ => v19 (ix2 (0 : Fin 1) (0 : Fin 1)))
          (fun j => v3 (ix2 k j)) d := by
  rw [pay3_eq]
  unfold gatedBlk Cert.Spec.gatedOf
  rw [truncf_apply, mulf_apply, shapeCast_self]
  rw [broadcastTo_apply (logistic (logitBlk v3 v6 v9 v16 v19)) broadcasts_S8192x1_S8192x128 (ix2 k d) (ix2 k (0 : Fin 1))
    (fun a => match a with | ⟨0, _⟩ => rfl | ⟨1, _⟩ => rfl)]
  show Ideal.logistic (logitBlk v3 v6 v9 v16 v19 (ix2 k (0 : Fin 1))) * v3 (ix2 k d) = _
  rw [logitBlk_apply]

end Cert.KernelIdeal.PayValue

end
-- ==== Proof.SegSum.lean ====
/-
  The blocked accumulator, after its 123 blocks, holds the per-graph sums.

  The accumulator before block t is the sum, over the blocks below t and the 8192 rows of each, of the rows whose
  padded id names the accumulator row. The 123 blocks of 8192 rows are exactly the 1007616 padded rows
  ((t, k) ↦ 8192 t + k is a bijection), a padding row's id is 1024 and names no accumulator row, and on the first
  1000000 rows the padded arrays are the arrays themselves. Last, a 32-bit word equals the word of a number below
  1024 exactly when its signed reading is that number, which turns the sum of "row if its id names R, else 0" into
  the sum over the rows whose id, read signed, is R.
-/
import proofs.«414496_j87668872446565_1_alg».proof.Proof.Spec
import Mathlib.Data.Fintype.BigOperators
import Mathlib.Algebra.BigOperators.Group.Finset.Basic

noncomputable section

namespace Cert.Spec

open Idealize.ShloMosaic Idealize.ShloMosaic.ValueIdx

/-- What padded row n adds to entry (R, d) of the accumulator: its weighted row if its id names R, else nothing. -/
def termP (x : XArr) (idx : IdArr) (W1 : W1Arr) (b1 : B1Arr) (W2 : W2Arr) (b2 : B2Arr) (R : Fin 1024) (d : Fin 128)
    (n : Fin 1007616) : EReal :=
  if idP idx n = BitVec.ofNat 32 R.val then gatedOf W1 b1 W2 b2 (xP x n) d else 0

/-- What node n adds to entry (R, d): its weighted row if its id is the word of R, else nothing. -/
def termN (x : XArr) (idx : IdArr) (W1 : W1Arr) (b1 : B1Arr) (W2 : W2Arr) (b2 : B2Arr) (R : Fin 1024) (d : Fin 128)
    (n : Fin 1000000) : EReal :=
  if idx (ix1 n) = BitVec.ofNat 32 R.val then gatedOf W1 b1 W2 b2 (rowX x n) d else 0

/-! ## (1) The accumulator before block t is the sum over the blocks below t -/

theorem accAt_succ_of_lt (x : XArr) (idx : IdArr) (W1 : W1Arr) (b1 : B1Arr) (W2 : W2Arr) (b2 : B2Arr)
    (t : Nat) (h : t < 123) (R : Fin 1024) (d : Fin 128) :
    accAt x idx W1 b1 W2 b2 (t + 1) R d
      = accAt x idx W1 b1 W2 b2 t R d + ∑ k : Fin 8192, termP x idx W1 b1 W2 b2 R d (rowAt ⟨t, h⟩ k) := by
  rw [accAt, dif_pos h]
  rfl

theorem accAt_succ_of_not_lt (x : XArr) (idx : IdArr) (W1 : W1Arr) (b1 : B1Arr) (W2 : W2Arr) (b2 : B2Arr)
    (t : Nat) (h : ¬ t < 123) :
    accAt x idx W1 b1 W2 b2 (t + 1) = accAt x idx W1 b1 W2 b2 t := by
  rw [accAt, dif_neg h]

theorem accAt_eq_sum_range (x : XArr) (idx : IdArr) (W1 : W1Arr) (b1 : B1Arr) (W2 : W2Arr) (b2 : B2Arr)
    (R : Fin 1024) (d : Fin 128) (t : Nat) :
    accAt x idx W1 b1 W2 b2 t R d
      = ∑ i ∈ Finset.range t,
          (if h : i < 123 then ∑ k : Fin 8192, termP x idx W1 b1 W2 b2 R d (rowAt ⟨i, h⟩ k) else 0) := by
  induction t with
  | zero => rw [Finset.range_zero, Finset.sum_empty]; rfl
  | succ t ih =>
    rw [Finset.sum_range_succ, ← ih]
    by_cases h : t < 123
    · rw [dif_pos h, accAt_succ_of_lt x idx W1 b1 W2 b2 t h R d]
    · rw [dif_neg h, add_zero, accAt_succ_of_not_lt x idx W1 b1 W2 b2 t h]

theorem accAt_123_eq_sum_blocks (x : XArr) (idx : IdArr) (W1 : W1Arr) (b1 : B1Arr) (W2 : W2Arr) (b2 : B2Arr)
    (R : Fin 1024) (d : Fin 128) :
    accAt x idx W1 b1 W2 b2 123 R d
      = ∑ t : Fin 123, ∑ k : Fin 8192, termP x idx W1 b1 W2 b2 R d (rowAt t k) := by
  rw [accAt_eq_sum_range, Finset.sum_fin_eq_sum_range]

/-! ## (2) The 123 blocks of 8192 rows are the padded rows -/

/-- (t, k) ↦ 8192 t + k, with inverse n ↦ (n / 8192, n % 8192). -/
def rowEquiv : Fin 123 × Fin 8192 ≃ Fin 1007616 where
  toFun p := rowAt p.1 p.2
  invFun n := (⟨n.val / 8192, by have := n.isLt; omega⟩, ⟨n.val % 8192, by omega⟩)
  left_inv p := by
    obtain ⟨⟨t, ht⟩, ⟨k, hk⟩⟩ := p
    refine Prod.ext (Fin.ext ?_) (Fin.ext ?_)
    · show (t * 8192 + k) / 8192 = t
      omega
    · show (t * 8192 + k) % 8192 = k
      omega
  right_inv n := by
    obtain ⟨n, hn⟩ := n
    refine Fin.ext ?_
    show n / 8192 * 8192 + n % 8192 = n
    omega

theorem sum_blocks_eq_sum_rows (f : Fin 1007616 → EReal) :
    ∑ t : Fin 123, ∑ k : Fin 8192, f (rowAt t k) = ∑ n : Fin 1007616, f n := by
  rw [← Fintype.sum_prod_type' (fun t k => f (rowAt t k))]
  exact Fintype.sum_equiv rowEquiv _ _ (fun _ => rfl)

/-! ## (3) The padding rows add nothing, and the other rows are the nodes -/

theorem pad_ne (R : Fin 1024) : (1024#32 : BitVec 32) ≠ BitVec.ofNat 32 R.val := by
  intro h
  have h2 := congrArg BitVec.toNat h
  rw [BitVec.toNat_ofNat, BitVec.toNat_ofNat] at h2
  have := R.isLt
  omega

/-- The padded row's term, as a function of the row's number alone. -/
def termNat (x : XArr) (idx : IdArr) (W1 : W1Arr) (b1 : B1Arr) (W2 : W2Arr) (b2 : B2Arr) (R : Fin 1024) (d : Fin 128)
    (i : Nat) : EReal :=
  if h : i < 1000000 then termN x idx W1 b1 W2 b2 R d ⟨i, h⟩ else 0

theorem termP_eq_termNat (x : XArr) (idx : IdArr) (W1 : W1Arr) (b1 : B1Arr) (W2 : W2Arr) (b2 : B2Arr)
    (R : Fin 1024) (d : Fin 128) (n : Fin 1007616) :
    termP x idx W1 b1 W2 b2 R d n = termNat x idx W1 b1 W2 b2 R d n.val := by
  unfold termP termNat
  by_cases h : n.val < 1000000
  · rw [dif_pos h]
    have hid : idP idx n = idx (ix1 (⟨n.val, h⟩ : Fin 1000000)) := by unfold idP; rw [dif_pos h]
    have hx : xP x n = rowX x ⟨n.val, h⟩ := by
      funext j; unfold xP rowX; rw [dif_pos h]
    rw [hid, hx]; rfl
  · rw [dif_neg h]
    have hid : idP idx n = 1024#32 := by unfold idP; rw [dif_neg h]
    rw [hid, if_neg (pad_ne R)]

theorem termN_eq_termNat (x : XArr) (idx : IdArr) (W1 : W1Arr) (b1 : B1Arr) (W2 : W2Arr) (b2 : B2Arr)
    (R : Fin 1024) (d : Fin 128) (n : Fin 1000000) :
    termN x idx W1 b1 W2 b2 R d n = termNat x idx W1 b1 W2 b2 R d n.val := by
  unfold termNat
  rw [dif_pos n.isLt]

theorem sum_rows_eq_sum_nodes (x : XArr) (idx : IdArr) (W1 : W1Arr) (b1 : B1Arr) (W2 : W2Arr) (b2 : B2Arr)
    (R : Fin 1024) (d : Fin 128) :
    ∑ n : Fin 1007616, termP x idx W1 b1 W2 b2 R d n = ∑ n : Fin 1000000, termN x idx W1 b1 W2 b2 R d n := by
  rw [Finset.sum_congr rfl (fun n _ => termP_eq_termNat x idx W1 b1 W2 b2 R d n),
    Finset.sum_congr rfl (fun n _ => termN_eq_termNat x idx W1 b1 W2 b2 R d n),
    Fin.sum_univ_eq_sum_range (termNat x idx W1 b1 W2 b2 R d) 1007616,
    Fin.sum_univ_eq_sum_range (termNat x idx W1 b1 W2 b2 R d) 1000000]
  symm
  refine Finset.sum_subset (Finset.range_subset_range.2 (by omega)) ?_
  intro i _ hi
  have hi' : ¬ i < 1000000 := fun h => hi (Finset.mem_range.2 h)
  unfold termNat
  rw [dif_neg hi']

/-! ## (4) A word is the word of R < 1024 exactly when its signed reading is R -/

theorem toInt_ofNat_small (R : Fin 1024) : (BitVec.ofNat 32 R.val).toInt = (R.val : Int) := by
  have := R.isLt
  rw [BitVec.toInt_eq_toNat_cond, BitVec.toNat_ofNat]
  have hm : R.val % 2 ^ 32 = R.val := Nat.mod_eq_of_lt (by omega)
  rw [hm, if_pos (by omega)]

theorem eq_ofNat_iff_toInt (v : BitVec 32) (R : Fin 1024) :
    v = BitVec.ofNat 32 R.val ↔ v.toInt = (R.val : Int) := by
  constructor
  · intro h; rw [h, toInt_ofNat_small]
  · intro h; apply BitVec.eq_of_toInt_eq; rw [h, toInt_ofNat_small]

theorem G_eq_sum_nodes (x : XArr) (idx : IdArr) (W1 : W1Arr) (b1 : B1Arr) (W2 : W2Arr) (b2 : B2Arr)
    (R : Fin 1024) (d : Fin 128) :
    G x idx W1 b1 W2 b2 (ix2 R d) = ∑ n : Fin 1000000, termN x idx W1 b1 W2 b2 R d n := by
  have hG : G x idx W1 b1 W2 b2 (ix2 R d)
      = ∑ n ∈ Finset.univ.filter (fun n : Fin 1000000 => (idx (ix1 n)).toInt = (R.val : Int)),
          gatedOf W1 b1 W2 b2 (rowX x n) d := rfl
  rw [hG, Finset.sum_filter]
  refine Finset.sum_congr rfl (fun n _ => ?_)
  unfold termN
  exact if_congr (eq_ofNat_iff_toInt _ R).symm rfl rfl

/-! ## The accumulator after the 123 blocks -/

theorem accAt_final (x : XArr) (idx : IdArr) (W1 : W1Arr) (b1 : B1Arr) (W2 : W2Arr) (b2 : B2Arr)
    (R : Fin 1024) (d : Fin 128) :
    accAt x idx W1 b1 W2 b2 123 R d = G x idx W1 b1 W2 b2 (Idealize.ShloMosaic.ValueIdx.ix2 R d) := by
  rw [accAt_123_eq_sum_blocks, sum_blocks_eq_sum_rows (termP x idx W1 b1 W2 b2 R d), sum_rows_eq_sum_nodes,
    G_eq_sum_nodes]

end Cert.Spec

end
-- ==== Proof.KIBodyFacts.lean ====
/-
  What one run of the kernel's body leaves in its two buffers, read index by index.

  The body clears the accumulator at the first grid point; then, for each of the eight groups of 128 rows whose id range
  [lo, lo + 127] meets the block's id range [least, greatest], it replaces that group's rows by a function of those same
  rows (and of the inputs); at the last grid point it copies the accumulator to the output buffer. The eight groups' row
  ranges are disjoint, so each group's rows are read, and rewritten, off the contents the clearing step left ("the base"):
  no group sees another's store. Everything here is structural: no arithmetic on the values is opened.
-/
import proofs.«414496_j87668872446565_1_alg».proof.Proof.KIBody
import proofs.«414496_j87668872446565_1_alg».proof.Proof.KIConds
import Idealize.ShloMosaic.Lib.WritesUnit
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## Reading through one conditional store of whole rows of a rank-2 buffer -/

section Step

variable {sg : RefSig} {κ : Kind} {sp : Space} {dd : Fin 2 → ℕ} {e : EltTy} {Val : EltTy → Type}
variable (v : View sg κ sp (⟨2, dd⟩ : Shape) e)

/-- A store of rows `[o, o + W)` made under a condition: a row outside the range reads the earlier contents, whether or
    not the store was made. -/
theorem read_step_of_not_mem (C : Prop) [Decidable C] (inner : v.ty.Contents Val) {off size : Fin 2 → ℕ} {o W : ℕ}
    (inb : ∀ a : Fin 2, off a + size a ≤ dd a)
    (w : (Rect.unit (s := ⟨2, dd⟩) off size inb).shape.Idx → Val e) (y : (⟨2, dd⟩ : Shape).Idx)
    (hoff : off = ![o, 0]) (hW : size (0 : Fin 2) = W)
    (h : (y (0 : Fin 2)).val < o ∨ o + W ≤ (y (0 : Fin 2)).val) :
    v.read Val (if hc : C then
        v.writes Val inner [(⟨Rect.unit (s := ⟨2, dd⟩) off size inb, w⟩ : View.Piece Val (⟨2, dd⟩ : Shape) e)]
      else inner) y = v.read Val inner y := by
  by_cases hC : C
  · rw [dif_pos hC]; exact View.read_writes_cons_rows_of_not_mem v inner inb w [] y hoff hW h
  · rw [dif_neg hC]

/-- The same store read at row `o + x 0`, column `x 1`: the payload at `x` if the store was made, the earlier contents
    if not. -/
theorem read_step_of_mem (C : Prop) [Decidable C] (inner : v.ty.Contents Val) {off size : Fin 2 → ℕ} {o : ℕ}
    (inb : ∀ a : Fin 2, off a + size a ≤ dd a)
    (w : (Rect.unit (s := ⟨2, dd⟩) off size inb).shape.Idx → Val e) (y : (⟨2, dd⟩ : Shape).Idx)
    (x : (Rect.unit (s := ⟨2, dd⟩) off size inb).shape.Idx) (hoff : off = ![o, 0])
    (hx0 : (y (0 : Fin 2)).val = o + (x (0 : Fin 2)).val) (hx1 : (y (1 : Fin 2)).val = (x (1 : Fin 2)).val) :
    v.read Val (if hc : C then
        v.writes Val inner [(⟨Rect.unit (s := ⟨2, dd⟩) off size inb, w⟩ : View.Piece Val (⟨2, dd⟩ : Shape) e)]
      else inner) y = if C then w x else v.read Val inner y := by
  by_cases hC : C
  · rw [dif_pos hC, if_pos hC]; exact View.read_writes_cons_rows_of_mem v inner inb w [] y x hoff hx0 hx1
  · rw [dif_neg hC, if_neg hC]

end Step

variable {F : FTy → Type} [FloatOps F]

variable (c : Dev nD) (i : grid0.Coords)
    (arg1 : Memref sig .tc .smem S123 .i32) (harg1 : arg1.IsWhole) (arg2 : Memref sig .tc .smem S123 .i32) (harg2 : arg2.IsWhole)
    (arg3 : Memref sig .tc .vmem S8192x128 .f32) (harg3 : arg3.IsWhole) (arg4 : Memref sig .tc .vmem S1x1x8192 .i32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x1 .f32) (harg7 : arg7.IsWhole) (arg8 : Memref sig .tc .vmem S1x1 .f32) (harg8 : arg8.IsWhole)
    (arg9 : Memref sig .tc .vmem S1024x128 .f32) (harg9 : arg9.IsWhole) (arg10 : Memref sig .tc .vmem S1024x128 .f32) (harg10 : arg10.IsWhole)
    (t1 : Vec F S123 .i32) (t2 : Vec F S123 .i32) (x0 : Vec F S8192x128 .f32) (x1 : Vec F S1x1x8192 .i32) (x2 : Vec F S128x128 .f32)
    (x3 : Vec F S1x128 .f32) (x4 : Vec F S128x1 .f32) (x5 : Vec F S1x1 .f32) (xs : Vec F S1024x128 .f32)

/-- What the run leaves in the accumulator's buffer. -/
abbrev runS := (kernelRun c i arg1 harg1 arg2 harg2 arg3 harg3 arg4 harg4 arg5 harg5 arg6 harg6 arg7 harg7 arg8 harg8 arg9 harg9 arg10 harg10 t1 t2 x0 x1 x2 x3 x4 x5 xs).1

/-- What the run leaves in the output's buffer, which held `xo`. -/
abbrev runO (xo : Vec F S1024x128 .f32) := ((kernelRun c i arg1 harg1 arg2 harg2 arg3 harg3 arg4 harg4 arg5 harg5 arg6 harg6 arg7 harg7 arg8 harg8 arg9 harg9 arg10 harg10 t1 t2 x0 x1 x2 x3 x4 x5 xs).2 xo).1

private theorem hz2 : (![0, 0] : Fin 2 → Nat) = fun _ => 0 := funext fun a => by fin_cases a <;> rfl
private theorem hz3 : (![0, 0, 0] : Fin 3 → Nat) = fun _ => 0 := funext fun a => by fin_cases a <;> rfl

/-- The table index the body reads at grid point `i` is in range. -/
theorem off1_lt (i : grid0.Coords) : k0_off1 i 0 < 123 := by
  have h := k0_off1_inb i 0
  have h' : k0_off1 i 0 + 1 ≤ 123 := h
  omega

/-- The block's least id: the word the body loads from the first table. -/
def wmin (i : grid0.Coords) (t1 : Vec F S123 .i32) : BitVec 32 := t1 (ix1 (⟨k0_off1 i 0, off1_lt i⟩ : Fin 123))
/-- The block's greatest id: the word the body loads from the second table. -/
def wmax (i : grid0.Coords) (t2 : Vec F S123 .i32) : BitVec 32 := t2 (ix1 (⟨k0_off1 i 0, off1_lt i⟩ : Fin 123))

theorem wmin_eq : wmin i t1 = t1 (ix1 (⟨k0_off1 i 0, off1_lt i⟩ : Fin 123)) := rfl
theorem wmax_eq : wmax i t2 = t2 (ix1 (⟨k0_off1 i 0, off1_lt i⟩ : Fin 123)) := rfl

/-- The accumulator's contents after the first conditional: cleared at the first grid point, as they were elsewhere. -/
def baseOf (i : grid0.Coords) (xs : Vec F S1024x128 .f32) : Vec F S1024x128 .f32 := if resetC i then k0_pay2 (F := F) else xs

/-- The word loaded from the first table is the table's entry at the grid point's index. -/
theorem r_eq : kernelRun.sl.r c i arg1 harg1 t1 = wmin i t1 := by
  unfold kernelRun.sl.r wmin
  rw [View.readAt_apply, harg1.read_unread]
  refine congrArg t1 (funext fun a => ?_)
  fin_cases a
  exact Fin.ext (by show k0_off1 i 0 + 1 * 0 = k0_off1 i 0; omega)

theorem r_1_eq : kernelRun.sl.r_1 c i arg2 harg2 t2 = wmax i t2 := by
  unfold kernelRun.sl.r_1 wmax
  rw [View.readAt_apply, harg2.read_unread]
  refine congrArg t2 (funext fun a => ?_)
  fin_cases a
  exact Fin.ext (by show k0_off1 i 0 + 1 * 0 = k0_off1 i 0; omega)

theorem r_2_eq : kernelRun.sl.r_2 c arg3 harg3 arg5 harg5 arg6 harg6 arg7 harg7 arg8 harg8 x0 x2 x3 x4 x5 = k0_pay3 x0 x2 x3 x4 x5 := by
  unfold kernelRun.sl.r_2
  simp only [View.readAt_eq_ld, harg3.read_unread, harg5.read_unread, harg6.read_unread, harg7.read_unread, harg8.read_unread,
    View.ld_unit_zero (S := S8192x128) hz2, View.ld_unit_zero (S := S128x128) hz2, View.ld_unit_zero (S := S1x128) hz2,
    View.ld_unit_zero (S := S128x1) hz2, View.ld_unit_zero (S := S1x1) hz2]

theorem r_3_eq : kernelRun.sl.r_3 c arg4 harg4 x1 = k0_pay4 x1 := by
  unfold kernelRun.sl.r_3
  simp only [View.readAt_eq_ld, harg4.read_unread, View.ld_unit_zero (S := S1x1x8192) hz3]

/-- What the first conditional leaves reads as the base. -/
theorem read_base :
    arg10.view.read (Elt F) (if hc : kernelRun.sl.v2 i = 1#1 then
        arg10.view.writes (Elt F) (harg10.unread xs) [⟨Rect.unit ![0, 0] S1024x128.size inb_S1024x128_S1024x128_0_0, k0_pay2 (F := F)⟩]
      else harg10.unread xs) = baseOf i xs := by
  funext y
  refine (read_step_of_mem arg10.view (kernelRun.sl.v2 i = 1#1) (harg10.unread xs) inb_S1024x128_S1024x128_0_0
    (k0_pay2 (F := F)) y y rfl (Nat.zero_add _).symm rfl).trans ?_
  rw [harg10.read_unread]
  unfold baseOf
  have hc : (kernelRun.sl.v2 i = 1#1) = resetC i := rfl
  by_cases h : kernelRun.sl.v2 i = 1#1
  · rw [if_pos h, if_pos (hc ▸ h)]
  · rw [if_neg h, if_neg (hc ▸ h)]

/-! ## Rows the later stores leave alone -/

/-- Contents that read as the base from row `lo` on: what the buffer holds while only groups below `lo` have stored. -/
def Untouched (i : grid0.Coords) (arg10 : Memref sig .tc .vmem S1024x128 .f32) (xs : Vec F S1024x128 .f32)
    (f : arg10.view.ty.Contents (Elt F)) (lo : ℕ) : Prop :=
  ∀ y : S1024x128.Idx, lo ≤ (y (0 : Fin 2)).val → arg10.view.read (Elt F) f y = baseOf i xs y

/-- What the first conditional leaves is untouched from row 0 on. -/
theorem untouched_base :
    Untouched i arg10 xs (if hc : kernelRun.sl.v2 i = 1#1 then
        arg10.view.writes (Elt F) (harg10.unread xs) [⟨Rect.unit ![0, 0] S1024x128.size inb_S1024x128_S1024x128_0_0, k0_pay2 (F := F)⟩]
      else harg10.unread xs) 0 :=
  fun y _ => congrFun (read_base i arg10 harg10 xs) y

/-- A conditional store of the 128 rows from `o` keeps the contents untouched from any row past them on. -/
theorem untouched_step {lo : ℕ} (C : Prop) [Decidable C] (inner : arg10.view.ty.Contents (Elt F)) {o : ℕ}
    (inb : ∀ a : Fin 2, (![o, 0] : Fin 2 → ℕ) a + S128x128.size a ≤ S1024x128.size a)
    (w : (Rect.unit (s := S1024x128) ![o, 0] S128x128.size inb).shape.Idx → Elt F .f32)
    (hU : Untouched i arg10 xs inner lo) {lo' : ℕ} (h1 : o + 128 ≤ lo') (h2 : lo ≤ lo') :
    Untouched i arg10 xs (if hc : C then
        arg10.view.writes (Elt F) inner [⟨Rect.unit (s := S1024x128) ![o, 0] S128x128.size inb, w⟩]
      else inner) lo' :=
  fun y hy => (read_step_of_not_mem arg10.view C inner inb w y rfl (W := 128) rfl (Or.inr (by omega))).trans
    (hU y (by omega))

/-- The tile of 128 rows from `lo`, index by index. -/
theorem tile_idx (lo : ℕ) (inb : ∀ a : Fin 2, (![lo, 0] : Fin 2 → ℕ) a + S128x128.size a ≤ S1024x128.size a)
    (j : S128x128.Idx) (h : lo + (j (0 : Fin 2)).val < 1024) :
    (Rect.unit (s := S1024x128) ![lo, 0] S128x128.size inb).toLoadRect.idx j
      = ix2 (⟨lo + (j (0 : Fin 2)).val, h⟩ : Fin 1024) (j (1 : Fin 2)) := by
  funext a
  fin_cases a
  · exact Fin.ext (by show lo + 1 * (j (0 : Fin 2)).val = lo + (j (0 : Fin 2)).val; omega)
  · exact Fin.ext (by show 0 + 1 * (j (1 : Fin 2)).val = (j (1 : Fin 2)).val; omega)

/-- One group's conditional read-modify-write of its 128 rows, over contents untouched from its first row on: a row of
    the group reads the payload of the BASE's tile if the store was made, the base if not. -/
theorem group_read (lo : ℕ) (hlo : lo + 128 ≤ 1024) (C : Prop) [Decidable C] (inner : arg10.view.ty.Contents (Elt F))
    (inb : ∀ a : Fin 2, (![lo, 0] : Fin 2 → ℕ) a + S128x128.size a ≤ S1024x128.size a)
    (pay : Vec F S128x128 .f32 → FVec F S128x128 .f32) (hU : Untouched i arg10 xs inner lo) (p d : Fin 128) :
    arg10.view.read (Elt F) (if hc : C then
        arg10.view.writes (Elt F) inner [⟨Rect.unit (s := S1024x128) ![lo, 0] S128x128.size inb,
          pay (View.readAt (Elt F) arg10.view (Rect.unit (s := S1024x128) ![lo, 0] S128x128.size inb).toLoadRect inner)⟩]
      else inner) (ix2 (⟨lo + p.val, by have := p.isLt; omega⟩ : Fin 1024) d)
      = if C then pay (fun j => baseOf i xs (ix2 (⟨lo + (j (0 : Fin 2)).val, by have := idx2_lt0 j; omega⟩ : Fin 1024) (j (1 : Fin 2)))) (ix2 p d)
        else baseOf i xs (ix2 (⟨lo + p.val, by have := p.isLt; omega⟩ : Fin 1024) d) := by
  refine (read_step_of_mem arg10.view C inner inb _ (ix2 (⟨lo + p.val, by have := p.isLt; omega⟩ : Fin 1024) d) (ix2 p d)
    rfl rfl rfl).trans ?_
  by_cases hC : C
  · rw [if_pos hC, if_pos hC]
    refine congrFun (congrArg pay (funext fun j => ?_)) _
    rw [View.readAt_apply]
    refine (hU _ (by show lo ≤ lo + 1 * (j (0 : Fin 2)).val; omega)).trans ?_
    exact congrArg (baseOf i xs) (tile_idx lo inb j _)
  · rw [if_neg hC, if_neg hC]
    exact hU _ (by show lo ≤ lo + p.val; omega)

/-! ## The output's buffer -/

/-- Away from the last grid point the output's buffer keeps what it held. -/
theorem out_idle (xo : Vec F S1024x128 .f32) (h : ¬ k0_cond10 i = 1#1) :
    arg9.view.read (Elt F) (runO c i arg1 harg1 arg2 harg2 arg3 harg3 arg4 harg4 arg5 harg5 arg6 harg6 arg7 harg7 arg8 harg8 arg9 harg9 arg10 harg10 t1 t2 x0 x1 x2 x3 x4 x5 xs xo) = xo := by
  unfold runO kernelRun; dsimp only
  rw [dif_neg h]; exact harg9.read_unread xo

/-- At the last grid point the output's buffer reads as the accumulator's final contents. -/
theorem out_last (xo : Vec F S1024x128 .f32) (h : k0_cond10 i = 1#1) :
    arg9.view.read (Elt F) (runO c i arg1 harg1 arg2 harg2 arg3 harg3 arg4 harg4 arg5 harg5 arg6 harg6 arg7 harg7 arg8 harg8 arg9 harg9 arg10 harg10 t1 t2 x0 x1 x2 x3 x4 x5 xs xo) = arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) := by
  unfold runO runS kernelRun; dsimp only
  rw [dif_pos h]
  funext y
  refine (View.read_writes_cons_rows_of_mem arg9.view (harg9.unread xo) inb_S1024x128_S1024x128_0_0 _ [] y y rfl
    (Nat.zero_add _).symm rfl).trans ?_
  unfold kernelRun.sl.v76
  exact congrFun (View.ld_unit_zero (S := S1024x128) hz2 inb_S1024x128_S1024x128_0_0 (arg10.view.read (Elt F) _)) y

/-! ## The accumulator's buffer, group by group -/

/-- Rows 0 to 127 of the accumulator after the run: if the block's id range meets [0, 127], the group's update of the
    base's rows 0 to 127; otherwise the base. -/
theorem acc_read_0 (p d : Fin 128) :
    arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) (ix2 (⟨0 + p.val, by have := p.isLt; omega⟩ : Fin 1024) d)
      = if condG 0#32 127#32 (wmin i t1) (wmax i t2)
        then k0_pay5 (F := F) (k0_pay3 x0 x2 x3 x4 x5) (k0_pay4 x1)
          (fun j => baseOf i xs (ix2 (⟨0 + (j (0 : Fin 2)).val, by have := idx2_lt0 j; omega⟩ : Fin 1024) (j (1 : Fin 2)))) (ix2 p d)
        else baseOf i xs (ix2 (⟨0 + p.val, by have := p.isLt; omega⟩ : Fin 1024) d) := by
  have hp := p.isLt
  unfold runS kernelRun; dsimp only
  refine (read_step_of_not_mem arg10.view _ _ inb_S1024x128_S128x128_896_0 _ _ rfl (W := 128) rfl (Or.inl (show 0 + p.val < 896 by omega))).trans ?_
  refine (read_step_of_not_mem arg10.view _ _ inb_S1024x128_S128x128_768_0 _ _ rfl (W := 128) rfl (Or.inl (show 0 + p.val < 768 by omega))).trans ?_
  refine (read_step_of_not_mem arg10.view _ _ inb_S1024x128_S128x128_640_0 _ _ rfl (W := 128) rfl (Or.inl (show 0 + p.val < 640 by omega))).trans ?_
  refine (read_step_of_not_mem arg10.view _ _ inb_S1024x128_S128x128_512_0 _ _ rfl (W := 128) rfl (Or.inl (show 0 + p.val < 512 by omega))).trans ?_
  refine (read_step_of_not_mem arg10.view _ _ inb_S1024x128_S128x128_384_0 _ _ rfl (W := 128) rfl (Or.inl (show 0 + p.val < 384 by omega))).trans ?_
  refine (read_step_of_not_mem arg10.view _ _ inb_S1024x128_S128x128_256_0 _ _ rfl (W := 128) rfl (Or.inl (show 0 + p.val < 256 by omega))).trans ?_
  refine (read_step_of_not_mem arg10.view _ _ inb_S1024x128_S128x128_128_0 _ _ rfl (W := 128) rfl (Or.inl (show 0 + p.val < 128 by omega))).trans ?_
  refine (group_read i arg10 xs 0 (by omega) _ _ inb_S1024x128_S128x128_0_0
    (fun t => k0_pay5 (F := F) (kernelRun.sl.r_2 c arg3 harg3 arg5 harg5 arg6 harg6 arg7 harg7 arg8 harg8 x0 x2 x3 x4 x5) (kernelRun.sl.r_3 c arg4 harg4 x1) t)
    (untouched_base i arg10 harg10 xs) p d).trans ?_
  rw [r_2_eq, r_3_eq]
  refine if_congr ?_ rfl rfl
  rw [← r_eq c i arg1 harg1 t1, ← r_1_eq c i arg2 harg2 t2]
  exact Iff.rfl

/-- Rows 128 to 255 of the accumulator after the run: if the block's id range meets [128, 255], the group's update of the
    base's rows 128 to 255; otherwise the base. -/
theorem acc_read_128 (p d : Fin 128) :
    arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) (ix2 (⟨128 + p.val, by have := p.isLt; omega⟩ : Fin 1024) d)
      = if condG 128#32 255#32 (wmin i t1) (wmax i t2)
        then k0_pay6 (F := F) (k0_pay3 x0 x2 x3 x4 x5) (k0_pay4 x1)
          (fun j => baseOf i xs (ix2 (⟨128 + (j (0 : Fin 2)).val, by have := idx2_lt0 j; omega⟩ : Fin 1024) (j (1 : Fin 2)))) (ix2 p d)
        else baseOf i xs (ix2 (⟨128 + p.val, by have := p.isLt; omega⟩ : Fin 1024) d) := by
  have hp := p.isLt
  unfold runS kernelRun; dsimp only
  refine (read_step_of_not_mem arg10.view _ _ inb_S1024x128_S128x128_896_0 _ _ rfl (W := 128) rfl (Or.inl (show 128 + p.val < 896 by omega))).trans ?_
  refine (read_step_of_not_mem arg10.view _ _ inb_S1024x128_S128x128_768_0 _ _ rfl (W := 128) rfl (Or.inl (show 128 + p.val < 768 by omega))).trans ?_
  refine (read_step_of_not_mem arg10.view _ _ inb_S1024x128_S128x128_640_0 _ _ rfl (W := 128) rfl (Or.inl (show 128 + p.val < 640 by omega))).trans ?_
  refine (read_step_of_not_mem arg10.view _ _ inb_S1024x128_S128x128_512_0 _ _ rfl (W := 128) rfl (Or.inl (show 128 + p.val < 512 by omega))).trans ?_
  refine (read_step_of_not_mem arg10.view _ _ inb_S1024x128_S128x128_384_0 _ _ rfl (W := 128) rfl (Or.inl (show 128 + p.val < 384 by omega))).trans ?_
  refine (read_step_of_not_mem arg10.view _ _ inb_S1024x128_S128x128_256_0 _ _ rfl (W := 128) rfl (Or.inl (show 128 + p.val < 256 by omega))).trans ?_
  refine (group_read i arg10 xs 128 (by omega) _ _ inb_S1024x128_S128x128_128_0
    (fun t => k0_pay6 (F := F) (kernelRun.sl.r_2 c arg3 harg3 arg5 harg5 arg6 harg6 arg7 harg7 arg8 harg8 x0 x2 x3 x4 x5) (kernelRun.sl.r_3 c arg4 harg4 x1) t)
    (untouched_step i arg10 xs _ _ inb_S1024x128_S128x128_0_0 _ (untouched_base i arg10 harg10 xs) (lo' := 128) (by omega) (by omega)) p d).trans ?_
  rw [r_2_eq, r_3_eq]
  refine if_congr ?_ rfl rfl
  rw [← r_eq c i arg1 harg1 t1, ← r_1_eq c i arg2 harg2 t2]
  exact Iff.rfl

/-- Rows 256 to 383 of the accumulator after the run: if the block's id range meets [256, 383], the group's update of the
    base's rows 256 to 383; otherwise the base. -/
theorem acc_read_256 (p d : Fin 128) :
    arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) (ix2 (⟨256 + p.val, by have := p.isLt; omega⟩ : Fin 1024) d)
      = if condG 256#32 383#32 (wmin i t1) (wmax i t2)
        then k0_pay7 (F := F) (k0_pay3 x0 x2 x3 x4 x5) (k0_pay4 x1)
          (fun j => baseOf i xs (ix2 (⟨256 + (j (0 : Fin 2)).val, by have := idx2_lt0 j; omega⟩ : Fin 1024) (j (1 : Fin 2)))) (ix2 p d)
        else baseOf i xs (ix2 (⟨256 + p.val, by have := p.isLt; omega⟩ : Fin 1024) d) := by
  have hp := p.isLt
  unfold runS kernelRun; dsimp only
  refine (read_step_of_not_mem arg10.view _ _ inb_S1024x128_S128x128_896_0 _ _ rfl (W := 128) rfl (Or.inl (show 256 + p.val < 896 by omega))).trans ?_
  refine (read_step_of_not_mem arg10.view _ _ inb_S1024x128_S128x128_768_0 _ _ rfl (W := 128) rfl (Or.inl (show 256 + p.val < 768 by omega))).trans ?_
  refine (read_step_of_not_mem arg10.view _ _ inb_S1024x128_S128x128_640_0 _ _ rfl (W := 128) rfl (Or.inl (show 256 + p.val < 640 by omega))).trans ?_
  refine (read_step_of_not_mem arg10.view _ _ inb_S1024x128_S128x128_512_0 _ _ rfl (W := 128) rfl (Or.inl (show 256 + p.val < 512 by omega))).trans ?_
  refine (read_step_of_not_mem arg10.view _ _ inb_S1024x128_S128x128_384_0 _ _ rfl (W := 128) rfl (Or.inl (show 256 + p.val < 384 by omega))).trans ?_
  refine (group_read i arg10 xs 256 (by omega) _ _ inb_S1024x128_S128x128_256_0
    (fun t => k0_pay7 (F := F) (kernelRun.sl.r_2 c arg3 harg3 arg5 harg5 arg6 harg6 arg7 harg7 arg8 harg8 x0 x2 x3 x4 x5) (kernelRun.sl.r_3 c arg4 harg4 x1) t)
    (untouched_step i arg10 xs _ _ inb_S1024x128_S128x128_128_0 _ (untouched_step i arg10 xs _ _ inb_S1024x128_S128x128_0_0 _ (untouched_base i arg10 harg10 xs) (lo' := 128) (by omega) (by omega)) (lo' := 256) (by omega) (by omega)) p d).trans ?_
  rw [r_2_eq, r_3_eq]
  refine if_congr ?_ rfl rfl
  rw [← r_eq c i arg1 harg1 t1, ← r_1_eq c i arg2 harg2 t2]
  exact Iff.rfl

/-- Rows 384 to 511 of the accumulator after the run: if the block's id range meets [384, 511], the group's update of the
    base's rows 384 to 511; otherwise the base. -/
theorem acc_read_384 (p d : Fin 128) :
    arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) (ix2 (⟨384 + p.val, by have := p.isLt; omega⟩ : Fin 1024) d)
      = if condG 384#32 511#32 (wmin i t1) (wmax i t2)
        then k0_pay8 (F := F) (k0_pay3 x0 x2 x3 x4 x5) (k0_pay4 x1)
          (fun j => baseOf i xs (ix2 (⟨384 + (j (0 : Fin 2)).val, by have := idx2_lt0 j; omega⟩ : Fin 1024) (j (1 : Fin 2)))) (ix2 p d)
        else baseOf i xs (ix2 (⟨384 + p.val, by have := p.isLt; omega⟩ : Fin 1024) d) := by
  have hp := p.isLt
  unfold runS kernelRun; dsimp only
  refine (read_step_of_not_mem arg10.view _ _ inb_S1024x128_S128x128_896_0 _ _ rfl (W := 128) rfl (Or.inl (show 384 + p.val < 896 by omega))).trans ?_
  refine (read_step_of_not_mem arg10.view _ _ inb_S1024x128_S128x128_768_0 _ _ rfl (W := 128) rfl (Or.inl (show 384 + p.val < 768 by omega))).trans ?_
  refine (read_step_of_not_mem arg10.view _ _ inb_S1024x128_S128x128_640_0 _ _ rfl (W := 128) rfl (Or.inl (show 384 + p.val < 640 by omega))).trans ?_
  refine (read_step_of_not_mem arg10.view _ _ inb_S1024x128_S128x128_512_0 _ _ rfl (W := 128) rfl (Or.inl (show 384 + p.val < 512 by omega))).trans ?_
  refine (group_read i arg10 xs 384 (by omega) _ _ inb_S1024x128_S128x128_384_0
    (fun t => k0_pay8 (F := F) (kernelRun.sl.r_2 c arg3 harg3 arg5 harg5 arg6 harg6 arg7 harg7 arg8 harg8 x0 x2 x3 x4 x5) (kernelRun.sl.r_3 c arg4 harg4 x1) t)
    (untouched_step i arg10 xs _ _ inb_S1024x128_S128x128_256_0 _ (untouched_step i arg10 xs _ _ inb_S1024x128_S128x128_128_0 _ (untouched_step i arg10 xs _ _ inb_S1024x128_S128x128_0_0 _ (untouched_base i arg10 harg10 xs) (lo' := 128) (by omega) (by omega)) (lo' := 256) (by omega) (by omega)) (lo' := 384) (by omega) (by omega)) p d).trans ?_
  rw [r_2_eq, r_3_eq]
  refine if_congr ?_ rfl rfl
  rw [← r_eq c i arg1 harg1 t1, ← r_1_eq c i arg2 harg2 t2]
  exact Iff.rfl

/-- Rows 512 to 639 of the accumulator after the run: if the block's id range meets [512, 639], the group's update of the
    base's rows 512 to 639; otherwise the base. -/
theorem acc_read_512 (p d : Fin 128) :
    arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) (ix2 (⟨512 + p.val, by have := p.isLt; omega⟩ : Fin 1024) d)
      = if condG 512#32 639#32 (wmin i t1) (wmax i t2)
        then k0_pay9 (F := F) (k0_pay3 x0 x2 x3 x4 x5) (k0_pay4 x1)
          (fun j => baseOf i xs (ix2 (⟨512 + (j (0 : Fin 2)).val, by have := idx2_lt0 j; omega⟩ : Fin 1024) (j (1 : Fin 2)))) (ix2 p d)
        else baseOf i xs (ix2 (⟨512 + p.val, by have := p.isLt; omega⟩ : Fin 1024) d) := by
  have hp := p.isLt
  unfold runS kernelRun; dsimp only
  refine (read_step_of_not_mem arg10.view _ _ inb_S1024x128_S128x128_896_0 _ _ rfl (W := 128) rfl (Or.inl (show 512 + p.val < 896 by omega))).trans ?_
  refine (read_step_of_not_mem arg10.view _ _ inb_S1024x128_S128x128_768_0 _ _ rfl (W := 128) rfl (Or.inl (show 512 + p.val < 768 by omega))).trans ?_
  refine (read_step_of_not_mem arg10.view _ _ inb_S1024x128_S128x128_640_0 _ _ rfl (W := 128) rfl (Or.inl (show 512 + p.val < 640 by omega))).trans ?_
  refine (group_read i arg10 xs 512 (by omega) _ _ inb_S1024x128_S128x128_512_0
    (fun t => k0_pay9 (F := F) (kernelRun.sl.r_2 c arg3 harg3 arg5 harg5 arg6 harg6 arg7 harg7 arg8 harg8 x0 x2 x3 x4 x5) (kernelRun.sl.r_3 c arg4 harg4 x1) t)
    (untouched_step i arg10 xs _ _ inb_S1024x128_S128x128_384_0 _ (untouched_step i arg10 xs _ _ inb_S1024x128_S128x128_256_0 _ (untouched_step i arg10 xs _ _ inb_S1024x128_S128x128_128_0 _ (untouched_step i arg10 xs _ _ inb_S1024x128_S128x128_0_0 _ (untouched_base i arg10 harg10 xs) (lo' := 128) (by omega) (by omega)) (lo' := 256) (by omega) (by omega)) (lo' := 384) (by omega) (by omega)) (lo' := 512) (by omega) (by omega)) p d).trans ?_
  rw [r_2_eq, r_3_eq]
  refine if_congr ?_ rfl rfl
  rw [← r_eq c i arg1 harg1 t1, ← r_1_eq c i arg2 harg2 t2]
  exact Iff.rfl

/-- Rows 640 to 767 of the accumulator after the run: if the block's id range meets [640, 767], the group's update of the
    base's rows 640 to 767; otherwise the base. -/
theorem acc_read_640 (p d : Fin 128) :
    arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) (ix2 (⟨640 + p.val, by have := p.isLt; omega⟩ : Fin 1024) d)
      = if condG 640#32 767#32 (wmin i t1) (wmax i t2)
        then k0_pay10 (F := F) (k0_pay3 x0 x2 x3 x4 x5) (k0_pay4 x1)
          (fun j => baseOf i xs (ix2 (⟨640 + (j (0 : Fin 2)).val, by have := idx2_lt0 j; omega⟩ : Fin 1024) (j (1 : Fin 2)))) (ix2 p d)
        else baseOf i xs (ix2 (⟨640 + p.val, by have := p.isLt; omega⟩ : Fin 1024) d) := by
  have hp := p.isLt
  unfold runS kernelRun; dsimp only
  refine (read_step_of_not_mem arg10.view _ _ inb_S1024x128_S128x128_896_0 _ _ rfl (W := 128) rfl (Or.inl (show 640 + p.val < 896 by omega))).trans ?_
  refine (read_step_of_not_mem arg10.view _ _ inb_S1024x128_S128x128_768_0 _ _ rfl (W := 128) rfl (Or.inl (show 640 + p.val < 768 by omega))).trans ?_
  refine (group_read i arg10 xs 640 (by omega) _ _ inb_S1024x128_S128x128_640_0
    (fun t => k0_pay10 (F := F) (kernelRun.sl.r_2 c arg3 harg3 arg5 harg5 arg6 harg6 arg7 harg7 arg8 harg8 x0 x2 x3 x4 x5) (kernelRun.sl.r_3 c arg4 harg4 x1) t)
    (untouched_step i arg10 xs _ _ inb_S1024x128_S128x128_512_0 _ (untouched_step i arg10 xs _ _ inb_S1024x128_S128x128_384_0 _ (untouched_step i arg10 xs _ _ inb_S1024x128_S128x128_256_0 _ (untouched_step i arg10 xs _ _ inb_S1024x128_S128x128_128_0 _ (untouched_step i arg10 xs _ _ inb_S1024x128_S128x128_0_0 _ (untouched_base i arg10 harg10 xs) (lo' := 128) (by omega) (by omega)) (lo' := 256) (by omega) (by omega)) (lo' := 384) (by omega) (by omega)) (lo' := 512) (by omega) (by omega)) (lo' := 640) (by omega) (by omega)) p d).trans ?_
  rw [r_2_eq, r_3_eq]
  refine if_congr ?_ rfl rfl
  rw [← r_eq c i arg1 harg1 t1, ← r_1_eq c i arg2 harg2 t2]
  exact Iff.rfl

/-- Rows 768 to 895 of the accumulator after the run: if the block's id range meets [768, 895], the group's update of the
    base's rows 768 to 895; otherwise the base. -/
theorem acc_read_768 (p d : Fin 128) :
    arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) (ix2 (⟨768 + p.val, by have := p.isLt; omega⟩ : Fin 1024) d)
      = if condG 768#32 895#32 (wmin i t1) (wmax i t2)
        then k0_pay11 (F := F) (k0_pay3 x0 x2 x3 x4 x5) (k0_pay4 x1)
          (fun j => baseOf i xs (ix2 (⟨768 + (j (0 : Fin 2)).val, by have := idx2_lt0 j; omega⟩ : Fin 1024) (j (1 : Fin 2)))) (ix2 p d)
        else baseOf i xs (ix2 (⟨768 + p.val, by have := p.isLt; omega⟩ : Fin 1024) d) := by
  have hp := p.isLt
  unfold runS kernelRun; dsimp only
  refine (read_step_of_not_mem arg10.view _ _ inb_S1024x128_S128x128_896_0 _ _ rfl (W := 128) rfl (Or.inl (show 768 + p.val < 896 by omega))).trans ?_
  refine (group_read i arg10 xs 768 (by omega) _ _ inb_S1024x128_S128x128_768_0
    (fun t => k0_pay11 (F := F) (kernelRun.sl.r_2 c arg3 harg3 arg5 harg5 arg6 harg6 arg7 harg7 arg8 harg8 x0 x2 x3 x4 x5) (kernelRun.sl.r_3 c arg4 harg4 x1) t)
    (untouched_step i arg10 xs _ _ inb_S1024x128_S128x128_640_0 _ (untouched_step i arg10 xs _ _ inb_S1024x128_S128x128_512_0 _ (untouched_step i arg10 xs _ _ inb_S1024x128_S128x128_384_0 _ (untouched_step i arg10 xs _ _ inb_S1024x128_S128x128_256_0 _ (untouched_step i arg10 xs _ _ inb_S1024x128_S128x128_128_0 _ (untouched_step i arg10 xs _ _ inb_S1024x128_S128x128_0_0 _ (untouched_base i arg10 harg10 xs) (lo' := 128) (by omega) (by omega)) (lo' := 256) (by omega) (by omega)) (lo' := 384) (by omega) (by omega)) (lo' := 512) (by omega) (by omega)) (lo' := 640) (by omega) (by omega)) (lo' := 768) (by omega) (by omega)) p d).trans ?_
  rw [r_2_eq, r_3_eq]
  refine if_congr ?_ rfl rfl
  rw [← r_eq c i arg1 harg1 t1, ← r_1_eq c i arg2 harg2 t2]
  exact Iff.rfl

/-- Rows 896 to 1023 of the accumulator after the run: if the block's id range meets [896, 1023], the group's update of the
    base's rows 896 to 1023; otherwise the base. -/
theorem acc_read_896 (p d : Fin 128) :
    arg10.view.read (Elt F) (runS c i arg1 harg1 arg2 harg2 arg3 harg3 arg4 harg4 arg5 harg5 arg6 harg6 arg7 harg7 arg8 harg8 arg9 harg9 arg10 harg10 t1 t2 x0 x1 x2 x3 x4 x5 xs) (ix2 (⟨896 + p.val, by have := p.isLt; omega⟩ : Fin 1024) d)
      = if condG 896#32 1023#32 (wmin i t1) (wmax i t2)
        then k0_pay1 (F := F) (k0_pay3 x0 x2 x3 x4 x5) (k0_pay4 x1)
          (fun j => baseOf i xs (ix2 (⟨896 + (j (0 : Fin 2)).val, by have := idx2_lt0 j; omega⟩ : Fin 1024) (j (1 : Fin 2)))) (ix2 p d)
        else baseOf i xs (ix2 (⟨896 + p.val, by have := p.isLt; omega⟩ : Fin 1024) d) := by
  have hp := p.isLt
  unfold runS kernelRun; dsimp only
  refine (group_read i arg10 xs 896 (by omega) _ _ inb_S1024x128_S128x128_896_0
    (fun t => k0_pay1 (F := F) (kernelRun.sl.r_2 c arg3 harg3 arg5 harg5 arg6 harg6 arg7 harg7 arg8 harg8 x0 x2 x3 x4 x5) (kernelRun.sl.r_3 c arg4 harg4 x1) t)
    (untouched_step i arg10 xs _ _ inb_S1024x128_S128x128_768_0 _ (untouched_step i arg10 xs _ _ inb_S1024x128_S128x128_640_0 _ (untouched_step i arg10 xs _ _ inb_S1024x128_S128x128_512_0 _ (untouched_step i arg10 xs _ _ inb_S1024x128_S128x128_384_0 _ (untouched_step i arg10 xs _ _ inb_S1024x128_S128x128_256_0 _ (untouched_step i arg10 xs _ _ inb_S1024x128_S128x128_128_0 _ (untouched_step i arg10 xs _ _ inb_S1024x128_S128x128_0_0 _ (untouched_base i arg10 harg10 xs) (lo' := 128) (by omega) (by omega)) (lo' := 256) (by omega) (by omega)) (lo' := 384) (by omega) (by omega)) (lo' := 512) (by omega) (by omega)) (lo' := 640) (by omega) (by omega)) (lo' := 768) (by omega) (by omega)) (lo' := 896) (by omega) (by omega)) p d).trans ?_
  rw [r_2_eq, r_3_eq]
  refine if_congr ?_ rfl rfl
  rw [← r_eq c i arg1 harg1 t1, ← r_1_eq c i arg2 harg2 t2]
  exact Iff.rfl

end Cert.KernelIdeal.Body

end
-- ==== Proof.KIArgs.lean ====
/-
  No host operation of @main writes an argument.

  Before its one region @main runs fifteen host operations: constants, two pads, reshapes and two reductions. Each writes
  its own result buffer, and none of these is an argument of @main. So when the region is entered each of the six
  argument arrays holds what it held at launch.
-/
import proofs.«414496_j87668872446565_1_alg».proof.Proof.KIBase
import Idealize.ShloMosaic.Lib.StableHlo.Run

noncomputable section

namespace Cert.KernelIdeal.Run

open Cert.KernelIdeal Cert.KernelIdeal.Gen
open Idealize.ShloMosaic Idealize.ShloMosaic.TcCoe

variable {F : FTy → Type} [FloatOps F]

variable (m : (ℓ : Loc nD τ sig) → Buf (Elt F) ℓ)

/-- The references the host operations before the region write. -/
abbrev hostW : List (Ref sig .tc) :=
  [main_c, main_call0_v0, main_v0, main_c_0, main_call1_v0, main_v1, main_v2, main_c_1, main_v3, main_c_2, main_v4,
   main_v5, main_v6, main_v7]

/-- Every host operation before the region writes one of them. -/
theorem host_writes : (List.flatten (opss (F := F))).Forall fun op =>
    op.writes ⊆ (hostW.map (Proc.devRef (τ := τ) .tc)).toFinset := by
  simp only [hostOps0, hostOps0_1, hostOps0_2, hostOps0_3, hostOps0_4, List.flatten_cons, List.flatten_nil,
    List.append_nil, List.cons_append, List.nil_append, List.Forall]
  simp only [StableHlo.nullary_writes, StableHlo.unary_writes, StableHlo.binary_writes, StableHlo.reshape_writes,
    Finset.singleton_subset_iff, List.mem_toFinset]
  repeat' apply And.intro
  all_goals exact List.mem_map_of_mem (by decide)

/-- A reference no host operation writes is found as launched. -/
theorem V_of (c : Dev nD) (r : Ref sig .tc) (h : r ∉ hostW) : V m c r = m ((c : Thread nD τ).loc r) :=
  StableHlo.after_of_writes_sub (List.flatten (opss (F := F))) _ host_writes h

theorem V_arg0 (c : Dev nD) : V m c main_arg0 = m ((c : Thread nD τ).loc main_arg0) := V_of m c main_arg0 (by decide)
theorem V_arg1 (c : Dev nD) : V m c main_arg1 = m ((c : Thread nD τ).loc main_arg1) := V_of m c main_arg1 (by decide)
theorem V_arg2 (c : Dev nD) : V m c main_arg2 = m ((c : Thread nD τ).loc main_arg2) := V_of m c main_arg2 (by decide)
theorem V_arg3 (c : Dev nD) : V m c main_arg3 = m ((c : Thread nD τ).loc main_arg3) := V_of m c main_arg3 (by decide)
theorem V_arg4 (c : Dev nD) : V m c main_arg4 = m ((c : Thread nD τ).loc main_arg4) := V_of m c main_arg4 (by decide)
theorem V_arg5 (c : Dev nD) : V m c main_arg5 = m ((c : Thread nD τ).loc main_arg5) := V_of m c main_arg5 (by decide)

end Cert.KernelIdeal.Run

end
-- ==== Proof.KIHost.lean ====
/-
  What the region's windows hold when the region is entered, read back to the six argument arrays.

  Before its one region @main pads the node rows with zero rows and the ids with the id 1024 up to 123 blocks of 8192,
  reshapes the padded ids block by block (123 × 8192 and 123 × 1 × 8192), takes each block's least and greatest id, and
  reshapes the two biases to a row of 128 and to a single entry. No operation writes an argument, so each argument array
  is found as launched. Block t of the padded rows is rows 8192 t … 8192 t + 8191: row 8192 t + k of the node array when
  that is below 1,000,000 and a zero row otherwise; block t of the padded ids likewise, with the id 1024 after the last
  node. The two weight matrices are handed over whole, the biases whole after their reshape. The least id of block t
  is below every id of the block, the greatest above: only these two bounds of the tables are needed.
-/
import proofs.«414496_j87668872446565_1_alg».proof.Proof.KIData
import proofs.«414496_j87668872446565_1_alg».proof.Proof.KIArgs
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-! ## What the host operations leave in the windows' arrays and in the two tables -/

/-- The padded node rows as @main computes them: zero rows after the last node. -/
def xPad (c : Dev nD) : S1007616x128.Idx → EReal :=
  pad S1007616x128 ![0, 0] ![7616, 0] ![0, 0] (aX m c) (sitofp (F := Ideal) .f32 (constantI S_ 32 0#32))
    pads_S1000000x128_S1007616x128_076160_000 h_S_

/-- The padded ids as @main computes them: the id 1024 after the last node. -/
def idPad (c : Dev nD) : S1007616.Idx → BitVec 32 :=
  pad S1007616 ![0] ![7616] ![0] (aI m c) (constantI S_ 32 1024#32) pads_S1000000_S1007616_076160 h_S_

set_option maxHeartbeats 400000 in
theorem V_v0 (c : Dev nD) : (V m c main_v0 : S1007616x128.Idx → EReal) = xPad m c := by
  dsimp only [V, V0]
  simp only [hostOps0, hostOps0_1, hostOps0_2, hostOps0_3, hostOps0_4, List.flatten_cons, List.flatten_nil,
    List.append_nil, List.cons_append, List.nil_append]
  after_results
  rfl

set_option maxHeartbeats 400000 in
theorem V_v5 (c : Dev nD) : (V m c main_v5 : S123x1x8192.Idx → BitVec 32)
    = shapeCast S123x1x8192 (idPad m c) shapeCasts_S1007616_S123x1x8192 := by
  dsimp only [V, V0]
  simp only [hostOps0, hostOps0_1, hostOps0_2, hostOps0_3, hostOps0_4, List.flatten_cons, List.flatten_nil,
    List.append_nil, List.cons_append, List.nil_append]
  after_results
  rfl

set_option maxHeartbeats 400000 in
theorem V_v3 (c : Dev nD) : (V m c main_v3 : S123.Idx → BitVec 32)
    = Host.reduce IntOp.minsi (shapeCast S123x8192 (idPad m c) shapeCasts_S1007616_S123x8192)
        (constantI S_ 32 2147483647#32) reducesTo_S123x8192_S123_d1 h_S_ := by
  dsimp only [V, V0]
  simp only [hostOps0, hostOps0_1, hostOps0_2, hostOps0_3, hostOps0_4, List.flatten_cons, List.flatten_nil,
    List.append_nil, List.cons_append, List.nil_append]
  after_results
  rfl

set_option maxHeartbeats 400000 in
theorem V_v4 (c : Dev nD) : (V m c main_v4 : S123.Idx → BitVec 32)
    = Host.reduce IntOp.maxsi (shapeCast S123x8192 (idPad m c) shapeCasts_S1007616_S123x8192)
        (constantI S_ 32 2147483648#32) reducesTo_S123x8192_S123_d1 h_S_ := by
  dsimp only [V, V0]
  simp only [hostOps0, hostOps0_1, hostOps0_2, hostOps0_3, hostOps0_4, List.flatten_cons, List.flatten_nil,
    List.append_nil, List.cons_append, List.nil_append]
  after_results
  rfl

set_option maxHeartbeats 400000 in
theorem V_v6 (c : Dev nD) : (V m c main_v6 : S1x128.Idx → EReal)
    = shapeCast S1x128 (aB1 m c) shapeCasts_S128_S1x128 := by
  dsimp only [V, V0]
  simp only [hostOps0, hostOps0_1, hostOps0_2, hostOps0_3, hostOps0_4, List.flatten_cons, List.flatten_nil,
    List.append_nil, List.cons_append, List.nil_append]
  after_results
  rfl

set_option maxHeartbeats 400000 in
theorem V_v7 (c : Dev nD) : (V m c main_v7 : S1x1.Idx → EReal)
    = shapeCast S1x1 (aB2 m c) shapeCasts_S1_S1x1 := by
  dsimp only [V, V0]
  simp only [hostOps0, hostOps0_1, hostOps0_2, hostOps0_3, hostOps0_4, List.flatten_cons, List.flatten_nil,
    List.append_nil, List.cons_append, List.nil_append]
  after_results
  rfl

/-! ## The padded arrays at an index -/

theorem xPad_apply (c : Dev nD) (n : Fin 1007616) (j : Fin 128) :
    xPad m c (ix2 n j) = Cert.Spec.xP (aX m c) n j := by
  unfold xPad Cert.Spec.xP
  by_cases h : n.val < 1000000
  · rw [dif_pos h]
    exact Idealize.ShloMosaic.pad_apply_of_inside _ _ _ _ _ _ _ (ix2 n j) (ix2 (⟨n.val, h⟩ : Fin 1000000) j) (fun a => by
      match a with
      | ⟨0, _⟩ => show n.val = 0 + n.val * (0 + 1); omega
      | ⟨1, _⟩ => show j.val = 0 + j.val * (0 + 1); omega)
  · rw [dif_neg h]
    refine (Idealize.ShloMosaic.pad_apply_of_not_inside _ _ _ _ _ _ _ (ix2 n j) (0 : Fin 2) ?_).trans ?_
    · show ¬(0 ≤ n.val ∧ (n.val - 0) % (0 + 1) = 0 ∧ (n.val - 0) / (0 + 1) < 1000000)
      omega
    · show ((((0#32 : BitVec 32).toInt : ℤ) : ℝ) : EReal) = 0
      simp

theorem idPad_apply (c : Dev nD) (n : Fin 1007616) :
    idPad m c (ix1 n) = Cert.Spec.idP (aI m c) n := by
  unfold idPad Cert.Spec.idP
  by_cases h : n.val < 1000000
  · rw [dif_pos h]
    exact Idealize.ShloMosaic.pad_apply_of_inside _ _ _ _ _ _ _ (ix1 n) (ix1 (⟨n.val, h⟩ : Fin 1000000)) (fun a => by
      match a with
      | ⟨0, _⟩ => show n.val = 0 + n.val * (0 + 1); omega)
  · rw [dif_neg h]
    refine (Idealize.ShloMosaic.pad_apply_of_not_inside _ _ _ _ _ _ _ (ix1 n) (0 : Fin 1) ?_).trans ?_
    · show ¬(0 ≤ n.val ∧ (n.val - 0) % (0 + 1) = 0 ∧ (n.val - 0) / (0 + 1) < 1000000)
      omega
    · rfl

/-! ## The windows' blocks -/

/-- The printed index maps over the grid: window 0's block index at point t is (t, 0), window 1's (t, 0, 0), and the
    whole-array windows' (0, 0). -/
theorem idx_facts : ∀ t : Fin grid0.N,
    cc0_transform_0 (grid0.coords t) (0 : Fin 2) = t.val ∧ cc0_transform_0 (grid0.coords t) (1 : Fin 2) = 0
    ∧ cc0_transform_1 (grid0.coords t) (0 : Fin 3) = t.val ∧ cc0_transform_1 (grid0.coords t) (1 : Fin 3) = 0
    ∧ cc0_transform_1 (grid0.coords t) (2 : Fin 3) = 0
    ∧ cc0_transform_2 (grid0.coords t) (0 : Fin 2) = 0 ∧ cc0_transform_2 (grid0.coords t) (1 : Fin 2) = 0
    ∧ cc0_transform_3 (grid0.coords t) (0 : Fin 2) = 0 ∧ cc0_transform_3 (grid0.coords t) (1 : Fin 2) = 0
    ∧ cc0_transform_4 (grid0.coords t) (0 : Fin 2) = 0 ∧ cc0_transform_4 (grid0.coords t) (1 : Fin 2) = 0
    ∧ cc0_transform_5 (grid0.coords t) (0 : Fin 2) = 0 ∧ cc0_transform_5 (grid0.coords t) (1 : Fin 2) = 0 :=
  (by decide +kernel : ∀ t : Fin grid0.N, _)

set_option maxHeartbeats 400000 in
/-- Entry (k, j) of block t of the padded rows is entry j of padded row 8192 t + k. -/
theorem iblk0_apply (c : Dev nD) (t : Fin (cfgA m).N) (k : Fin 8192) (j : Fin 128) :
    iblk m c 0 t (ix2 k j) = Cert.Spec.xP (aX m c) (Cert.Spec.rowAt (t123 m t) k) j := by
  have e : iblk m c 0 t (ix2 k j)
      = (V m c main_v0 : S1007616x128.Idx → EReal) ((((cfgA m).win 0).blk t).view.emb (ix2 k j)) := rfl
  rw [e, V_v0, ← xPad_apply]
  refine congrArg (xPad m c) ?_
  obtain ⟨e0, e1, -⟩ := idx_facts t
  funext a; apply Fin.ext
  match a with
  | ⟨0, _⟩ =>
    show cc0_transform_0 (grid0.coords t) (0 : Fin 2) * 8192 + 1 * k.val = t.val * 8192 + k.val
    omega
  | ⟨1, _⟩ =>
    show cc0_transform_0 (grid0.coords t) (1 : Fin 2) * 128 + 1 * j.val = j.val
    omega

set_option maxHeartbeats 400000 in
/-- Entry k of block t of the padded ids, reshaped block by block to 123 planes of 1 × 8192, is padded id 8192 t + k. -/
theorem iblk1_apply (c : Dev nD) (t : Fin (cfgA m).N) (k : Fin 8192) :
    iblk m c 1 t (ix3 (0 : Fin 1) (0 : Fin 1) k) = Cert.Spec.idP (aI m c) (Cert.Spec.rowAt (t123 m t) k) := by
  have e : iblk m c 1 t (ix3 (0 : Fin 1) (0 : Fin 1) k)
      = (V m c main_v5 : S123x1x8192.Idx → BitVec 32)
          ((((cfgA m).win 1).blk t).view.emb (ix3 (0 : Fin 1) (0 : Fin 1) k)) := rfl
  rw [e, V_v5]
  obtain ⟨-, -, e0, e1, e2, -⟩ := idx_facts t
  refine (shapeCast_apply (idPad m c) shapeCasts_S1007616_S123x1x8192 _ (ix1 (Cert.Spec.rowAt (t123 m t) k)) ?_).trans
    (idPad_apply m c _)
  rw [Shape.rowMajor_val_one]
  refine Eq.trans ?_ (Shape.rowMajor_val_three (d := ![123, 1, 8192]) _).symm
  show t.val * 8192 + k.val
    = ((cc0_transform_1 (grid0.coords t) (0 : Fin 3) * 1 + 1 * 0) * 1
        + (cc0_transform_1 (grid0.coords t) (1 : Fin 3) * 1 + 1 * 0)) * 8192
      + (cc0_transform_1 (grid0.coords t) (2 : Fin 3) * 8192 + 1 * k.val)
  omega

set_option maxHeartbeats 400000 in
theorem iblk2_apply (c : Dev nD) (t : Fin (cfgA m).N) (y : S128x128.Idx) : iblk m c 2 t y = aW1 m c y := by
  have e : iblk m c 2 t y
      = (V m c main_arg2 : S128x128.Idx → EReal) ((((cfgA m).win 2).blk t).view.emb y) := rfl
  rw [e, V_arg2]
  refine congrArg (aW1 m c) ?_
  obtain ⟨-, -, -, -, -, e0, e1, -⟩ := idx_facts t
  funext a; apply Fin.ext
  match a with
  | ⟨0, _⟩ =>
    show cc0_transform_2 (grid0.coords t) (0 : Fin 2) * 128 + 1 * (y 0).val = (y 0).val
    omega
  | ⟨1, _⟩ =>
    show cc0_transform_2 (grid0.coords t) (1 : Fin 2) * 128 + 1 * (y 1).val = (y 1).val
    omega

/-- The first weight matrix is handed over whole. -/
theorem iblk2_eq (c : Dev nD) (t : Fin (cfgA m).N) : iblk m c 2 t = aW1 m c := funext (iblk2_apply m c t)

set_option maxHeartbeats 400000 in
theorem iblk4_apply (c : Dev nD) (t : Fin (cfgA m).N) (y : S128x1.Idx) : iblk m c 4 t y = aW2 m c y := by
  have e : iblk m c 4 t y
      = (V m c main_arg4 : S128x1.Idx → EReal) ((((cfgA m).win 4).blk t).view.emb y) := rfl
  rw [e, V_arg4]
  refine congrArg (aW2 m c) ?_
  obtain ⟨-, -, -, -, -, -, -, -, -, e0, e1, -⟩ := idx_facts t
  funext a; apply Fin.ext
  match a with
  | ⟨0, _⟩ =>
    show cc0_transform_4 (grid0.coords t) (0 : Fin 2) * 128 + 1 * (y 0).val = (y 0).val
    omega
  | ⟨1, _⟩ =>
    show cc0_transform_4 (grid0.coords t) (1 : Fin 2) * 1 + 1 * (y 1).val = (y 1).val
    omega

/-- The second weight matrix is handed over whole. -/
theorem iblk4_eq (c : Dev nD) (t : Fin (cfgA m).N) : iblk m c 4 t = aW2 m c := funext (iblk4_apply m c t)

set_option maxHeartbeats 400000 in
/-- The first bias, reshaped to one row of 128. -/
theorem iblk3_apply (c : Dev nD) (t : Fin (cfgA m).N) (j : Fin 128) :
    iblk m c 3 t (ix2 (0 : Fin 1) j) = aB1 m c (ix1 j) := by
  have e : iblk m c 3 t (ix2 (0 : Fin 1) j)
      = (V m c main_v6 : S1x128.Idx → EReal) ((((cfgA m).win 3).blk t).view.emb (ix2 (0 : Fin 1) j)) := rfl
  rw [e, V_v6]
  obtain ⟨-, -, -, -, -, -, -, e0, e1, -⟩ := idx_facts t
  refine shapeCast_apply (aB1 m c) shapeCasts_S128_S1x128 _ (ix1 j) ?_
  rw [Shape.rowMajor_val_one]
  refine Eq.trans ?_ (Shape.rowMajor_val_two (d := ![1, 128]) _).symm
  show j.val = (cc0_transform_3 (grid0.coords t) (0 : Fin 2) * 1 + 1 * 0) * 128
    + (cc0_transform_3 (grid0.coords t) (1 : Fin 2) * 128 + 1 * j.val)
  omega

set_option maxHeartbeats 400000 in
/-- The second bias, reshaped to a single entry. -/
theorem iblk5_apply (c : Dev nD) (t : Fin (cfgA m).N) :
    iblk m c 5 t (ix2 (0 : Fin 1) (0 : Fin 1)) = aB2 m c (ix1 (0 : Fin 1)) := by
  have e : iblk m c 5 t (ix2 (0 : Fin 1) (0 : Fin 1))
      = (V m c main_v7 : S1x1.Idx → EReal) ((((cfgA m).win 5).blk t).view.emb (ix2 (0 : Fin 1) (0 : Fin 1))) := rfl
  rw [e, V_v7]
  obtain ⟨-, -, -, -, -, -, -, -, -, -, -, e0, e1⟩ := idx_facts t
  refine shapeCast_apply (aB2 m c) shapeCasts_S1_S1x1 _ (ix1 (0 : Fin 1)) ?_
  rw [Shape.rowMajor_val_one]
  refine Eq.trans ?_ (Shape.rowMajor_val_two (d := ![1, 1]) _).symm
  show 0 = (cc0_transform_5 (grid0.coords t) (0 : Fin 2) * 1 + 1 * 0) * 1
    + (cc0_transform_5 (grid0.coords t) (1 : Fin 2) * 1 + 1 * 0)
  omega

/-! ## The two tables: bounds of each block's ids -/

/-- The signed minimum of two words, read as integers. -/
theorem minsi_toInt (y z : BitVec 32) : (IntOp.minsi y z).toInt = min y.toInt z.toInt := by
  unfold IntOp.minsi
  by_cases h : y.toInt < z.toInt
  · rw [if_pos (by simpa [BitVec.slt] using h), min_eq_left (le_of_lt h)]
  · rw [if_neg (by simpa [BitVec.slt] using h), min_eq_right (not_lt.mp h)]

/-- The signed maximum of two words, read as integers. -/
theorem maxsi_toInt (y z : BitVec 32) : (IntOp.maxsi y z).toInt = max y.toInt z.toInt := by
  unfold IntOp.maxsi
  by_cases h : z.toInt < y.toInt
  · rw [if_pos (by simpa [BitVec.slt] using h), max_eq_left (le_of_lt h)]
  · rw [if_neg (by simpa [BitVec.slt] using h), max_eq_right (not_lt.mp h)]

/-- A fold by the signed minimum is below every element folded. -/
theorem fold_minsi_le {ι : Type} (s : Finset ι) (b : BitVec 32) (f : ι → BitVec 32) (x : ι) (hx : x ∈ s) :
    (s.fold IntOp.minsi b f).toInt ≤ (f x).toInt :=
  ((Finset.fold_op_rel_iff_and (op := IntOp.minsi) (r := fun u v : BitVec 32 => u.toInt ≤ v.toInt)
    (fun {u y z} => by rw [minsi_toInt]; exact le_min_iff)).mp (le_refl _)).2 x hx

/-- A fold by the signed maximum is above every element folded. -/
theorem le_fold_maxsi {ι : Type} (s : Finset ι) (b : BitVec 32) (f : ι → BitVec 32) (x : ι) (hx : x ∈ s) :
    (f x).toInt ≤ (s.fold IntOp.maxsi b f).toInt :=
  ((Finset.fold_op_rel_iff_and (op := IntOp.maxsi) (r := fun u v : BitVec 32 => v.toInt ≤ u.toInt)
    (fun {u y z} => by rw [maxsi_toInt]; exact max_le_iff)).mp (le_refl _)).2 x hx

/-- Block t of the ids as a row of the 123 × 8192 reshape: entry (t, k) is padded id 8192 t + k. -/
theorem idRows_apply (c : Dev nD) (t : Fin 123) (k : Fin 8192) :
    shapeCast S123x8192 (idPad m c) shapeCasts_S1007616_S123x8192 (ix2 t k)
      = Cert.Spec.idP (aI m c) (Cert.Spec.rowAt t k) := by
  refine (shapeCast_apply (idPad m c) shapeCasts_S1007616_S123x8192 _ (ix1 (Cert.Spec.rowAt t k)) ?_).trans
    (idPad_apply m c _)
  rw [Shape.rowMajor_val_one, Shape.rowMajor_val_two]
  rfl

/-- The reduced index t with column k put back is (t, k). -/
theorem lift_row (h : S123x8192.Reduces [1] S123) (t : Fin 123) (k : Fin 8192) :
    h.lift (ix1 t) k = ix2 t k := by
  funext a; apply Fin.ext
  fin_cases a <;> rfl

set_option maxHeartbeats 400000 in
/-- The first table's word t is below every id of block t. -/
theorem tb1_le (c : Dev nD) (t : Fin (cfgA m).N) (k : Fin 8192) :
    (tb1 m c (ix1 (t123 m t))).toInt ≤ (Cert.Spec.idP (aI m c) (Cert.Spec.rowAt (t123 m t) k)).toInt := by
  have hred : S123x8192.Reduces [1] S123 := by decide
  have e : tb1 m c (ix1 (t123 m t)) = (V m c main_v3 : S123.Idx → BitVec 32) (ix1 (t123 m t)) := rfl
  rw [e, V_v3, Host.reduce_eq_fold_single IntOp.minsi _ _ reducesTo_S123x8192_S123_d1 hred h_S_,
    ← idRows_apply m c (t123 m t) k, ← lift_row hred (t123 m t) k]
  exact fold_minsi_le Finset.univ _ _ k (Finset.mem_univ _)

set_option maxHeartbeats 400000 in
/-- The second table's word t is above every id of block t. -/
theorem tb2_ge (c : Dev nD) (t : Fin (cfgA m).N) (k : Fin 8192) :
    (Cert.Spec.idP (aI m c) (Cert.Spec.rowAt (t123 m t) k)).toInt ≤ (tb2 m c (ix1 (t123 m t))).toInt := by
  have hred : S123x8192.Reduces [1] S123 := by decide
  have e : tb2 m c (ix1 (t123 m t)) = (V m c main_v4 : S123.Idx → BitVec 32) (ix1 (t123 m t)) := rfl
  rw [e, V_v4, Host.reduce_eq_fold_single IntOp.maxsi _ _ reducesTo_S123x8192_S123_d1 hred h_S_,
    ← idRows_apply m c (t123 m t) k, ← lift_row hred (t123 m t) k]
  exact le_fold_maxsi Finset.univ _ _ k (Finset.mem_univ _)

end Cert.KernelIdeal.Run

end
-- ==== Proof.KIValue.lean ====
/-
  One grid point's effect on the accumulator and on the output's buffer, as values.

  If the accumulator holds the blocked accumulator before block t (anything, at the first point, which clears it), the
  body leaves the blocked accumulator before block t + 1: within group g's 128 rows, either the block's id range meets
  the group and the rows take their old value plus the block's rows whose id is the row's, or it does not and no row of
  the block has an id in the group, so the sum added is empty. The output's buffer is left alone except at the last
  point, where it takes the accumulator.
-/
import proofs.«414496_j87668872446565_1_alg».proof.Proof.KIData
import proofs.«414496_j87668872446565_1_alg».proof.Proof.KIConds
import proofs.«414496_j87668872446565_1_alg».proof.Proof.PayIdeal
import proofs.«414496_j87668872446565_1_alg».proof.Proof.SegSum
import proofs.«414496_j87668872446565_1_alg».proof.Proof.KIBodyFacts
import proofs.«414496_j87668872446565_1_alg».proof.Proof.KIHost
import Idealize.ShloMosaic.Lib.Affine
import Idealize.ShloMosaic.Lib.ValueIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.ValueIdx
open Idealize.SL.Sem

/-! ## A group's condition, and one accumulator entry's step, over plain values -/

/-- A group is taken up exactly when the block's greatest id is at least the group's first id and its least id at most the
    group's last, read signed. -/
theorem condG_iff (lo hi wmn wmx : BitVec 32) :
    condG lo hi wmn wmx ↔ lo.toInt ≤ wmx.toInt ∧ wmn.toInt ≤ hi.toInt := by
  unfold condG
  have key : ∀ b : BitVec 1, Scalar.cmpi .ne (Scalar.extui b : BitVec 32) 0#32 = 1#1 ↔ b = 1#1 := by decide
  rw [key]
  show IntOp.andi (IntOp.cmpi .sge wmx lo) (IntOp.cmpi .sle wmn hi) = 1#1 ↔ _
  rw [IntOp.andi_eq_one, IntOp.cmpi_sge, IntOp.cmpi_sle]

/-- One entry (R, d) of the accumulator, R = lo + p in the group [lo, lo + 127]: whether or not the group is taken up, the
    entry ends at its old value plus the block's rows whose id is R. If the group is not taken up, the block's least id is
    above the group or its greatest below, every id of the block lies between the two, and so no id of the block is R: the
    sum is empty. -/
theorem entry_step (lo : Nat) (p : Fin 128) (hR : lo + p.val < 1024) (loW hiW wmn wmx : BitVec 32)
    (hlo : loW.toInt = (lo : Int)) (hhi : hiW.toInt = (lo : Int) + 127)
    (ids : Fin 8192 → BitVec 32) (g : Fin 8192 → EReal) (base upd : EReal)
    (hmn : ∀ k, wmn.toInt ≤ (ids k).toInt) (hmx : ∀ k, (ids k).toInt ≤ wmx.toInt)
    (hupd : upd = base + ∑ k : Fin 8192, (if ids k = BitVec.ofNat 32 (lo + p.val) then g k else 0)) :
    (if condG loW hiW wmn wmx then upd else base)
      = base + ∑ k : Fin 8192, (if ids k = BitVec.ofNat 32 (lo + p.val) then g k else 0) := by
  by_cases hc : condG loW hiW wmn wmx
  · rw [if_pos hc, hupd]
  · rw [if_neg hc]
    have hz : ∀ k : Fin 8192, (if ids k = BitVec.ofNat 32 (lo + p.val) then g k else 0) = 0 := fun k => by
      refine if_neg fun hk => hc ?_
      have hk' : (ids k).toInt = ((lo + p.val : Nat) : Int) :=
        (Cert.Spec.eq_ofNat_iff_toInt (ids k) ⟨lo + p.val, hR⟩).mp hk
      have h1 := hmn k
      have h2 := hmx k
      have hp := p.isLt
      rw [condG_iff, hlo, hhi]
      constructor <;> omega
    rw [Finset.sum_congr rfl fun k _ => hz k, Finset.sum_const_zero, add_zero]

/-! ## The block's rows and ids at a grid point -/

/-- The gated block over loads that are the block's rows, the two weight matrices and the two biases is the gate of the
    rows. -/
theorem gated_of_eq (x0 : Vec Ideal S8192x128 .f32) (x2 : Vec Ideal S128x128 .f32) (x3 : Vec Ideal S1x128 .f32)
    (x4 : Vec Ideal S128x1 .f32) (x5 : Vec Ideal S1x1 .f32) (k : Fin 8192) (d : Fin 128)
    (X : Fin 128 → EReal) (W1 : Cert.Spec.W1Arr) (B1 : Cert.Spec.B1Arr) (W2 : Cert.Spec.W2Arr) (B2 : Cert.Spec.B2Arr)
    (h0 : ∀ j : Fin 128, x0 (ix2 k j) = X j) (h2 : x2 = W1) (h3 : ∀ j : Fin 128, x3 (ix2 (0 : Fin 1) j) = B1 (ix1 j))
    (h4 : x4 = W2) (h5 : x5 (ix2 (0 : Fin 1) (0 : Fin 1)) = B2 (ix1 (0 : Fin 1))) :
    k0_pay3 (F := Ideal) x0 x2 x3 x4 x5 (ix2 k d) = Cert.Spec.gatedOf W1 B1 W2 B2 X d := by
  have e0 : (fun j : Fin 128 => x0 (ix2 k j)) = X := funext h0
  have e3 : (fun j : (⟨1, ![128]⟩ : Shape).Idx => x3 (ix2 (0 : Fin 1) (j 0))) = B1 :=
    funext fun j => (h3 (j 0)).trans (congrArg B1 (eq_ix1 j).symm)
  have e5 : (fun _ : (⟨1, ![1]⟩ : Shape).Idx => x5 (ix2 (0 : Fin 1) (0 : Fin 1))) = B2 :=
    funext fun j => h5.trans (congrArg B2 (by rw [eq_ix1 j]; exact congrArg ix1 (Subsingleton.elim _ _)))
  rw [PayValue.pay3_apply, e0, e3, e5, h2, h4]

/-- The id row over a load that is the block's ids. -/
theorem idrow_of_eq (x1 : Vec Ideal S1x1x8192 .i32) (k : Fin 8192) (w : BitVec 32)
    (h1 : x1 (ix3 (0 : Fin 1) (0 : Fin 1) k) = w) : k0_pay4 (F := Ideal) x1 (ix2 (0 : Fin 1) k) = w :=
  (PayValue.pay4_apply x1 k).trans h1

variable (m : (ℓ : Loc nD τ sig) → Buf (Elt Ideal) ℓ)

/-- The gated block of point `t` is the gate of the padded rows of block `t`. -/
theorem gated_at (c : Dev nD) (t : Fin (cfgA m).N) (k : Fin 8192) (d : Fin 128) :
    k0_pay3 (F := Ideal) (iblk m c 0 t) (iblk m c 2 t) (iblk m c 3 t) (iblk m c 4 t) (iblk m c 5 t) (ix2 k d)
      = Cert.Spec.gatedOf (aW1 m c) (aB1 m c) (aW2 m c) (aB2 m c)
          (Cert.Spec.xP (aX m c) (Cert.Spec.rowAt (t123 m t) k)) d :=
  gated_of_eq (iblk m c 0 t) (iblk m c 2 t) (iblk m c 3 t) (iblk m c 4 t) (iblk m c 5 t) k d _ _ _ _ _
    (fun j => iblk0_apply m c t k j) (iblk2_eq m c t) (fun j => iblk3_apply m c t j) (iblk4_eq m c t) (iblk5_apply m c t)

/-- The id row of point `t` is the padded ids of block `t`. -/
theorem idrow_at (c : Dev nD) (t : Fin (cfgA m).N) (k : Fin 8192) :
    k0_pay4 (F := Ideal) (iblk m c 1 t) (ix2 (0 : Fin 1) k) = Cert.Spec.idP (aI m c) (Cert.Spec.rowAt (t123 m t) k) :=
  idrow_of_eq (iblk m c 1 t) k _ (iblk1_apply m c t k)

/-! ## One entry of one group at a grid point -/

/-- Entry (lo + p, d) of the accumulator after point `t`, given how the body leaves it: the update over the accumulator
    before block `t` if the group is taken up, else the entry as it was. Either way it is the blocked accumulator before
    block `t + 1`. -/
theorem group_entry (c : Dev nD) (t : Fin (cfgA m).N) (bs : Vec Ideal S1024x128 .f32) (hbs : bs = accVec m c t.val)
    (lo : Nat) (loW hiW : BitVec 32) (hlo : loW.toInt = (lo : Int)) (hhi : hiW.toInt = (lo : Int) + 127)
    (pay : FVec Ideal S8192x128 .bf16 → IVec S1x8192 32 → Vec Ideal S128x128 .f32 → FVec Ideal S128x128 .f32)
    (hpay : ∀ (v26 : FVec Ideal S8192x128 .bf16) (v28 : IVec S1x8192 32) (v86 : Vec Ideal S128x128 .f32) (p d : Fin 128),
      pay v26 v28 v86 (ix2 p d) = v86 (ix2 p d)
        + ∑ k : Fin 8192, (if v28 (ix2 (0 : Fin 1) k) = BitVec.ofNat 32 (lo + p.val) then v26 (ix2 k d) else 0))
    (wmn wmx : BitVec 32) (hwmn : wmn = tb1 m c (ix1 (t123 m t))) (hwmx : wmx = tb2 m c (ix1 (t123 m t)))
    (p d : Fin 128) (hR : lo + p.val < 1024) (hL : ∀ q : Fin 128, lo + q.val < 1024) (val : EReal)
    (hread : val = if condG loW hiW wmn wmx
        then pay (k0_pay3 (F := Ideal) (iblk m c 0 t) (iblk m c 2 t) (iblk m c 3 t) (iblk m c 4 t) (iblk m c 5 t))
          (k0_pay4 (F := Ideal) (iblk m c 1 t))
          (fun j => bs (ix2 (⟨lo + (j 0).val, hL (j 0)⟩ : Fin 1024) (j 1))) (ix2 p d)
        else bs (ix2 (⟨lo + p.val, hR⟩ : Fin 1024) d)) :
    val = accVec m c (t.val + 1) (ix2 (⟨lo + p.val, hR⟩ : Fin 1024) d) := by
  refine hread.trans ((entry_step lo p hR loW hiW wmn wmx hlo hhi
    (fun k => Cert.Spec.idP (aI m c) (Cert.Spec.rowAt (t123 m t) k))
    (fun k => Cert.Spec.gatedOf (aW1 m c) (aB1 m c) (aW2 m c) (aB2 m c)
      (Cert.Spec.xP (aX m c) (Cert.Spec.rowAt (t123 m t) k)) d)
    (bs (ix2 (⟨lo + p.val, hR⟩ : Fin 1024) d)) _
    (fun k => by rw [hwmn]; exact tb1_le m c t k) (fun k => by rw [hwmx]; exact tb2_ge m c t k) ?_).trans ?_)
  · refine (hpay _ _ _ p d).trans ?_
    refine congrArg (bs (ix2 (⟨lo + p.val, hR⟩ : Fin 1024) d) + ·) (Finset.sum_congr rfl fun k _ => ?_)
    exact if_congr (Eq.congr (idrow_at m c t k) rfl) (gated_at m c t k d) rfl
  · rw [hbs]
    exact (Cert.Spec.accAt_succ_of_lt (aX m c) (aI m c) (aW1 m c) (aB1 m c) (aW2 m c) (aB2 m c) t.val (t123 m t).isLt
      ⟨lo + p.val, hR⟩ d).symm

/-! ## The accumulator and the output's buffer after a grid point -/

/-- What the updates start from at point `t`: zero at the first point, which clears the accumulator, and the accumulator
    as it was found elsewhere; both are the blocked accumulator before block `t`. -/
theorem base_eq (c : Dev nD) (t : Fin (cfgA m).N) (xs : Vec Ideal S1024x128 .f32) (hxs : t.val ≠ 0 → xs = accVec m c t.val) :
    baseOf (grid0.coords t) xs = accVec m c t.val := by
  unfold baseOf
  by_cases h0 : t.val = 0
  · rw [if_pos ((resetC_iff t).mpr h0), h0]
    funext i
    rw [PayValue.pay2_apply]
    rfl
  · rw [if_neg (fun h => h0 ((resetC_iff t).mp h))]
    exact hxs h0

/-- The index at which the body reads the two tables at point `t` is the block's number. -/
theorem tbIdx_eq (t : Fin (cfgA m).N) (j : S123.Idx) (h : (j 0).val = (k0_off1 (grid0.coords t)) 0) :
    j = ix1 (t123 m t) :=
  funext fun a => Fin.ext (by
    match a with
    | ⟨0, _⟩ => exact h.trans (off1_eq t))

/-- Entry (lo + p, d) after point `t`, from the way the body leaves the rows of the group that starts at `lo`. -/
theorem acc_at (c : Dev nD) (t : Fin (cfgA m).N) (xs : Vec Ideal S1024x128 .f32) (hxs : t.val ≠ 0 → xs = accVec m c t.val)
    (lo : Nat) (loW hiW : BitVec 32) (hlo : loW.toInt = (lo : Int)) (hhi : hiW.toInt = (lo : Int) + 127)
    (pay : FVec Ideal S8192x128 .bf16 → IVec S1x8192 32 → Vec Ideal S128x128 .f32 → FVec Ideal S128x128 .f32)
    (hpay : ∀ (v26 : FVec Ideal S8192x128 .bf16) (v28 : IVec S1x8192 32) (v86 : Vec Ideal S128x128 .f32) (p d : Fin 128),
      pay v26 v28 v86 (ix2 p d) = v86 (ix2 p d)
        + ∑ k : Fin 8192, (if v28 (ix2 (0 : Fin 1) k) = BitVec.ofNat 32 (lo + p.val) then v26 (ix2 k d) else 0))
    (p d : Fin 128) (hR : lo + p.val < 1024) (hL : ∀ q : Fin 128, lo + q.val < 1024)
    (hread : scM.view.read (Elt Ideal) (runAt m c t xs).1 (ix2 (⟨lo + p.val, hR⟩ : Fin 1024) d)
      = if condG loW hiW (wmin (grid0.coords t) (tb1 m c)) (wmax (grid0.coords t) (tb2 m c))
        then pay (k0_pay3 (F := Ideal) (iblk m c 0 t) (iblk m c 2 t) (iblk m c 3 t) (iblk m c 4 t) (iblk m c 5 t))
          (k0_pay4 (F := Ideal) (iblk m c 1 t))
          (fun j => baseOf (grid0.coords t) xs (ix2 (⟨lo + (j 0).val, hL (j 0)⟩ : Fin 1024) (j 1))) (ix2 p d)
        else baseOf (grid0.coords t) xs (ix2 (⟨lo + p.val, hR⟩ : Fin 1024) d)) :
    scM.view.read (Elt Ideal) (runAt m c t xs).1 (ix2 (⟨lo + p.val, hR⟩ : Fin 1024) d)
      = accVec m c (t.val + 1) (ix2 (⟨lo + p.val, hR⟩ : Fin 1024) d) :=
  group_entry m c t _ (base_eq m c t xs hxs) lo loW hiW hlo hhi pay hpay _ _
    ((wmin_eq (grid0.coords t) (tb1 m c)).trans (congrArg (tb1 m c) (tbIdx_eq m t _ rfl)))
    ((wmax_eq (grid0.coords t) (tb2 m c)).trans (congrArg (tb2 m c) (tbIdx_eq m t _ rfl)))
    p d hR hL _ hread

/-- A row of the accumulator lies in the group that starts at `lo` as `lo` plus its position there. -/
theorem split_row (lo : Nat) (R : Fin 1024) (h1 : lo ≤ R.val) (h2 : R.val < lo + 128) :
    ∃ (p : Fin 128) (h : lo + p.val < 1024), R = ⟨lo + p.val, h⟩ :=
  ⟨⟨R.val - lo, by omega⟩, by have := R.isLt; show lo + (R.val - lo) < 1024; omega,
    Fin.ext (by show R.val = lo + (R.val - lo); omega)⟩

/-- The accumulator after point `t`. -/
theorem acc_step (c : Dev nD) (t : Fin (cfgA m).N) (xs : Vec Ideal S1024x128 .f32) (hxs : t.val ≠ 0 → xs = accVec m c t.val) :
    scM.view.read (Elt Ideal) (runAt m c t xs).1 = accVec m c (t.val + 1) := by
  funext i
  obtain ⟨R, d, rfl⟩ : ∃ (R : Fin 1024) (d : Fin 128), i = ix2 R d := ⟨i 0, i 1, eq_ix2 i⟩
  have hRlt := R.isLt
  by_cases h1 : R.val < 128
  · obtain ⟨p, hR, rfl⟩ := split_row 0 R (by omega) (by omega)
    exact acc_at m c t xs hxs 0 0#32 127#32 (by decide) (by decide) (k0_pay5 (F := Ideal)) PayValue.payUpd0_apply p d hR
      (fun q => by omega)
      (acc_read_0 (F := Ideal) c (grid0.coords t) tbM1 (Memref.isWhole_whole _) tbM2 (Memref.isWhole_whole _)
        (ms0 m t) (hs0 m t) (ms1 m t) (hs1 m t) (ms2 m t) (hs2 m t) (ms3 m t) (hs3 m t) (ms4 m t) (hs4 m t) (ms5 m t) (hs5 m t)
        (ms6 m t) (hs6 m t) scM (Memref.isWhole_whole _) (tb1 m c) (tb2 m c)
        (iblk m c 0 t) (iblk m c 1 t) (iblk m c 2 t) (iblk m c 3 t) (iblk m c 4 t) (iblk m c 5 t) xs p d)
  by_cases h2 : R.val < 256
  · obtain ⟨p, hR, rfl⟩ := split_row 128 R (by omega) (by omega)
    exact acc_at m c t xs hxs 128 128#32 255#32 (by decide) (by decide) (k0_pay6 (F := Ideal)) PayValue.payUpd128_apply p d hR
      (fun q => by omega)
      (acc_read_128 (F := Ideal) c (grid0.coords t) tbM1 (Memref.isWhole_whole _) tbM2 (Memref.isWhole_whole _)
        (ms0 m t) (hs0 m t) (ms1 m t) (hs1 m t) (ms2 m t) (hs2 m t) (ms3 m t) (hs3 m t) (ms4 m t) (hs4 m t) (ms5 m t) (hs5 m t)
        (ms6 m t) (hs6 m t) scM (Memref.isWhole_whole _) (tb1 m c) (tb2 m c)
        (iblk m c 0 t) (iblk m c 1 t) (iblk m c 2 t) (iblk m c 3 t) (iblk m c 4 t) (iblk m c 5 t) xs p d)
  by_cases h3 : R.val < 384
  · obtain ⟨p, hR, rfl⟩ := split_row 256 R (by omega) (by omega)
    exact acc_at m c t xs hxs 256 256#32 383#32 (by decide) (by decide) (k0_pay7 (F := Ideal)) PayValue.payUpd256_apply p d hR
      (fun q => by omega)
      (acc_read_256 (F := Ideal) c (grid0.coords t) tbM1 (Memref.isWhole_whole _) tbM2 (Memref.isWhole_whole _)
        (ms0 m t) (hs0 m t) (ms1 m t) (hs1 m t) (ms2 m t) (hs2 m t) (ms3 m t) (hs3 m t) (ms4 m t) (hs4 m t) (ms5 m t) (hs5 m t)
        (ms6 m t) (hs6 m t) scM (Memref.isWhole_whole _) (tb1 m c) (tb2 m c)
        (iblk m c 0 t) (iblk m c 1 t) (iblk m c 2 t) (iblk m c 3 t) (iblk m c 4 t) (iblk m c 5 t) xs p d)
  by_cases h4 : R.val < 512
  · obtain ⟨p, hR, rfl⟩ := split_row 384 R (by omega) (by omega)
    exact acc_at m c t xs hxs 384 384#32 511#32 (by decide) (by decide) (k0_pay8 (F := Ideal)) PayValue.payUpd384_apply p d hR
      (fun q => by omega)
      (acc_read_384 (F := Ideal) c (grid0.coords t) tbM1 (Memref.isWhole_whole _) tbM2 (Memref.isWhole_whole _)
        (ms0 m t) (hs0 m t) (ms1 m t) (hs1 m t) (ms2 m t) (hs2 m t) (ms3 m t) (hs3 m t) (ms4 m t) (hs4 m t) (ms5 m t) (hs5 m t)
        (ms6 m t) (hs6 m t) scM (Memref.isWhole_whole _) (tb1 m c) (tb2 m c)
        (iblk m c 0 t) (iblk m c 1 t) (iblk m c 2 t) (iblk m c 3 t) (iblk m c 4 t) (iblk m c 5 t) xs p d)
  by_cases h5 : R.val < 640
  · obtain ⟨p, hR, rfl⟩ := split_row 512 R (by omega) (by omega)
    exact acc_at m c t xs hxs 512 512#32 639#32 (by decide) (by decide) (k0_pay9 (F := Ideal)) PayValue.payUpd512_apply p d hR
      (fun q => by omega)
      (acc_read_512 (F := Ideal) c (grid0.coords t) tbM1 (Memref.isWhole_whole _) tbM2 (Memref.isWhole_whole _)
        (ms0 m t) (hs0 m t) (ms1 m t) (hs1 m t) (ms2 m t) (hs2 m t) (ms3 m t) (hs3 m t) (ms4 m t) (hs4 m t) (ms5 m t) (hs5 m t)
        (ms6 m t) (hs6 m t) scM (Memref.isWhole_whole _) (tb1 m c) (tb2 m c)
        (iblk m c 0 t) (iblk m c 1 t) (iblk m c 2 t) (iblk m c 3 t) (iblk m c 4 t) (iblk m c 5 t) xs p d)
  by_cases h6 : R.val < 768
  · obtain ⟨p, hR, rfl⟩ := split_row 640 R (by omega) (by omega)
    exact acc_at m c t xs hxs 640 640#32 767#32 (by decide) (by decide) (k0_pay10 (F := Ideal)) PayValue.payUpd640_apply p d hR
      (fun q => by omega)
      (acc_read_640 (F := Ideal) c (grid0.coords t) tbM1 (Memref.isWhole_whole _) tbM2 (Memref.isWhole_whole _)
        (ms0 m t) (hs0 m t) (ms1 m t) (hs1 m t) (ms2 m t) (hs2 m t) (ms3 m t) (hs3 m t) (ms4 m t) (hs4 m t) (ms5 m t) (hs5 m t)
        (ms6 m t) (hs6 m t) scM (Memref.isWhole_whole _) (tb1 m c) (tb2 m c)
        (iblk m c 0 t) (iblk m c 1 t) (iblk m c 2 t) (iblk m c 3 t) (iblk m c 4 t) (iblk m c 5 t) xs p d)
  by_cases h7 : R.val < 896
  · obtain ⟨p, hR, rfl⟩ := split_row 768 R (by omega) (by omega)
    exact acc_at m c t xs hxs 768 768#32 895#32 (by decide) (by decide) (k0_pay11 (F := Ideal)) PayValue.payUpd768_apply p d hR
      (fun q => by omega)
      (acc_read_768 (F := Ideal) c (grid0.coords t) tbM1 (Memref.isWhole_whole _) tbM2 (Memref.isWhole_whole _)
        (ms0 m t) (hs0 m t) (ms1 m t) (hs1 m t) (ms2 m t) (hs2 m t) (ms3 m t) (hs3 m t) (ms4 m t) (hs4 m t) (ms5 m t) (hs5 m t)
        (ms6 m t) (hs6 m t) scM (Memref.isWhole_whole _) (tb1 m c) (tb2 m c)
        (iblk m c 0 t) (iblk m c 1 t) (iblk m c 2 t) (iblk m c 3 t) (iblk m c 4 t) (iblk m c 5 t) xs p d)
  · obtain ⟨p, hR, rfl⟩ := split_row 896 R (by omega) (by omega)
    exact acc_at m c t xs hxs 896 896#32 1023#32 (by decide) (by decide) (k0_pay1 (F := Ideal)) PayValue.payUpd896_apply p d hR
      (fun q => by omega)
      (acc_read_896 (F := Ideal) c (grid0.coords t) tbM1 (Memref.isWhole_whole _) tbM2 (Memref.isWhole_whole _)
        (ms0 m t) (hs0 m t) (ms1 m t) (hs1 m t) (ms2 m t) (hs2 m t) (ms3 m t) (hs3 m t) (ms4 m t) (hs4 m t) (ms5 m t) (hs5 m t)
        (ms6 m t) (hs6 m t) scM (Memref.isWhole_whole _) (tb1 m c) (tb2 m c)
        (iblk m c 0 t) (iblk m c 1 t) (iblk m c 2 t) (iblk m c 3 t) (iblk m c 4 t) (iblk m c 5 t) xs p d)

/-- The output's buffer is left as it was at every point but the last. -/
theorem outbuf_idle (c : Dev nD) (t : Fin (cfgA m).N) (xs xo : Vec Ideal S1024x128 .f32) (h : t.val ≠ 122) :
    (ms6 m t).view.read (Elt Ideal) ((runAt m c t xs).2 xo).1 = xo :=
  out_idle (F := Ideal) c (grid0.coords t) tbM1 (Memref.isWhole_whole _) tbM2 (Memref.isWhole_whole _)
    (ms0 m t) (hs0 m t) (ms1 m t) (hs1 m t) (ms2 m t) (hs2 m t) (ms3 m t) (hs3 m t) (ms4 m t) (hs4 m t) (ms5 m t) (hs5 m t)
    (ms6 m t) (hs6 m t) scM (Memref.isWhole_whole _) (tb1 m c) (tb2 m c)
    (iblk m c 0 t) (iblk m c 1 t) (iblk m c 2 t) (iblk m c 3 t) (iblk m c 4 t) (iblk m c 5 t) xs xo
    (fun h' => h ((cond10_iff t).mp h'))

/-- At the last point it takes the accumulator: the blocked accumulator after all 123 blocks. -/
theorem outbuf_last (c : Dev nD) (t : Fin (cfgA m).N) (xs xo : Vec Ideal S1024x128 .f32) (h : t.val = 122)
    (hxs : xs = accVec m c 122) :
    (ms6 m t).view.read (Elt Ideal) ((runAt m c t xs).2 xo).1 = accVec m c 123 := by
  refine (out_last (F := Ideal) c (grid0.coords t) tbM1 (Memref.isWhole_whole _) tbM2 (Memref.isWhole_whole _)
    (ms0 m t) (hs0 m t) (ms1 m t) (hs1 m t) (ms2 m t) (hs2 m t) (ms3 m t) (hs3 m t) (ms4 m t) (hs4 m t) (ms5 m t) (hs5 m t)
    (ms6 m t) (hs6 m t) scM (Memref.isWhole_whole _) (tb1 m c) (tb2 m c)
    (iblk m c 0 t) (iblk m c 1 t) (iblk m c 2 t) (iblk m c 3 t) (iblk m c 4 t) (iblk m c 5 t) xs xo
    ((cond10_iff t).mpr h)).trans ?_
  refine (acc_step m c t xs (fun _ => by rw [h]; exact hxs)).trans ?_
  rw [h]

end Cert.KernelIdeal.Run

end
-- ==== Proof.KIFrame.lean ====
/-
  The idealized kernel's run, with its value: from any memory, @main runs to the end, leaves its six arguments as they
  were, and leaves in its result the per-graph sums in their blocked form, the accumulator after all 123 blocks.

  Per grid point the body is the one run of KIBody; what it is handed — each input's current buffer at its block,
  the tables, the accumulator at the blocked accumulator before the block — and what it leaves — the accumulator
  one block further (KIValue), the output's buffer untouched except at the last point — is the pipeline library's body
  obligation; the launch is the library's frame run for a region with prefetched tables behind host operations.
-/
import proofs.«414496_j87668872446565_1_alg».proof.Proof.KIValue

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What each window's buffer holds around the body -/

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = iblk m c 3 t := by dsimp only [dats]; rfl
theorem after4 (c : Dev nD) (t : Fin (cfgA m).N) : (dats m 0 c).after 4 t = iblk m c 4 t := by dsimp only [dats]; rfl
theorem after5 (c : Dev nD) (t : Fin (cfgA m).N) : (dats m 0 c).after 5 t = iblk m c 5 t := by dsimp only [dats]; rfl
theorem after6 (c : Dev nD) (t : Fin (cfgA m).N) : (dats m 0 c).after 6 t = accVec m c 123 := by dsimp only [dats]; rfl

/-- Each input's current buffer holds its block at every point, fetched there or not: unfetched, the block index has
    not moved and the body left the block in place. -/
theorem before0 (c : Dev nD) (t : Fin (cfgA m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgA m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgA m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgA m).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The output window: idle but at the last point, written back there only -/

theorem idle6 (t : Fin (cfgA m).N) : (cfgA m).idle 6 ((cfgA m).grid.coords t) = !(k0_cond10 (grid0.coords t) == 1#1) := rfl

theorem idle6_of_ne (t : Fin (cfgA m).N) (h : t.val ≠ 122) : (cfgA m).idle 6 ((cfgA m).grid.coords t) = true := by
  rw [idle6]
  have := (cond10_iff t).not.mpr h
  simp only [Bool.not_eq_true', beq_eq_false_iff_ne, ne_eq]; exact this

theorem idle6_of_eq (t : Fin (cfgA m).N) (h : t.val = 122) : (cfgA m).idle 6 ((cfgA m).grid.coords t) = false := by
  rw [idle6]
  have := (cond10_iff t).mpr h
  simp only [Bool.not_eq_false', beq_iff_eq]; exact this

/-- The output's block index never moves, so its one write-back is at the last point. -/
theorem flush6_of_ne (t : Fin (cfgA m).N) (h : t.val ≠ 122) : ((cfgA m).win 6).flush t = false := by
  unfold Pipeline.Window.flush
  have hN : (cfgA m).grid.N = 123 := N_A m
  have h1 : decide (t.val + 1 = (cfgA m).grid.N) = false := by rw [decide_eq_false_iff_not, hN]; omega
  have h2 : decide (∃ h : t.val + 1 < (cfgA m).grid.N, ((cfgA m).win 6).index ⟨t.val + 1, h⟩ ≠ ((cfgA m).win 6).index t) = false := by
    rw [decide_eq_false_iff_not]; rintro ⟨_, hne⟩; exact hne rfl
  rw [h1, h2]; rfl

/-! ## The invariant's forms -/

theorem PhiS_pos (c : Dev nD) (n : ℕ) (h : n ≠ 0) :
    PhiS m c n = iprop(owns (c : Thread nD τ) scM fullShare (accVec m c n) ∗ (∃ r, prngReg c r) ∗ Pipeline.ΦT pre0 (tbl m) c) := by
  cases n with
  | zero => exact absurd rfl h
  | succ n => rfl

theorem Phi_castSucc (c : Dev nD) (t : Fin (cfgA m).N) : (dats m 0 c).Φ t.castSucc = PhiS m c t.val := by
  dsimp only [dats]; simp only [Fin.coe_castSucc]

/-- The tables' halves, table by table. -/
theorem PhiT_eq (c : Dev nD) : (Pipeline.ΦT pre0 (tbl m) c : sProp 𝕄)
    = iprop((((c : Thread nD τ).loc main_v3) ↦{fullShare.right} tbl m 0) ∗ (((c : Thread nD τ).loc main_v4) ↦{fullShare.right} tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## What the body hands back, window by window -/

theorem leaves0 (c : Dev nD) (t : Fin (cfgA m).N) : (dats m 0 c).leavesExact 0 t = owns (c : Thread nD τ) (ms0 m t) fullShare (iblk m c 0 t) := by
  unfold Dat.leavesExact; rw [show (cfgA m).idle 0 ((cfgA m).grid.coords t) = false from rfl, after0]; rfl
theorem leaves1 (c : Dev nD) (t : Fin (cfgA m).N) : (dats m 0 c).leavesExact 1 t = owns (c : Thread nD τ) (ms1 m t) fullShare (iblk m c 1 t) := by
  unfold Dat.leavesExact; rw [show (cfgA m).idle 1 ((cfgA m).grid.coords t) = false from rfl, after1]; rfl
theorem leaves2 (c : Dev nD) (t : Fin (cfgA m).N) : (dats m 0 c).leavesExact 2 t = owns (c : Thread nD τ) (ms2 m t) fullShare (iblk m c 2 t) := by
  unfold Dat.leavesExact; rw [show (cfgA m).idle 2 ((cfgA m).grid.coords t) = false from rfl, after2]; rfl
theorem leaves3 (c : Dev nD) (t : Fin (cfgA m).N) : (dats m 0 c).leavesExact 3 t = owns (c : Thread nD τ) (ms3 m t) fullShare (iblk m c 3 t) := by
  unfold Dat.leavesExact; rw [show (cfgA m).idle 3 ((cfgA m).grid.coords t) = false from rfl, after3]; rfl
theorem leaves4 (c : Dev nD) (t : Fin (cfgA m).N) : (dats m 0 c).leavesExact 4 t = owns (c : Thread nD τ) (ms4 m t) fullShare (iblk m c 4 t) := by
  unfold Dat.leavesExact; rw [show (cfgA m).idle 4 ((cfgA m).grid.coords t) = false from rfl, after4]; rfl
theorem leaves5 (c : Dev nD) (t : Fin (cfgA m).N) : (dats m 0 c).leavesExact 5 t = owns (c : Thread nD τ) (ms5 m t) fullShare (iblk m c 5 t) := by
  unfold Dat.leavesExact; rw [show (cfgA m).idle 5 ((cfgA m).grid.coords t) = false from rfl, after5]; rfl
/-- At the last point the output's buffer is handed back at the final accumulator; -/
theorem leaves6_last (c : Dev nD) (t : Fin (cfgA m).N) (h : t.val = 122) :
    (dats m 0 c).leavesExact 6 t = owns (c : Thread nD τ) (ms6 m t) fullShare (accVec m c 123) := by
  unfold Dat.leavesExact; rw [idle6_of_eq m t h, after6]; rfl
/-- at every other point, as it was found. -/
theorem leaves6_idle (c : Dev nD) (t : Fin (cfgA m).N) (h : t.val ≠ 122) :
    (dats m 0 c).leavesExact 6 t = iprop(∃ d, owns (c : Thread nD τ) (ms6 m t) fullShare ((dats m 0 c).before 6 t d)) :=
  Dat.leavesExact_idle (dats m 0 c) 6 t (idle6_of_ne m t h) (flush6_of_ne m t h)

/-! ## The body obligation -/

/-- The kernel's body at point `t`, on what the pipeline calls it with. -/
abbrev bodyAt (t : Fin (cfgA m).N) : Prog (TpuEff nD τ sig (Elt Ideal) Λ₀ .tc) PUnit :=
  cc0__kernel (grid0.coords t) tbM1 (Memref.isWhole_whole _) tbM2 (Memref.isWhole_whole _)
    (ms0 m t) (hs0 m t) (ms1 m t) (hs1 m t) (ms2 m t) (hs2 m t) (ms3 m t) (hs3 m t) (ms4 m t) (hs4 m t) (ms5 m t) (hs5 m t)
    (ms6 m t) (hs6 m t) scM (Memref.isWhole_whole _)

def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

def bodyPost (c : Dev nD) (t : Fin (cfgA m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4000000 in
/-- The body at any point. The inputs' buffers hold their blocks; the invariant hands over the tables' halves, the generator
    register and the accumulator — at the blocked accumulator before this block, or at anything at the first point —; the
    run applies; the accumulator comes back one block further and the output's buffer untouched, or, at the last point,
    at the final accumulator. The core owes nothing throughout. -/
theorem sound_body (c : Dev nD) (t : Fin (cfgA m).N) :
    bodyPre m c t ⊢ wp frame (wpE (defs₀ (F := Ideal)) Variants.none c none) Set.univ (bodyAt m t) (fun _ => bodyPost m c t) := by
  obtain rfl : c = c0 := Subsingleton.elim _ _
  unfold bodyPre bodyPost
  simp only [before0, before1, before2, before3, before4, before5]
  rw [show (dats m 0 c0).owesAt () t.succ = (dats m 0 c0).owesAt () t.castSucc from rfl]
  rw [leaves0, leaves1, leaves2, leaves3, leaves4, leaves5]
  rw [show (dats m 0 c0).Φ t.succ = PhiS m c0 (t.val + 1) from rfl, PhiS_pos m c0 (t.val + 1) (Nat.succ_ne_zero _), Phi_castSucc]
  have hN : t.val < 123 := lt_of_lt_of_eq t.isLt (N_A m)
  by_cases h0 : t.val = 0
  · -- the first point: the accumulator at anything
    have h122 : t.val ≠ 122 := by omega
    have hP : PhiS m c0 t.val = iprop(Pipeline.ΦA spec0 c0 ∗ Pipeline.ΦT pre0 (tbl m) c0) := by rw [h0]; rfl
    rw [hP, PhiT_eq, leaves6_idle m c0 t h122]
    unfold Pipeline.ΦA; rw [scopedRest0_eq]
    iintro ⟨⟨⟨⟨%fs, HS⟩, Hg⟩, HT0, HT1⟩, Ho, ⟨%d0, H0⟩, ⟨%d1, H1⟩, ⟨%d2, H2⟩, ⟨%d3, H3⟩, ⟨%d4, H4⟩, ⟨%d5, H5⟩, ⟨%d6, H6⟩⟩
    iapply (((runAt m c0 t fs).2 ((dats m 0 c0).before 6 t d6)).2.down fullShare.right Set.univ _)
    isplitl [HT0]
    · rw [owns_whole_eq]; iexists _; isplitr; · ipureintro; rfl
      iexact HT0
    isplitl [HT1]
    · rw [owns_whole_eq]; iexists _; isplitr; · ipureintro; rfl
      iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]
    · rw [owns_whole_eq]; iexists _; isplitr; · ipureintro; rfl
      iexact HS
    rw [owns_whole_eq, owns_whole_eq]
    iintro ⟨⟨%g1, %hg1, HT0⟩, ⟨%g2, %hg2, HT1⟩, H0, H1, H2, H3, H4, H5, HO, HS⟩
    subst hg1; subst hg2
    isplitl [HS Hg HT0 HT1]
    · isplitl [HS]
      · unfold owns; iexists _; isplitr; swap; · iexact HS
        ipureintro; exact acc_step m c0 t fs (fun h => absurd h0 h)
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6
    unfold owns; iexists _; isplitr; swap; · iexact HO
    ipureintro; exact outbuf_idle m c0 t fs _ h122
  · -- a later point: the accumulator at the blocked accumulator before this block
    rw [PhiS_pos m c0 t.val h0, PhiT_eq]
    by_cases h122 : t.val = 122
    · rw [leaves6_last m c0 t h122]
      iintro ⟨⟨HS, Hg, HT0, HT1⟩, Ho, ⟨%d0, H0⟩, ⟨%d1, H1⟩, ⟨%d2, H2⟩, ⟨%d3, H3⟩, ⟨%d4, H4⟩, ⟨%d5, H5⟩, ⟨%d6, H6⟩⟩
      iapply (((runAt m c0 t (accVec m c0 t.val)).2 ((dats m 0 c0).before 6 t d6)).2.down fullShare.right Set.univ _)
      isplitl [HT0]
      · rw [owns_whole_eq]; iexists _; isplitr; · ipureintro; rfl
        iexact HT0
      isplitl [HT1]
      · rw [owns_whole_eq]; iexists _; isplitr; · ipureintro; rfl
        iexact HT1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      rw [owns_whole_eq, owns_whole_eq]
      iintro ⟨⟨%g1, %hg1, HT0⟩, ⟨%g2, %hg2, HT1⟩, H0, H1, H2, H3, H4, H5, HO, HS⟩
      subst hg1; subst hg2
      isplitl [HS Hg HT0 HT1]
      · isplitl [HS]
        · unfold owns; iexists _; isplitr; swap; · iexact HS
          ipureintro; exact acc_step m c0 t _ (fun _ => rfl)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr; swap; · iexact HO
      ipureintro; exact outbuf_last m c0 t _ _ h122 (by rw [h122])
    · rw [leaves6_idle m c0 t h122]
      iintro ⟨⟨HS, Hg, HT0, HT1⟩, Ho, ⟨%d0, H0⟩, ⟨%d1, H1⟩, ⟨%d2, H2⟩, ⟨%d3, H3⟩, ⟨%d4, H4⟩, ⟨%d5, H5⟩, ⟨%d6, H6⟩⟩
      iapply (((runAt m c0 t (accVec m c0 t.val)).2 ((dats m 0 c0).before 6 t d6)).2.down fullShare.right Set.univ _)
      isplitl [HT0]
      · rw [owns_whole_eq]; iexists _; isplitr; · ipureintro; rfl
        iexact HT0
      isplitl [HT1]
      · rw [owns_whole_eq]; iexists _; isplitr; · ipureintro; rfl
        iexact HT1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      rw [owns_whole_eq, owns_whole_eq]
      iintro ⟨⟨%g1, %hg1, HT0⟩, ⟨%g2, %hg2, HT1⟩, H0, H1, H2, H3, H4, H5, HO, HS⟩
      subst hg1; subst hg2
      isplitl [HS Hg HT0 HT1]
      · isplitl [HS]
        · unfold owns; iexists _; isplitr; swap; · iexact HS
          ipureintro; exact acc_step m c0 t _ (fun _ => rfl)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6
      unfold owns; iexists _; isplitr; swap; · iexact HO
      ipureintro; exact outbuf_idle m c0 t _ _ h122

/-- The library's body obligation, at every point. -/
theorem body_obligation (c : Dev nD) : BodyObligation (dats m 0 c) (defs₀ (F := Ideal)) Variants.none () Set.univ := fun t => by
  rw [bigSep_W0, bigSep_W0]
  exact sound_body m c t

/-! ## The launch -/

/-- What the launch hands the region is the invariant before the first point. -/
theorem hin (c : Dev nD) : iprop(Pipeline.ΦA spec0 c ∗ Pipeline.ΦT pre0 (tbl m) c) ⊢ (dats m 0 c).Φ 0 := .rfl

/-- After the last point the invariant gives the class's back: the accumulator's contents are forgotten, the tables'
    halves let go. -/
theorem hout (c : Dev nD) : (dats m 0 c).Φ (Fin.last (cfgA m).N) ⊢ Pipeline.ΦA spec0 c := by
  rw [show (dats m 0 c).Φ (Fin.last (cfgA m).N) = PhiS m c (cfgA m).N from rfl,
    PhiS_pos m c _ (by rw [N_A]; decide)]
  unfold Pipeline.ΦA; rw [scopedRest0_eq, owns_whole_eq]
  iintro ⟨⟨%f, -, HS⟩, Hg, -⟩
  isplitl [HS]
  · iexists f; iexact HS
  iexact Hg

-- the launch theorem's implicit arguments are found by unifying its conclusion with this one, which takes unfolding plain
-- definitions in a metavariable's type
set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := Ideal))) (s₀ m ρ)
    (Pipeline.FramePost (Pipeline.pin pcfgs fun _ => adm m 0) (dats m) 0 (V m)) :=
  Pipeline.θ_run_frameP_track pcfgs (fun _ => adm m 0) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m)
    (hin := hin m) (hout := hout m)

end Cert.KernelIdeal.Run

end
-- ==== Proof.KIFinal.lean ====
/-
  The idealized kernel's result array after the run, and the run's post as the claim reads it.

  The output window's one block is the whole 1024 × 128 result array and its block index never moves, so the pipeline
  writes it back once, after the last grid point; what is written is the final accumulator. The two weight matrices
  are input windows' arrays, never written; the other four arguments bypass the region; no host operation writes an
  argument.
-/
import proofs.«414496_j87668872446565_1_alg».proof.Proof.KIFrame
import proofs.«414496_j87668872446565_1_alg».proof.Proof.KIArgs
import proofs.«414496_j87668872446565_1_alg».proof.Proof.SegSum
import Idealize.ShloMosaic.Lib.Pipeline.Value

set_option maxRecDepth 16384

noncomputable section

namespace Cert.KernelIdeal.Run

open Cert.KernelIdeal Cert.KernelIdeal.Gen Cert.KernelIdeal.Body
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

theorem flush6_of_eq (t : Fin (cfgA m).N) (h : t.val = 122) : ((cfgA m).win 6).flush t = true := by
  unfold Pipeline.Window.flush
  have hN : (cfgA m).grid.N = 123 := N_A m
  have h1 : decide (t.val + 1 = (cfgA m).grid.N) = true := by rw [decide_eq_true_iff, hN, h]
  rw [h1]; rfl

/-- The output's block is the whole result array: an index read through the block is the index itself. -/
theorem emb6 (t : Fin (cfgA m).N) (j : S1024x128.Idx) : (((cfgA m).win 6).blk t).view.emb j = j := by
  funext a; apply Fin.ext
  match a with
  | ⟨0, _⟩ => show 0 * 1024 + 1 * (j 0).val = (j 0).val; omega
  | ⟨1, _⟩ => show 0 * 128 + 1 * (j 1).val = (j 1).val; omega

/-- What the last point writes back is the final accumulator, read through the block. -/
theorem flushed6 (c : Dev nD) (t : Fin (cfgA m).N) :
    (dats m 0 c).flushed 6 t = (((cfgA m).win 6).blk t).view.read (Elt Ideal) (accVec m c 123) := by
  show ((cfgA m).win 6).cut ((cfgA m).grid.coords t) ((dats m 0 c).after 6 t) = _
  rw [after6]
  funext j
  exact (congrArg (accVec m c 123) (emb6 m t j)).symm

/-- Every index of the result array lies in the block the last point writes back. -/
theorem cover6 (c : Dev nD) (i : (((cfgA m).win 6).arr.view.loc (c.tc : Thread nD τ)).2.ty.Idx) :
    ∃ t : Fin (cfgA m).N, ((cfgA m).win 6).flush t = true ∧ i ∈ (((cfgA m).win 6).blk t).view.set := by
  have h122 : 122 < (cfgA m).N := (N_A m).symm ▸ (by decide : (122 : ℕ) < 123)
  refine ⟨⟨122, h122⟩, flush6_of_eq m _ rfl, ?_⟩
  have h := View.emb_mem_set (((cfgA m).win 6).blk ⟨122, h122⟩).view i
  have e := emb6 m ⟨122, h122⟩ i
  rw [e] at h
  exact h

/-- The result array after the run: the blocked accumulator after all 123 blocks. -/
theorem final6 (c : Dev nD) : (dats m 0 c).arrAt 6 (cfgA m).N = accVec m c 123 :=
  (dats m 0 c).arrAt_eq_of_cover 6 (accVec m c 123) (fun t _ => flushed6 m c t) (cover6 m c)

/-- After all 123 blocks the blocked accumulator is the per-graph sums. -/
theorem accVec_final (c : Dev nD) :
    accVec m c 123 = Cert.Spec.G (aX m c) (aI m c) (aW1 m c) (aB1 m c) (aW2 m c) (aB2 m c) := by
  funext i
  exact (Cert.Spec.accAt_final (aX m c) (aI m c) (aW1 m c) (aB1 m c) (aW2 m c) (aB2 m c) (i 0) (i 1)).trans
    (congrArg (Cert.Spec.G (aX m c) (aI m c) (aW1 m c) (aB1 m c) (aW2 m c) (aB2 m c)) (ValueIdx.eq_ix2 i).symm)

/-- THE RUN, READ: from any memory with zero counters every weakly fair execution of the idealized kernel's @main
    terminates, its result holds the per-graph sums of the gate-weighted rows, and its six arguments are unchanged. -/
theorem run_value : θ_run defs (onTc (τ := τ) (main (F := Ideal))) ⟨m, fun _ => 0, ρ⟩ (fun r => ∀ c : Dev nD,
      r.2.mem ((c.tc : Thread nD τ).loc main_v8) = Cert.Spec.G (aX m c) (aI m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans ((final6 m c).trans (accVec_final m c)),
     ((h c).2 main_arg0 (by decide : main_arg0 ∈ Pipeline.restRefs sig spec0)).trans (V_arg0 m c),
     ((h c).2 main_arg1 (by decide : main_arg1 ∈ Pipeline.restRefs sig spec0)).trans (V_arg1 m c),
     ((h c).1 2).trans (((dats m 0 c).arrAt_in 2 rfl _).trans ((A_eq m c 2).trans (V_arg2 m c))),
     ((h c).2 main_arg3 (by decide : main_arg3 ∈ Pipeline.restRefs sig spec0)).trans (V_arg3 m c),
     ((h c).1 4).trans (((dats m 0 c).arrAt_in 4 rfl _).trans ((A_eq m c 4).trans (V_arg4 m c))),
     ((h c).2 main_arg5 (by decide : main_arg5 ∈ Pipeline.restRefs sig spec0)).trans (V_arg5 m c)⟩) (run_main m ρ)

end Cert.KernelIdeal.Run

end
-- ==== Proof.RefValue.lean ====
/-
  The reference program computes the per-graph sums G.

  Read at an index, the reference is: the hidden layer hid[n, k] = max (Σ_j x[n, j] · W1[j, k] + b1[k]) 0, the logit
  logit[n] = Σ_k hid[n, k] · W2[k, 0] + b2[0], the gate 1 / (1 + e^(-logit[n])) spelt as a quotient of 1 by 1 plus the
  exponential of the negated logit, the weighted row gated[n, d] = gate[n] · x[n, d], and last an accumulating scatter of
  the weighted rows into a 1024 × 128 array of zeros, node n's row going to the row its id names.

  On the extended reals the scatter's element (g, d) is the operand's element plus the sum of the updates whose result
  index is (g, d). With one scatter index per node (read off the ids, signed and not clamped, for the result's first
  axis) and one window axis (the update's second axis, carried to the result's second axis), update (n, d') lands at
  (g, d) exactly when d' = d and id[n], read signed, is g; an id outside 0 … 1023 lands nowhere. So the sum over the
  update indices (n, d') that land at (g, d) is the sum over the nodes n with id g of gated[n, d], and the zero operand
  adds nothing: the result is G.
-/
import proofs.«414496_j87668872446565_1_alg».proof.Defs
import proofs.«414496_j87668872446565_1_alg».proof.Proof.Gen.ReferenceIdeal.Run
import proofs.«414496_j87668872446565_1_alg».proof.Proof.Gen.ReferenceIdeal.Read
import proofs.«414496_j87668872446565_1_alg».proof.Proof.Spec
import Idealize.ShloMosaic.PureOps.Ideal.Laws
import Idealize.ShloMosaic.Lib.ValueIdx
import Idealize.ShloMosaic.Lib.IdealHost

noncomputable section

namespace Cert.RefValue

open Idealize.ShloMosaic Idealize.ShloMosaic.ValueIdx Cert.ReferenceIdeal Cert.ReferenceIdeal.Gen

/-! ## Where an update of the scatter lands -/

/-- The scatter's dimension numbers: the update's axis 1 is the window axis, the result's axis 0 is inserted and is the
    axis the scatter index names, and the index vector lies along axis 1 of the index array. -/
abbrev scat := scatter_S1024x128_S1000000x1_S1000000x128_1_0_0_1

/-- On the result's first axis the window starts at the node's id, read signed. -/
theorem start0 (idx : IVec S1000000x1 32) (n : Fin 1000000) (d' : Fin 128) :
    scat.start (ix2 n d') idx 0 = (idx (ix2 n (0 : Fin 1))).toInt := by
  unfold ScatterDims.start
  rw [dif_pos (show (0 : Fin S1024x128.rank) ∈ scat.scatterDimsToOperandDims by decide)]
  refine congrArg (fun k => (idx k).toInt) ?_
  funext b; refine Fin.ext ?_
  match b with
  | ⟨0, _⟩ => rfl
  | ⟨1, _⟩ => rfl

/-- On the result's second axis the window starts at 0. -/
theorem start1 (idx : IVec S1000000x1 32) (j : S1000000x128.Idx) :
    scat.start j idx 1 = 0 := by
  unfold ScatterDims.start
  rw [dif_neg (show ¬ (1 : Fin S1024x128.rank) ∈ scat.scatterDimsToOperandDims by decide)]

/-- The window has no extent along the inserted axis. -/
theorem window0 (j : S1000000x128.Idx) : scat.window j 0 = 0 := by
  unfold ScatterDims.window
  rw [dif_neg (show ¬ (0 : Fin S1024x128.rank) ∈ scat.sKept by decide)]

/-- Along the result's second axis the window coordinate is the update's column. -/
theorem window1 (j : S1000000x128.Idx) : scat.window j 1 = (j 1).val := by
  unfold ScatterDims.window
  rw [dif_pos (show (1 : Fin S1024x128.rank) ∈ scat.sKept by decide)]
  rfl

/-- Where an update lands: update index (n, d') lands at row g, column d exactly when d' = d and the node's id,
    read signed, is g. -/
theorem resultIdx_iff (idx : IVec S1000000x1 32) (n : Fin 1000000) (d' : Fin 128) (g : Fin 1024) (d : Fin 128) :
    scat.resultIdx? (ix2 n d') idx = some (ix2 g d) ↔ d' = d ∧ (idx (ix2 n (0 : Fin 1))).toInt = (g.val : Int) := by
  have h0 : scat.start (ix2 n d') idx 0 + scat.window (ix2 n d') 0 = (idx (ix2 n (0 : Fin 1))).toInt := by
    rw [start0, window0]; simp
  have h1 : scat.start (ix2 n d') idx 1 + scat.window (ix2 n d') 1 = (d'.val : Int) := by
    rw [start1, window1]; simp
  unfold ScatterDims.resultIdx?
  by_cases h : ∀ a, 0 ≤ scat.start (ix2 n d') idx a + scat.window (ix2 n d') a ∧
      scat.start (ix2 n d') idx a + scat.window (ix2 n d') a < S1024x128.size a
  · rw [dif_pos h]
    constructor
    · intro e
      have e' := Option.some.inj e
      have e0 := congrArg Fin.val (congrFun e' 0)
      have e1 := congrArg Fin.val (congrFun e' 1)
      have hh0 := (h 0).1
      simp only [h0, h1] at e0 e1 hh0
      change (idx (ix2 n (0 : Fin 1))).toInt.toNat = g.val at e0
      change (d'.val : Int).toNat = d.val at e1
      refine ⟨Fin.ext (by simpa using e1), ?_⟩
      omega
    · rintro ⟨rfl, hg⟩
      refine congrArg some ?_
      funext a; refine Fin.ext ?_
      match a with
      | ⟨0, _⟩ =>
        show (scat.start (ix2 n d') idx 0 + scat.window (ix2 n d') 0).toNat = g.val
        rw [h0, hg]; simp
      | ⟨1, _⟩ =>
        show (scat.start (ix2 n d') idx 1 + scat.window (ix2 n d') 1).toNat = d'.val
        rw [h1]; simp
  · rw [dif_neg h]
    constructor
    · intro e; exact absurd e (by simp)
    · rintro ⟨rfl, hg⟩
      refine absurd (fun a => ?_) h
      match a with
      | ⟨0, _⟩ =>
        show 0 ≤ scat.start (ix2 n d') idx 0 + scat.window (ix2 n d') 0 ∧ scat.start (ix2 n d') idx 0 + scat.window (ix2 n d') 0 < (1024 : Nat)
        rw [h0, hg]; have := g.isLt; omega
      | ⟨1, _⟩ =>
        show 0 ≤ scat.start (ix2 n d') idx 1 + scat.window (ix2 n d') 1 ∧ scat.start (ix2 n d') idx 1 + scat.window (ix2 n d') 1 < (128 : Nat)
        rw [h1]; have := d'.isLt; omega

open Cert.ReferenceIdeal.Read

/-! ## The index functions of the layout operations, at an index given by its coordinates -/

/-- Each layout operation's source index, at a result index given by its coordinates, is the expected pair. -/
theorem lidx0 (n : Fin 1000000) (k j : Fin 128) : lidx_main_v0 (ix2 n k) j = ix2 n j := by
  funext a; match a with | ⟨0, _⟩ => rfl | ⟨1, _⟩ => rfl
theorem ridx0 (n : Fin 1000000) (k j : Fin 128) : ridx_main_v0 (ix2 n k) j = ix2 j k := by
  funext a; match a with | ⟨0, _⟩ => rfl | ⟨1, _⟩ => rfl
theorem idx12 (n : Fin 1000000) (k : Fin 128) : idx_main_v1 (idx_main_v2 (ix2 n k)) = ix1 k := by
  funext a; match a with | ⟨0, _⟩ => rfl
theorem lidx5 (n : Fin 1000000) (z : Fin 1) (k : Fin 128) : lidx_main_v5 (ix2 n z) k = ix2 n k := by
  funext a; match a with | ⟨0, _⟩ => rfl | ⟨1, _⟩ => rfl
theorem ridx5 (n : Fin 1000000) (z : Fin 1) (k : Fin 128) : ridx_main_v5 (ix2 n z) k = ix2 k z := by
  funext a; match a with | ⟨0, _⟩ => rfl | ⟨1, _⟩ => rfl
theorem idx67 (i : S1000000x1.Idx) : idx_main_v6 (idx_main_v7 i) = ix1 (0 : Fin 1) := by
  funext a; match a with | ⟨0, _⟩ => rfl
theorem idx15 (n : Fin 1000000) (d : Fin 128) : idx_main_v15 (ix2 n d) = ix2 n (0 : Fin 1) := by
  funext a; match a with | ⟨0, _⟩ => rfl | ⟨1, _⟩ => rfl
theorem idx18 (n : Fin 1000000) (z : Fin 1) : idx_main_v18 (ix2 n z) = ix1 n := by
  funext a; match a with | ⟨0, _⟩ => rfl

section Gate

variable (x0 : (⟨S1000000x128, .f32⟩ : BufTy).Contents (Elt Ideal))
  (x2 : (⟨S128x128, .f32⟩ : BufTy).Contents (Elt Ideal)) (x3 : (⟨S128, .f32⟩ : BufTy).Contents (Elt Ideal))
  (x4 : (⟨S128x1, .f32⟩ : BufTy).Contents (Elt Ideal)) (x5 : (⟨S1, .f32⟩ : BufTy).Contents (Elt Ideal))

/-- The hidden layer at (n, k). -/
theorem v4_at (n : Fin 1000000) (k : Fin 128) :
    val_main_v4 (F := Ideal) x0 x2 x3 (ix2 n k) = Cert.Spec.hidOf x2 x3 (Cert.Spec.rowX x0 n) k := by
  rw [val_main_v4_apply, val_main_v3_apply, val_main_v0_apply, val_main_v2_apply, val_main_v1_apply, idx12,
    val_main_call0_v0_apply, val_main_call0_cst_apply, Ideal.ofBits_def, Ideal.ofBits_zero_f32, Ideal.maximumf_def,
    Ideal.addf_def]
  unfold Cert.Spec.hidOf Cert.Spec.rowX
  refine congrArg (fun s => max (s + x3 (ix1 k)) 0) ?_
  refine Finset.sum_congr rfl fun j _ => ?_
  rw [lidx0, ridx0]

/-- The logit of node n. -/
theorem v8_at (n : Fin 1000000) :
    val_main_v8 (F := Ideal) x0 x2 x3 x4 x5 (ix2 n (0 : Fin 1)) = Cert.Spec.logitOf x2 x3 x4 x5 (Cert.Spec.rowX x0 n) := by
  rw [val_main_v8_apply, val_main_v5_apply, val_main_v7_apply, val_main_v6_apply, idx67, Ideal.addf_def]
  unfold Cert.Spec.logitOf
  refine congrArg (fun s => s + x5 (ix1 (0 : Fin 1))) ?_
  refine Finset.sum_congr rfl fun k _ => ?_
  rw [lidx5, ridx5, v4_at]

/-- The gate of node n: 1 / (1 + e^(-logit)). -/
theorem v14_at (n : Fin 1000000) :
    val_main_v14 (F := Ideal) x0 x2 x3 x4 x5 (ix2 n (0 : Fin 1))
      = Ideal.logistic (Cert.Spec.logitOf x2 x3 x4 x5 (Cert.Spec.rowX x0 n)) := by
  rw [val_main_v14_apply, val_main_v13_apply, val_main_cst_0_apply, val_main_v12_apply, val_main_v11_apply,
    val_main_cst_apply, val_main_v10_apply, val_main_v9_apply, v8_at, Ideal.ofBits_def, Ideal.ofBits_one_f32,
    Ideal.hostDivf_def, Ideal.addf_def, Ideal.hostUnary_exp_def, Ideal.hostNegf_def, Ideal.negf_def]
  rfl

/-- The weighted row at (n, d). -/
theorem v16_at (n : Fin 1000000) (d : Fin 128) :
    val_main_v16 (F := Ideal) x0 x2 x3 x4 x5 (ix2 n d) = Cert.Spec.gatedOf x2 x3 x4 x5 (Cert.Spec.rowX x0 n) d := by
  rw [val_main_v16_apply, val_main_v15_apply, idx15, v14_at, Ideal.mulf_def]
  rfl

end Gate

/-! ## The scatter at an index -/

/-- The accumulating scatter at (g, d): the operand's element plus the updates (n, d) of the nodes n whose id,
    read signed, is g. -/
theorem scatter_at (x : S1024x128.Idx → EReal) (idx : IVec S1000000x1 32) (upd : S1000000x128.Idx → EReal)
    (g : Fin 1024) (d : Fin 128) :
    Ideal.hostScatterAdd scat x idx upd (ix2 g d)
      = x (ix2 g d) + ∑ n ∈ Finset.univ.filter (fun n : Fin 1000000 => (idx (ix2 n (0 : Fin 1))).toInt = (g.val : Int)),
          upd (ix2 n d) := by
  unfold Ideal.hostScatterAdd
  refine congrArg (fun s => x (ix2 g d) + s) ?_
  rw [Finset.sum_filter, sum_idx2, Finset.sum_filter]
  refine Finset.sum_congr rfl fun n _ => ?_
  simp only [resultIdx_iff]
  by_cases hQ : (idx (ix2 n (0 : Fin 1))).toInt = (g.val : Int)
  · simp [hQ]
  · simp [hQ]

/-- The reference's last operation, named: the accumulating scatter of the weighted rows into zeros. -/
theorem v19_eq (x0 : (⟨S1000000x128, .f32⟩ : BufTy).Contents (Elt Ideal)) (x1 : (⟨S1000000, .i32⟩ : BufTy).Contents (Elt Ideal))
    (x2 : (⟨S128x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) :
    val_main_v19 (F := Ideal) x0 x1 x2 x3 x4 x5
      = Ideal.hostScatterAdd scat (val_main_v17 (F := Ideal)) (val_main_v18 (F := Ideal) x1)
          (val_main_v16 (F := Ideal) x0 x2 x3 x4 x5) := rfl

/-- The reference's result is the per-graph sum of the weighted rows. -/
theorem ref_is_G (x0 : (⟨Cert.ReferenceIdeal.S1000000x128, .f32⟩ : BufTy).Contents (Elt Ideal)) (x1 : (⟨Cert.ReferenceIdeal.S1000000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x1, .f32⟩ : BufTy).Contents (Elt Ideal)) (x5 : (⟨Cert.ReferenceIdeal.S1, .f32⟩ : BufTy).Contents (Elt Ideal)) :
    Cert.ReferenceIdeal.Read.val_main_v19 (F := Ideal) x0 x1 x2 x3 x4 x5 = Cert.Spec.G x0 x1 x2 x3 x4 x5 := by
  rw [v19_eq]
  funext i
  obtain ⟨g, d, rfl⟩ : ∃ (g : Fin 1024) (d : Fin 128), i = ix2 g d := ⟨i 0, i 1, eq_ix2 i⟩
  rw [scatter_at, val_main_v17_apply, val_main_cst_1_apply, Ideal.ofBits_def, Ideal.ofBits_zero_f32, zero_add]
  unfold Cert.Spec.G
  refine Finset.sum_congr (Finset.filter_congr fun n _ => ?_) (fun n _ => v16_at x0 x2 x3 x4 x5 n d)
  rw [val_main_v18_apply, idx18]

open Idealize.ShloMosaic.TcCoe Idealize.SL.Sem

/-- Every weakly fair execution of the reference ends with its result at the per-graph sums of the weighted rows of
    the arguments' launch contents, the arguments unchanged. -/
theorem run_G (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread nD τ).loc main_v19) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run Cert.ReferenceIdeal.defs _ _).mono
    (fun _ h c => ⟨(h c).1.trans ((val_main_v19_eq _ _ _ _ _ _).trans (ref_is_G _ _ _ _ _ _)), (h c).2⟩)
    (Cert.ReferenceIdeal.Value.run (F := Ideal) m ρ)

end Cert.RefValue

end
-- ==== Proof.lean ====
/-
  The certificate: a Pallas kernel that sums gate-weighted node rows graph by graph, against its jnp reference.

  Both programs compute, for 1,000,000 nodes with rows x[n, ·] of 128 reals and graph ids idx[n],
      gate[n]  = 1 / (1 + e^(-(max (x[n] · W1 + b1) 0 · W2 + b2))),     out[g, d] = Σ_{n : idx[n] = g} gate[n] · x[n, d]   (g < 1024),
  an id outside 0 … 1023 belonging to no graph (the reference's scatter drops it; the kernel's one-hot never matches it).
  The reference is one scatter-add over all rows. The kernel pads the rows to 123 blocks of 8192 (zero rows, id 1024),
  keeps a 1024 × 128 accumulator, and per block adds, into each of eight groups of 128 accumulator rows, the one-hot
  product that picks the block's rows by id — skipping a group when the block's least and greatest id show that no row of
  the block can fall in it, which changes nothing since the skipped sum is empty. Over the extended reals the two results
  are the same sum regrouped; no law beyond commutativity and associativity of + and the units of · is used, so the
  finiteness of the inputs is never opened.

  The three frames: the reference's is its run with the result dropped; the idealized kernel's is its valued run with
  the result dropped; the word-level kernel's names nothing the kernel computes (its conditionals read only the grid
  point and two tables of ids, so the body runs through whatever its buffers hold). The idealization rewrote nothing.
-/
import proofs.«414496_j87668872446565_1_alg».proof.Defs
import proofs.«414496_j87668872446565_1_alg».proof.Proof.Gen.Kernel
import proofs.«414496_j87668872446565_1_alg».proof.Proof.Gen.KernelIdeal
import proofs.«414496_j87668872446565_1_alg».proof.Proof.Gen.ReferenceIdeal
import proofs.«414496_j87668872446565_1_alg».proof.Proof.Gen.Pre_finite_inputs
import proofs.«414496_j87668872446565_1_alg».proof.Proof.KFrame
import proofs.«414496_j87668872446565_1_alg».proof.Proof.KIFinal
import proofs.«414496_j87668872446565_1_alg».proof.Proof.RefValue

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Run.frame (F := Bits) m ρ

/-- So does the idealized kernel: its valued run, the result dropped. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Run.run_value m ρ)

/-- And the reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run_G m ρ)

/-- From memories agreeing on the arguments both programs end with the per-graph sums of the gate-weighted rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (Cert.KernelIdeal.Run.aX m c) (Cert.KernelIdeal.Run.aI m c) (Cert.KernelIdeal.Run.aW1 m c)
    (Cert.KernelIdeal.Run.aB1 m c) (Cert.KernelIdeal.Run.aW2 m c) (Cert.KernelIdeal.Run.aB2 m c), Cert.KernelIdeal.Run.run_value m ρ, ?_⟩
  refine (θ_run Cert.ReferenceIdeal.defs _ _).mono (fun _ h c => ⟨(h c).1.trans ?_, (h c).2⟩) (Cert.RefValue.run_G m' ρ')
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
